-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S4096x16384 : Shape := ⟨2, ![4096, 16384]⟩
abbrev S4096 : Shape := ⟨1, ![4096]⟩
abbrev S16384x2 : Shape := ⟨2, ![16384, 2]⟩
abbrev S16384 : Shape := ⟨1, ![16384]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S16384x2 : S_.BroadcastsInDim S16384x2 (![] : Fin 0 → Fin S16384x2.rank)
  reducesTo_S16384x2_S_d0_1 : S16384x2.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg6 : IVec S16384 32) (main_v31 : IVec S_ 1) (main_v32 : IVec S16384 32) : IVec S_ 1 :=
  let main_v33 : IVec S16384 1 := cmpi .sge main_arg6 main_v32
  let main_c_13 : IVec S_ 1 := constantI S_ 1 1#1
  let main_v34 : IVec S_ 1 := (fun x v => Host.reduce IntOp.andi x v reducesTo_S16384_S_d0 h_S_) main_v33 main_c_13
  let main_v35 : IVec S_ 1 := andi main_v31 main_v34
  main_v35

def fn_part1 {F : FTy → Type} [FloatOps F] (main_arg3 : IVec S4096 32) (main_arg4 : IVec S4096 32) (main_arg5 : IVec S16384x2 32) (main_arg6 : IVec S16384 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg3 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_c_7 : IVec S_ 32 := constantI S_ 32 0#32
  let main_v21 : IVec S16384x2 32 := broadcastInDim S16384x2 ![] bcast_S_S16384x2 main_c_7
  let main_v22 : IVec S16384x2 1 := cmpi .sge main_arg5 main_v21
  let main_c_8 : IVec S_ 32 := constantI S_ 32 1024#32
  let main_v23 : IVec S16384x2 32 := broadcastInDim S16384x2 ![] bcast_S_S16384x2 main_c_8
  let main_v24 : IVec S16384x2 1 := cmpi .slt main_arg5 main_v23
  let main_v25 : IVec S16384x2 1 := andi main_v22 main_v24
  let main_c_9 : IVec S_ 1 := constantI S_ 1 1#1
  let main_v26 : IVec S_ 1 := (fun x v => Host.reduce IntOp.andi x v reducesTo_S16384x2_S_d0_1 h_S_) main_v25 main_c_9
  let main_v27 : IVec S_ 1 := andi main_v20 main_v26
  let main_c_10 : IVec S_ 32 := constantI S_ 32 0#32
  let main_v28 : IVec S4096 32 := broadcastInDim S4096 ![] bcast_S_S4096 main_c_10
  let main_v29 : IVec S4096 1 := cmpi .sge main_arg4 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  let main_c_12 : IVec S_ 32 := constantI S_ 32 0#32
  let main_v32 : IVec S16384 32 := broadcastInDim S16384 ![] bcast_S_S16384 main_c_12
  fn_part2 (F := F) main_arg6 main_v31 main_v32

def fn {F : FTy → Type} [FloatOps F] (main_arg0 : FVec F S4096x1024 .f32) (main_arg1 : FVec F S4096x4096 .f32) (main_arg2 : FVec F S4096x16384 .f32) (main_arg3 : IVec S4096 32) (main_arg4 : IVec S4096 32) (main_arg5 : IVec S16384x2 32) (main_arg6 : IVec S16384 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg3 main_v14
  let main_c_5 : IVec S_ 32 := constantI S_ 32 1024#32
  fn_part1 (F := F) main_arg3 main_arg4 main_arg5 main_arg6 main_v13 main_v15 main_c_5
-- ==== Kernel.lean ====
abbrev S4096x1024 : Shape := ⟨2, ![4096, 1024]⟩
abbrev S4096x4096 : Shape := ⟨2, ![4096, 4096]⟩
abbrev S4096x16384 : Shape := ⟨2, ![4096, 16384]⟩
abbrev S4096 : Shape := ⟨1, ![4096]⟩
abbrev S16384x2 : Shape := ⟨2, ![16384, 2]⟩
abbrev S16384 : Shape := ⟨1, ![16384]⟩
abbrev S16384x1 : Shape := ⟨2, ![16384, 1]⟩
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 13
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x16384, .f32⟩
  | .hbm, ⟨3, _⟩ => ⟨S4096, .i32⟩
  | .hbm, ⟨4, _⟩ => ⟨S4096, .i32⟩
  | .hbm, ⟨5, _⟩ => ⟨S16384x2, .i32⟩
  | .hbm, ⟨6, _⟩ => ⟨S16384, .i32⟩
  | .hbm, ⟨7, _⟩ => ⟨S16384x1, .i32⟩
  | .hbm, ⟨8, _⟩ => ⟨S16384, .i32⟩
  | .hbm, ⟨9, _⟩ => ⟨S16384x1, .i32⟩
  | .hbm, ⟨10, _⟩ => ⟨S16384, .i32⟩
  | .hbm, ⟨11, _⟩ => ⟨S4096x1024, .f32⟩
  | .hbm, ⟨12, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024, .i32⟩
  | .local _ .vmem, ⟨5, _⟩ => ⟨S1024, .i32⟩
  | .local _ .vmem, ⟨6, _⟩ => ⟨S1024, .i32⟩
  | .local _ .vmem, ⟨7, _⟩ => ⟨S1024, .i32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024, .i32⟩
  | .local _ .vmem, ⟨16, _⟩ => ⟨S1024, .i32⟩
  | .local _ .vmem, ⟨17, _⟩ => ⟨S1024, .i32⟩
  | .local _ .vmem, ⟨18, _⟩ => ⟨S1024, .i32⟩
  | .local _ .vmem, ⟨19, _⟩ => ⟨S1024, .i32⟩
  | .local _ .vmem, ⟨20, _⟩ => ⟨S1024, .i32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_13 : BitVec 32 := 0#32
  let v43 : BitVec 1 := Scalar.cmpi .ne v42 c0_i32_13
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  iota_S1024x1024_d0_w32 : S1024x1024.Iotas .tc 32 [0]
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  natLt_1_32 : 1 < 32
  shapeCasts_S1024_S1024 : S1024.ShapeCasts S1024
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .i32 = 32 ∨ (Rect.block (s := S4096) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .i32 = 32 ∨ (Rect.block (s := S4096) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x16384.size a
  hwx1_1 : ∀ i : grid1.Coords, EltTy.bits .f32 = 32 ∨ (Rect.block (s := S4096x16384) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S16384.size a
  hwx1_2 : ∀ i : grid1.Coords, EltTy.bits .i32 = 32 ∨ (Rect.block (s := S16384) S1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S16384.size a
  hwx1_3 : ∀ i : grid1.Coords, EltTy.bits .i32 = 32 ∨ (Rect.block (s := S16384) S1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S16384.size a
  hwx1_4 : ∀ i : grid1.Coords, EltTy.bits .i32 = 32 ∨ (Rect.block (s := S16384) S1024.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .f32 = 32 ∨ (Rect.block (s := S4096x1024) S512x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S4096x1024.size a
  hwx1_6 : ∀ i : grid1.Coords, EltTy.bits .f32 = 32 ∨ (Rect.block (s := S4096x1024) S512x1024.size (cc1_transform_6 i) (hinb1_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S512x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S4096x16384 : Shape := ⟨2, ![4096, 16384]⟩
abbrev S4096 : Shape := ⟨1, ![4096]⟩
abbrev S16384x2 : Shape := ⟨2, ![16384, 2]⟩
abbrev S16384 : Shape := ⟨1, ![16384]⟩
abbrev S_ : Shape := ⟨0, ![]⟩
abbrev S4096x1 : Shape := ⟨2, ![4096, 1]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x16384, .f32⟩
  | .hbm, ⟨3, _⟩ => ⟨S4096, .i32⟩
  | .hbm, ⟨4, _⟩ => ⟨S4096, .i32⟩
  | .hbm, ⟨5, _⟩ => ⟨S16384x2, .i32⟩
  | .hbm, ⟨6, _⟩ => ⟨S16384, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x4096, .f32⟩
  | .hbm, ⟨16, _⟩ => ⟨S4096x4096, .f32⟩
  | .hbm, ⟨17, _⟩ => ⟨S16384x1, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S4096x16384, .f32⟩
  | .hbm, ⟨28, _⟩ => ⟨S16384x1, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S4096x16384, .f32⟩
  | .hbm, ⟨39, _⟩ => ⟨S4096x16384, .f32⟩
  | .hbm, ⟨40, _⟩ => ⟨S4096x16384, .f32⟩
  | .hbm, ⟨41, _⟩ => ⟨S_, .f32⟩
  | .hbm, ⟨42, _⟩ => ⟨S4096x1024, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x1024, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  bcast_S_S4096x1024 : S_.BroadcastsInDim S4096x1024 (![] : Fin 0 → Fin S4096x1024.rank)
  gather_S4096x1024_S4096x1_S4096x4096_0_1_n_n_1_1_40961_wf : GatherDims.WF S4096x1024 S4096x1 S4096x4096 [0] [1] [] [1] [] 1 ![4096, 1]
  gather_S4096x1024_S16384x1_S4096x16384_0_1_n_n_1_1_40961_wf : GatherDims.WF S4096x1024 S16384x1 S4096x16384 [0] [1] [] [1] [] 1 ![4096, 1]
  scatter_S4096x1024_S4096x1_S4096x4096_0_1_1_1_wf : ScatterDims.WF S4096x1024 S4096x1 S4096x4096 [0] [1] [1] 1
  scatter_S4096x1024_S16384x1_S4096x16384_0_1_1_1_wf : ScatterDims.WF S4096x1024 S16384x1 S4096x16384 [0] [1] [1] 1

variable [Facts₀]

def gather_S4096x1024_S4096x1_S4096x4096_0_1_n_n_1_1_40961 : GatherDims S4096x1024 S4096x1 S4096x4096 where
  offsetDims := [0]
  collapsedSliceDims := [1]
  operandBatchingDims := []
  startIndicesBatchingDims := []
  startIndexMap := [1]
  indexVectorDim := 1
  sliceSizes := ![4096, 1]
  wf := gather_S4096x1024_S4096x1_S4096x4096_0_1_n_n_1_1_40961_wf
def gather_S4096x1024_S16384x1_S4096x16384_0_1_n_n_1_1_40961 : GatherDims S4096x1024 S16384x1 S4096x16384 where
  offsetDims := [0]
  collapsedSliceDims := [1]
  operandBatchingDims := []
  startIndicesBatchingDims := []
  startIndexMap := [1]
  indexVectorDim := 1
  sliceSizes := ![4096, 1]
  wf := gather_S4096x1024_S16384x1_S4096x16384_0_1_n_n_1_1_40961_wf
def scatter_S4096x1024_S4096x1_S4096x4096_0_1_1_1 : ScatterDims S4096x1024 S4096x1 S4096x4096 where
  updateWindowDims := [0]
  insertedWindowDims := [1]
  scatterDimsToOperandDims := [1]
  indexVectorDim := 1
  wf := scatter_S4096x1024_S4096x1_S4096x4096_0_1_1_1_wf
def scatter_S4096x1024_S16384x1_S4096x16384_0_1_1_1 : ScatterDims S4096x1024 S16384x1 S4096x16384 where
  updateWindowDims := [0]
  insertedWindowDims := [1]
  scatterDimsToOperandDims := [1]
  indexVectorDim := 1
  wf := scatter_S4096x1024_S16384x1_S4096x16384_0_1_1_1_wf

class Facts : Prop extends Facts₀ where

variable [Facts]
-- ==== Proof.Term1.lean ====
/-
  The first-order kernel's region: what the accumulator holds after each grid point, and the region's proof data.

  The grid is (batch tile, reaction block), the reaction block running fastest with period 4.  At the first
  reaction block of a batch tile the body resets its accumulator to zero; at every block it adds the block's
  contribution (two one-hot contractions) to the accumulator; at the last block it copies the accumulator
  into the output window, which is left alone at every other point.
-/
import proofs.«430890_j60138132078971_1_alg».proof.Proof.Gen.KernelIdeal.Launch
import proofs.«430890_j60138132078971_1_alg».proof.Proof.Gen.KernelIdeal.Skeleton
import proofs.«430890_j60138132078971_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Term1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- The body's first branch: this is the first reaction block of its batch tile (reaction coordinate 0). -/
abbrev firstBlock (i : grid0.Coords) : Prop :=
  (Scalar.cmpi .ne (Scalar.extui (Scalar.cmpi .eq (BitVec.ofNat 32 (i 1).val) 0#32)) 0#32) = 1#1
/-- It holds exactly at the points whose position is a multiple of 4. -/
theorem first_iff : ∀ t : Fin cfg0.N, firstBlock (grid0.coords t) ↔ t.val % 4 = 0 :=
  (by decide +kernel : ∀ t : Fin grid0.N, firstBlock (grid0.coords t) ↔ t.val % 4 = 0)

/-- The body's second branch: this is the last reaction block of its batch tile (reaction coordinate 3). -/
abbrev lastBlock (i : grid0.Coords) : Prop := k0_cond2 i = 1#1
/-- It holds exactly at the points whose position is 3 modulo 4. -/
theorem last_iff : ∀ t : Fin cfg0.N, lastBlock (grid0.coords t) ↔ t.val % 4 = 3 :=
  (by decide +kernel : ∀ t : Fin grid0.N, lastBlock (grid0.coords t) ↔ t.val % 4 = 3)

/-- Away from a last block the output window is idle, -/
theorem out_idle : ∀ t : Fin cfg0.N, ¬lastBlock (grid0.coords t) → cfg0.idle 4 (grid0.coords t) = true := by decide +kernel
/-- and is not written back; -/
theorem out_unflushed : ∀ t : Fin cfg0.N, ¬lastBlock (grid0.coords t) → (cfg0.win 4).flush t = false := by decide +kernel
/-- at a last block it is live. -/
theorem out_live : ∀ t : Fin cfg0.N, lastBlock (grid0.coords t) → cfg0.idle 4 (grid0.coords t) = false := by decide +kernel

/-! ## The memrefs the body is called on -/

/-- The accumulator: a whole scoped buffer of the kernel's own, carried from point to point. -/
abbrev scr : Memref sig .tc .vmem S512x1024 .f32 := Memref.whole cc0_scratch0

/-- Each window's current staging memref at point `t`, and its wholeness. -/
abbrev stg0 (t : Fin cfg0.N) : Memref sig .tc .vmem S512x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S512x1024 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1024 .i32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1024 .i32 := win0_3.stage (cfg0.slots t 3)
abbrev whole3 (t : Fin cfg0.N) : (stg3 t).IsWhole := hstage0_3 ((cfg0.slots t 3).cast nbuf0_3)
abbrev stg4 (t : Fin cfg0.N) : Memref sig .tc .vmem S512x1024 .f32 := win0_4.stage (cfg0.slots t 4)
abbrev whole4 (t : Fin cfg0.N) : (stg4 t).IsWhole := hstage0_4 ((cfg0.slots t 4).cast nbuf0_4)

/-- The offsets of a whole-buffer rectangle are zero, in rank 2 and in rank 1. -/
theorem off2 : (![0, 0] : Fin 2 → Nat) = fun _ => 0 := funext fun a => by fin_cases a <;> rfl
theorem off1 : (![0] : Fin 1 → Nat) = fun _ => 0 := funext fun a => by fin_cases a <;> rfl

/-! ## The body's three runs -/

set_option maxHeartbeats 1000000 in
/-- FIRST BLOCK (reset taken, copy-out not taken).  On whole memrefs, the four inputs at their contents, the
    output buffer at contents it hands back untouched and the accumulator at anything, the body runs to the
    inputs and the output as they were and the accumulator with the pieces `LS` written (latest first). -/
noncomputable def runFirst (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : firstBlock i) (hc1 : ¬lastBlock i)
    (x0 : Vec F S512x1024 .f32) (x1 : Vec F S512x1024 .f32) (x2 : Vec F S1024 .i32) (x3 : Vec F S1024 .i32) :
    { LS : List (View.Piece (Elt F) S512x1024 .f32) //
      ∀ (xo : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc0__term1_kernel i arg2 harg2 arg3 harg3 arg4 harg4 arg5 harg5 arg6 harg6 arg7 harg7) K } := by
  refine ⟨?_, fun xo E K => ?run⟩
  case run =>
    simp only [cc0__term1_kernel_eq_skeleton]; unfold cc0__term1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- MIDDLE BLOCK (neither branch taken).  As before, but the accumulator is handed over at the contents `xs`
    the point before left. -/
noncomputable def runMiddle (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : ¬lastBlock i)
    (x0 : Vec F S512x1024 .f32) (x1 : Vec F S512x1024 .f32) (x2 : Vec F S1024 .i32) (x3 : Vec F S1024 .i32) (xs : Vec F S512x1024 .f32) :
    { LS : List (View.Piece (Elt F) S512x1024 .f32) //
      ∀ (xo : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc0__term1_kernel i arg2 harg2 arg3 harg3 arg4 harg4 arg5 harg5 arg6 harg6 arg7 harg7) K } := by
  refine ⟨?_, fun xo E K => ?run⟩
  case run =>
    simp only [cc0__term1_kernel_eq_skeleton]; unfold cc0__term1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- LAST BLOCK (reset not taken, copy-out taken).  The output buffer is handed over at anything and comes back
    with the pieces `LO` written; the accumulator as in the middle case. -/
noncomputable def runLast (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i)
    (x0 : Vec F S512x1024 .f32) (x1 : Vec F S512x1024 .f32) (x2 : Vec F S1024 .i32) (x3 : Vec F S1024 .i32) (xs : Vec F S512x1024 .f32) :
    Σ' (LO : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__term1_kernel i arg2 harg2 arg3 harg3 arg4 harg4 arg5 harg5 arg6 harg6 arg7 harg7) K } := by
  refine ⟨?_, ?_, fun E K => ?run⟩
  case run =>
    simp only [cc0__term1_kernel_eq_skeleton]; unfold cc0__term1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

/-! ## What the runs leave: the pieces cover their buffers, and read back as the payloads -/

/-- The first block's pieces cover the accumulator. -/
theorem cover_first (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : firstBlock i) (hc1 : ¬lastBlock i) (x0 : Vec F S512x1024 .f32) (x1 : Vec F S512x1024 .f32) (x2 : Vec F S1024 .i32) (x3 : Vec F S1024 .i32) (y : S512x1024.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S512x1024.size (by sl_kernel_rfl) y

/-- A middle block's pieces cover the accumulator. -/
theorem cover_middle (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : ¬lastBlock i) (x0 : Vec F S512x1024 .f32) (x1 : Vec F S512x1024 .f32) (x2 : Vec F S1024 .i32) (x3 : Vec F S1024 .i32) (xs : Vec F S512x1024 .f32) (y : S512x1024.Idx) :
    ∃ pc ∈ (runMiddle c i arg2 harg2 arg3 harg3 arg4 harg4 arg5 harg5 arg6 harg6 arg7 harg7 hc0 hc1 x0 x1 x2 x3 xs).1, y ∈ pc.1.set :=
  View.cover_of_tiledL (runMiddle c i arg2 harg2 arg3 harg3 arg4 harg4 arg5 harg5 arg6 harg6 arg7 harg7 hc0 hc1 x0 x1 x2 x3 xs).1 S512x1024.size (by sl_kernel_rfl) y

/-- The last block's pieces cover the accumulator, -/
theorem cover_last_acc (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32) (y : S512x1024.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S512x1024.size (by sl_kernel_rfl) y

/-- and the output buffer. -/
theorem cover_last_out (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32) (y : S512x1024.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S512x1024.size (by sl_kernel_rfl) y

/-- After the first block the accumulator reads as the block's contribution added to zero: the reset's store is
    covered by the update's, whose operand is the reset read back. -/
theorem read_first (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : firstBlock i) (hc1 : ¬lastBlock i) (x0 : Vec F S512x1024 .f32) (x1 : Vec F S512x1024 .f32) (x2 : Vec F S1024 .i32) (x3 : Vec F S1024 .i32)
    (v : View sig .tc .vmem S512x1024 .f32) (f : v.ty.Contents (Elt F)) :
    v.read (Elt F) (v.writes (Elt F) f (runFirst c i arg2 harg2 arg3 harg3 arg4 harg4 arg5 harg5 arg6 harg6 arg7 harg7 hc0 hc1 x0 x1 x2 x3).1)
      = (k0_pay2 x0 x2 x1 x3 (k0_pay1 (F := F)) : Vec F S512x1024 .f32) := by
  rw [View.read_writes_eq_canon _ _ _ (cover_first c i arg2 harg2 arg3 harg3 arg4 harg4 arg5 harg5 arg6 harg6 arg7 harg7 hc0 hc1 x0 x1 x2 x3)]
  unfold runFirst
  dsimp only
  sl_unfold_words
  rw [View.canon_cons_unit_zero (S := S512x1024) off2, View.readCov_unit_zero (S := S512x1024) _ off2]
  simp only [View.readAt_eq_ld, harg2.read_unread, harg3.read_unread, harg4.read_unread, harg5.read_unread, harg7.read_unread,
    View.ld_unit_zero (S := S512x1024) off2, View.ld_unit_zero (S := S1024) off1]

/-- After a middle block it reads as the block's contribution added to what it held. -/
theorem read_middle (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : ¬lastBlock i) (x0 : Vec F S512x1024 .f32) (x1 : Vec F S512x1024 .f32) (x2 : Vec F S1024 .i32) (x3 : Vec F S1024 .i32) (xs : Vec F S512x1024 .f32)
    (v : View sig .tc .vmem S512x1024 .f32) (f : v.ty.Contents (Elt F)) :
    v.read (Elt F) (v.writes (Elt F) f (runMiddle c i arg2 harg2 arg3 harg3 arg4 harg4 arg5 harg5 arg6 harg6 arg7 harg7 hc0 hc1 x0 x1 x2 x3 xs).1)
      = (k0_pay2 x0 x2 x1 x3 xs : Vec F S512x1024 .f32) := by
  rw [View.read_writes_eq_canon _ _ _ (cover_middle c i arg2 harg2 arg3 harg3 arg4 harg4 arg5 harg5 arg6 harg6 arg7 harg7 hc0 hc1 x0 x1 x2 x3 xs)]
  unfold runMiddle
  dsimp only
  sl_unfold_words
  rw [View.canon_unit_zero (S := S512x1024) off2]
  simp only [View.readAt_eq_ld, harg2.read_unread, harg3.read_unread, harg4.read_unread, harg5.read_unread, harg7.read_unread,
    View.ld_unit_zero (S := S512x1024) off2, View.ld_unit_zero (S := S1024) off1]

/-- After the last block likewise, -/
theorem read_last_acc (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32)
    (v : View sig .tc .vmem S512x1024 .f32) (f : v.ty.Contents (Elt F)) :
    v.read (Elt F) (v.writes (Elt F) f (runLast c i arg2 harg2 arg3 harg3 arg4 harg4 arg5 harg5 arg6 harg6 arg7 harg7 hc0 hc1 x0 x1 x2 x3 xs).2.1)
      = (k0_pay2 x0 x2 x1 x3 xs : Vec F S512x1024 .f32) := by
  rw [View.read_writes_eq_canon _ _ _ (cover_last_acc c i arg2 harg2 arg3 harg3 arg4 harg4 arg5 harg5 arg6 harg6 arg7 harg7 hc0 hc1 x0 x1 x2 x3 xs)]
  unfold runLast
  dsimp only
  sl_unfold_words
  rw [View.canon_unit_zero (S := S512x1024) off2]
  simp only [View.readAt_eq_ld, harg2.read_unread, harg3.read_unread, harg4.read_unread, harg5.read_unread, harg7.read_unread,
    View.ld_unit_zero (S := S512x1024) off2, View.ld_unit_zero (S := S1024) off1]

/-- and the output buffer reads as the accumulator just stored: the copy-out loads it back whole. -/
theorem read_last_out (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32)
    (v : View sig .tc .vmem S512x1024 .f32) (f : v.ty.Contents (Elt F)) :
    v.read (Elt F) (v.writes (Elt F) f (runLast c i arg2 harg2 arg3 harg3 arg4 harg4 arg5 harg5 arg6 harg6 arg7 harg7 hc0 hc1 x0 x1 x2 x3 xs).1)
      = (k0_pay2 x0 x2 x1 x3 xs : Vec F S512x1024 .f32) := by
  rw [View.read_writes_eq_canon _ _ _ (cover_last_out c i arg2 harg2 arg3 harg3 arg4 harg4 arg5 harg5 arg6 harg6 arg7 harg7 hc0 hc1 x0 x1 x2 x3 xs)]
  unfold runLast
  dsimp only
  sl_unfold_words
  rw [View.canon_unit_zero (S := S512x1024) off2, View.readCov_unit_zero (S := S512x1024) _ off2]
  simp only [View.readAt_eq_ld, harg2.read_unread, harg3.read_unread, harg4.read_unread, harg5.read_unread, harg7.read_unread,
    View.ld_unit_zero (S := S512x1024) off2, View.ld_unit_zero (S := S1024) off1]

/-! ## The accumulator, point by point -/

/-- Window `w`'s block at grid point `t`, read off its array as the region finds it (`V`: the core's buffer
    contents when the region is entered). -/
def blk (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid point `n`. -/
def acc (V : (c : Dev nD) → (b : Ref sig .tc) → Buf (Elt F) ((c : Thread nD τ).loc b)) (c : Dev nD) : (n : ℕ) → n < cfg0.N → Vec F S512x1024 .f32
  | 0, hn => k0_pay2 (blk V c 0 ⟨0, hn⟩) (blk V c 2 ⟨0, hn⟩) (blk V c 1 ⟨0, hn⟩) (blk V c 3 ⟨0, hn⟩) (k0_pay1 (F := F))
  | n + 1, hn =>
    if (n + 1) % 4 = 0 then
      k0_pay2 (blk V c 0 ⟨n + 1, hn⟩) (blk V c 2 ⟨n + 1, hn⟩) (blk V c 1 ⟨n + 1, hn⟩) (blk V c 3 ⟨n + 1, hn⟩) (k0_pay1 (F := F))
    else
      k0_pay2 (blk V c 0 ⟨n + 1, hn⟩) (blk V c 2 ⟨n + 1, hn⟩) (blk V c 1 ⟨n + 1, hn⟩) (blk V c 3 ⟨n + 1, hn⟩) (acc V c n (Nat.lt_of_succ_lt hn))

/-- At the first reaction block of a batch tile the accumulator restarts from zero. -/
theorem acc_first (V : (c : Dev nD) → (b : Ref sig .tc) → Buf (Elt F) ((c : Thread nD τ).loc b)) (c : Dev nD) (t : Fin cfg0.N) (h : t.val % 4 = 0) :
    acc V c t.val t.isLt = (k0_pay2 (blk V c 0 t) (blk V c 2 t) (blk V c 1 t) (blk V c 3 t) (k0_pay1 (F := F)) : Vec F S512x1024 .f32) := by
  obtain ⟨n, hn⟩ := t
  cases n with
  | zero => rfl
  | succ n => exact if_pos h

/-- At a later reaction block it adds this block's contribution to what the point before left. -/
theorem acc_next (V : (c : Dev nD) → (b : Ref sig .tc) → Buf (Elt F) ((c : Thread nD τ).loc b)) (c : Dev nD) (t : Fin cfg0.N) (h : ¬ t.val % 4 = 0) :
    acc V c t.val t.isLt = (k0_pay2 (blk V c 0 t) (blk V c 2 t) (blk V c 1 t) (blk V c 3 t)
      (acc V c (t.val - 1) (Nat.lt_of_le_of_lt (Nat.sub_le _ _) t.isLt)) : Vec F S512x1024 .f32) := by
  obtain ⟨n, hn⟩ := t
  cases n with
  | zero => exact absurd (Nat.zero_mod _) h
  | succ n => exact if_neg h

/-! ## The invariant -/

/-- Every other scoped buffer of the core that is no staging buffer of this call, each at some contents: the
    body neither reads nor writes them. -/
def otherScoped (c : Dev nD) : sProp 𝕄 :=
  Pipeline.scopedRestBut (Ix := Unit) (Name := ℕ) (U := UR sig nD τ) (Lvl := ℕ) (Val := Elt F) spec0 c [cc0_scratch0]

/-- The class invariant, with the accumulator split off as a memref owned at some contents. -/
theorem PhiA_eq (c : Dev nD) :
    (Pipeline.ΦA spec0 c : sProp 𝕄)
      = iprop(iprop((∃ d, owns (c : Thread nD τ) scr fullShare d) ∗ otherScoped (F := F) c) ∗ (∃ r, prngReg c r)) := by
  unfold Pipeline.ΦA otherScoped
  rw [Pipeline.scopedRest_split_of_list spec0 c [cc0_scratch0] (by decide) (by decide)]
  simp only [bigSepL_singleton, scr, owns_whole]; try rfl

/-- The region invariant before position `n`: before the first point the class invariant (the accumulator at
    anything); afterwards the accumulator at what the point before left, the other scoped buffers at anything and
    the generator register at some state. -/
def PhiS (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scr fullShare (acc V c n hn) ∗ otherScoped (F := F) c) ∗ (∃ r, prngReg c r))

theorem PhiS_zero (V : (c : Dev nD) → (b : Ref sig .tc) → Buf (Elt F) ((c : Thread nD τ).loc b)) (c : Dev nD) (n : ℕ) (h : n ≤ cfg0.N) (hz : n = 0) : PhiS V c n h = Pipeline.ΦA spec0 c := by
  subst hz; rfl

theorem PhiS_succ (V : (c : Dev nD) → (b : Ref sig .tc) → Buf (Elt F) ((c : Thread nD τ).loc b)) (c : Dev nD) (n : ℕ) (hn : n < cfg0.N) :
    PhiS V c (n + 1) hn = iprop(iprop(owns (c : Thread nD τ) scr fullShare (acc V c n hn) ∗ otherScoped (F := F) c) ∗ (∃ r, prngReg c r)) := rfl

theorem PhiS_pos (V : (c : Dev nD) → (b : Ref sig .tc) → Buf (Elt F) ((c : Thread nD τ).loc b)) (c : Dev nD) (n : ℕ) (h : n ≤ cfg0.N) (hz : n ≠ 0) :
    PhiS V c n h = iprop(iprop(owns (c : Thread nD τ) scr fullShare (acc V c (n - 1) (by omega)) ∗ otherScoped (F := F) c) ∗ (∃ r, prngReg c r)) := by
  cases n with
  | zero => exact absurd rfl hz
  | succ n => rfl

/-! ## The proof data -/

/-- The region's proof data. -/
def dat (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => acc V c t.val t.isLt
  Φ t := PhiS V c t.val (Nat.le_of_lt_succ t.isLt)
  q _ := fullShare
  owed _ := 0

theorem dat_A (V : (c : Dev nD) → (b : Ref sig .tc) → Buf (Elt F) ((c : Thread nD τ).loc b)) (c : Dev nD) (w : Fin cfg0.W) : (dat V c).A w = V c (Pipeline.arrRef spec0 w) := by
  dsimp only [dat]
theorem dat_q (V : (c : Dev nD) → (b : Ref sig .tc) → Buf (Elt F) ((c : Thread nD τ).loc b)) (c : Dev nD) (w : Fin cfg0.W) : (dat V c).q w = fullShare := by
  dsimp only [dat]
/-- The data record no waited pairs: the bound on them is the trivial one. -/
theorem dat_recorded (V : (c : Dev nD) → (b : Ref sig .tc) → Buf (Elt F) ((c : Thread nD τ).loc b)) (c : Dev nD) (t : Fin (cfg0.N + 1)) : (dat V c).recorded t = Set.univ := by
  dsimp only [dat]
theorem dat_owed (V : (c : Dev nD) → (b : Ref sig .tc) → Buf (Elt F) ((c : Thread nD τ).loc b)) (c : Dev nD) (t : Fin (cfg0.N + 1)) : (dat V c).owed t = 0 := by
  dsimp only [dat]
/-- The output window's staging buffer after the body: the accumulator. -/
theorem dat_after_out (V : (c : Dev nD) → (b : Ref sig .tc) → Buf (Elt F) ((c : Thread nD τ).loc b)) (c : Dev nD) (t : Fin cfg0.N) : (dat V c).after 4 t = acc V c t.val t.isLt := by
  dsimp only [dat]

/-- An input window's staging buffer after the body: its block, untouched. -/
theorem after_in0 (V : (c : Dev nD) → (b : Ref sig .tc) → Buf (Elt F) ((c : Thread nD τ).loc b)) (c : Dev nD) (t : Fin cfg0.N) : (dat V c).after 0 t = blk V c 0 t := by dsimp only [dat]
theorem after_in1 (V : (c : Dev nD) → (b : Ref sig .tc) → Buf (Elt F) ((c : Thread nD τ).loc b)) (c : Dev nD) (t : Fin cfg0.N) : (dat V c).after 1 t = blk V c 1 t := by dsimp only [dat]
theorem after_in2 (V : (c : Dev nD) → (b : Ref sig .tc) → Buf (Elt F) ((c : Thread nD τ).loc b)) (c : Dev nD) (t : Fin cfg0.N) : (dat V c).after 2 t = blk V c 2 t := by dsimp only [dat]
theorem after_in3 (V : (c : Dev nD) → (b : Ref sig .tc) → Buf (Elt F) ((c : Thread nD τ).loc b)) (c : Dev nD) (t : Fin cfg0.N) : (dat V c).after 3 t = blk V c 3 t := by dsimp only [dat]

/-- The invariant at a point's start, restated at the point's position. -/
theorem PhiS_castSucc (V : (c : Dev nD) → (b : Ref sig .tc) → Buf (Elt F) ((c : Thread nD τ).loc b)) (c : Dev nD) (t : Fin cfg0.N) :
    (dat V c).Φ t.castSucc = PhiS V c t.val (Nat.le_of_lt t.isLt) := by
  dsimp only [dat]; simp only [Fin.coe_castSucc]

/-- Each input window's current staging buffer holds its block at every point, fetched there or not: an
    unfetched window's block index has not moved, and the body left the block in place. -/
theorem before_in0 (V : (c : Dev nD) → (b : Ref sig .tc) → Buf (Elt F) ((c : Thread nD τ).loc b)) (c : Dev nD) (t : Fin cfg0.N) (d) : (dat V c).before 0 t d = blk V c 0 t :=
  ((dat V c).before_in_eq_fetched 0 rfl (fun _ => rfl) (fun _ _ _ => rfl)
    (fun t => by rw [after_in0]; unfold Dat.blockOf blk; rw [dat_A]; try rfl) t d).trans
    (by unfold Dat.fetched Dat.blockOf blk; rw [dat_A]; try rfl)
theorem before_in1 (V : (c : Dev nD) → (b : Ref sig .tc) → Buf (Elt F) ((c : Thread nD τ).loc b)) (c : Dev nD) (t : Fin cfg0.N) (d) : (dat V c).before 1 t d = blk V c 1 t :=
  ((dat V c).before_in_eq_fetched 1 rfl (fun _ => rfl) (fun _ _ _ => rfl)
    (fun t => by rw [after_in1]; unfold Dat.blockOf blk; rw [dat_A]; try rfl) t d).trans
    (by unfold Dat.fetched Dat.blockOf blk; rw [dat_A]; try rfl)
theorem before_in2 (V : (c : Dev nD) → (b : Ref sig .tc) → Buf (Elt F) ((c : Thread nD τ).loc b)) (c : Dev nD) (t : Fin cfg0.N) (d) : (dat V c).before 2 t d = blk V c 2 t :=
  ((dat V c).before_in_eq_fetched 2 rfl (fun _ => rfl) (fun _ _ _ => rfl)
    (fun t => by rw [after_in2]; unfold Dat.blockOf blk; rw [dat_A]; try rfl) t d).trans
    (by unfold Dat.fetched Dat.blockOf blk; rw [dat_A]; try rfl)
theorem before_in3 (V : (c : Dev nD) → (b : Ref sig .tc) → Buf (Elt F) ((c : Thread nD τ).loc b)) (c : Dev nD) (t : Fin cfg0.N) (d) : (dat V c).before 3 t d = blk V c 3 t :=
  ((dat V c).before_in_eq_fetched 3 rfl (fun _ => rfl) (fun _ _ _ => rfl)
    (fun t => by rw [after_in3]; unfold Dat.blockOf blk; rw [dat_A]; try rfl) t d).trans
    (by unfold Dat.fetched Dat.blockOf blk; rw [dat_A]; try rfl)

/-- An input window is never idle: the body leaves its buffer at the block. -/
theorem leaves_in0 (V : (c : Dev nD) → (b : Ref sig .tc) → Buf (Elt F) ((c : Thread nD τ).loc b)) (c : Dev nD) (t : Fin cfg0.N) :
    (dat V c).leavesExact 0 t = owns (c : Thread nD τ) (stg0 t) fullShare (blk V c 0 t) := by
  rw [← after_in0]
theorem leaves_in1 (V : (c : Dev nD) → (b : Ref sig .tc) → Buf (Elt F) ((c : Thread nD τ).loc b)) (c : Dev nD) (t : Fin cfg0.N) :
    (dat V c).leavesExact 1 t = owns (c : Thread nD τ) (stg1 t) fullShare (blk V c 1 t) := by
  rw [← after_in1]
theorem leaves_in2 (V : (c : Dev nD) → (b : Ref sig .tc) → Buf (Elt F) ((c : Thread nD τ).loc b)) (c : Dev nD) (t : Fin cfg0.N) :
    (dat V c).leavesExact 2 t = owns (c : Thread nD τ) (stg2 t) fullShare (blk V c 2 t) := by
  rw [← after_in2]
theorem leaves_in3 (V : (c : Dev nD) → (b : Ref sig .tc) → Buf (Elt F) ((c : Thread nD τ).loc b)) (c : Dev nD) (t : Fin cfg0.N) :
    (dat V c).leavesExact 3 t = owns (c : Thread nD τ) (stg3 t) fullShare (blk V c 3 t) := by
  rw [← after_in3]

/-! ## The body obligation, at a generic point -/

/-- What the body is called with at point `t` (the library's precondition, the windows one by one), -/
def bodyPre (V : (c : Dev nD) → (b : Ref sig .tc) → Buf (Elt F) ((c : Thread nD τ).loc b)) (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d))
    ∗ (∃ d, owns (c : Thread nD τ) (stg4 t) fullShare ((dat V c).before 4 t d)))

/-- and what it returns. -/
def bodyPost (V : (c : Dev nD) → (b : Ref sig .tc) → Buf (Elt F) ((c : Thread nD τ).loc b)) (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point.  The inputs' memrefs hold their blocks; the position modulo 4 says which of the three
    runs applies; the invariant hands the body the accumulator at what the point before left (at anything at a
    first block) and takes it back at this point's value; the output window is handed back untouched except at a
    last block, where it comes back holding the accumulator; the core owes nothing throughout. -/
theorem sound_body (V : (c : Dev nD) → (b : Ref sig .tc) → Buf (Elt F) ((c : Thread nD τ).loc b)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3]
  have hN : t.val < 32 := lt_of_lt_of_eq t.isLt (show cfg0.N = 32 from N_0)
  by_cases h0 : t.val % 4 = 0
  · have hl : ¬lastBlock (grid0.coords t) := fun h => by have := (last_iff t).mp h; omega
    rw [Dat.leavesExact_idle (dat V c) 4 t (out_idle t hl) (out_unflushed t hl)]
    rw [acc_first V c t h0]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((first_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact read_first c _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((first_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact read_first c _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4
  · have hf : ¬firstBlock (grid0.coords t) := fun h => h0 ((first_iff t).mp h)
    have hz : t.val ≠ 0 := fun h => h0 (by rw [h])
    rw [acc_next V c t h0]
    rw [PhiS_castSucc V c t, PhiS_pos V c _ _ hz]
    by_cases h1 : t.val % 4 = 3
    · have hl : lastBlock (grid0.coords t) := (last_iff t).mpr h1
      rw [show (dat V c).leavesExact 4 t = owns (c : Thread nD τ) (stg4 t) fullShare ((dat V c).after 4 t) from by
        unfold Dat.leavesExact; rw [out_live t hl], dat_after_out, acc_next V c t h0]
      iintro ⟨⟨⟨HS, Hrest⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hl (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS Hrest Hg]
      · isplitl [HS Hrest]
        · isplitl [HS]
          · unfold owns; iexists _; isplitr
            swap; · iexact HS
            ipureintro; exact read_last_acc c _ _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact read_last_out c _ _ _ _ _ _ _ _ _ _ _ _ _ _ _ _ _ _ _ _ _ _
    · have hl : ¬lastBlock (grid0.coords t) := fun h => h1 ((last_iff t).mp h)
      rw [Dat.leavesExact_idle (dat V c) 4 t (out_idle t hl) (out_unflushed t hl)]
      iintro ⟨⟨⟨HS, Hrest⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ hf hl (blk V c 0 t) (blk V c 1 t) (blk V c 2 t) (blk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact read_middle c _ _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation (V : (c : Dev nD) → (b : Ref sig .tc) → Buf (Elt F) ((c : Thread nD τ).loc b)) (c : Dev nD) : BodyObligation (dat (F := F) V c) (defs₀ (F := F)) Variants.none () Set.univ := fun t => by
  rw [bigSep_W0, bigSep_W0]
  exact sound_body V c t

theorem hin (V : (c : Dev nD) → (b : Ref sig .tc) → Buf (Elt F) ((c : Thread nD τ).loc b)) (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's named
    contents are forgotten. -/
theorem Phi_out (V : (c : Dev nD) → (b : Ref sig .tc) → Buf (Elt F) ((c : Thread nD τ).loc b)) (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

theorem hout (V : (c : Dev nD) → (b : Ref sig .tc) → Buf (Elt F) ((c : Thread nD τ).loc b)) (c : Dev nD) : (dat V c).Φ (Fin.last cfg0.N) ⊢ (Pipeline.ΦA spec0 c : sProp 𝕄) :=
  Phi_out V c _ (by rw [Fin.val_last]; have : cfg0.N = 32 := N_0; omega)

end Cert.KernelIdeal.Term1

end
-- ==== Proof.Term2.lean ====
/-
  The second-order kernel's region: what the accumulator holds after each grid point, and the region's proof data.
-/
import proofs.«430890_j60138132078971_1_alg».proof.Proof.Gen.KernelIdeal.Launch
import proofs.«430890_j60138132078971_1_alg».proof.Proof.Gen.KernelIdeal.Skeleton
import proofs.«430890_j60138132078971_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Term2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which reaction block of its batch tile a grid point is -/

/-- The kernel's test "this is the first reaction block of the batch tile", from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 16): decided over the grid. -/
theorem isFirst_iff : ∀ t : Fin cfg1.N, isFirst (grid1.coords t) ↔ t.val % 16 = 0 :=
  (by decide +kernel : ∀ t : Fin grid1.N, isFirst (grid1.coords t) ↔ t.val % 16 = 0)

/-- The kernel's test "this is the last reaction block of the batch tile". -/
abbrev isLast (i : grid1.Coords) : Prop := k1_cond2 i = 1#1
/-- It holds at the points ≡ 15 (mod 16): decided over the grid. -/
theorem isLast_iff : ∀ t : Fin cfg1.N, isLast (grid1.coords t) ↔ t.val % 16 = 15 :=
  (by decide +kernel : ∀ t : Fin grid1.N, isLast (grid1.coords t) ↔ t.val % 16 = 15)

/-! ## Where the output window is idle -/

/-- Off the last reaction block the output window is idle: nothing is stored into it, -/
theorem out_idle : ∀ t : Fin cfg1.N, ¬isLast (grid1.coords t) → cfg1.idle 6 (grid1.coords t) = true := by decide +kernel
/-- and its block is not written back. -/
theorem out_noFlush : ∀ t : Fin cfg1.N, ¬isLast (grid1.coords t) → (cfg1.win 6).flush t = false := by decide +kernel
/-- At the last reaction block it is live. -/
theorem out_live : ∀ t : Fin cfg1.N, isLast (grid1.coords t) → cfg1.idle 6 (grid1.coords t) = false := by decide +kernel

/-! ## The memrefs the body is called with -/

/-- Each window's current staging memref at point `t`, and its wholeness. -/
abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1024 .f32 := win1_6.stage (cfg1.slots t 6)
abbrev hs6 (t : Fin cfg1.N) : (ms6 t).IsWhole := hstage1_6 ((cfg1.slots t 6).cast nbuf1_6)
/-- The accumulator: a whole scoped buffer of the kernel's own, carried from point to point. -/
abbrev accM : Memref sig .tc .vmem S512x1024 .f32 := Memref.whole cc1_scratch0
/-- The same as a view, through which its contents are stated. -/
abbrev accV : View sig .tc .vmem S512x1024 .f32 := accM.view
/-- One staging buffer of the output window, through which its contents are stated. -/
abbrev outV : View sig .tc .vmem S512x1024 .f32 := (Memref.whole cc1_stg6_0 : Memref sig .tc .vmem S512x1024 .f32).view

/-! ## The region's invariant, opened -/

/-- The core's scoped buffers this region never touches (the first-order region's staging buffers and its
    accumulator), each whole at some contents. -/
def restScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant is: those buffers, the accumulator owned at some contents, and the generator register at
    some state (separating conjunction re-associated; a whole buffer owned is its points-to). -/
theorem PhiA_eq (c : Dev nD) :
    (Pipeline.ΦA spec1 c : sProp 𝕄)
      = iprop(iprop(restScoped (F := F) c ∗ (∃ d, owns (c : Thread nD τ) accM fullShare d)) ∗ (∃ r, prngReg c r)) := by
  unfold Pipeline.ΦA; rw [scopedRest1_eq]; unfold restScoped; simp only [accM, owns_whole]
  refine Idealize.SL.BI.Entails.antisymm ?_ ?_
  · show (_ : sProp 𝕄) ⊢ _
    iintro ⟨⟨H1, H2, H3, H4, H5, H6, H7, H8, H9, H10, H11, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · iexact HS
    · iexact Hg
  · show (_ : sProp 𝕄) ⊢ _
    iintro ⟨⟨⟨H1, H2, H3, H4, H5, H6, H7, H8, H9, H10, H11⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    · iexact Hg

/-! ## The body on whole memrefs, case by case

Each case states: on whole memrefs — the six inputs at given contents, the output's and the accumulator's as the
case needs them — the body runs to a continuation that holds the inputs as they were and each buffer the case
stores into with the case's stores written, as a list of pieces (last first) that the run itself finds. -/

set_option maxHeartbeats 1000000 in
/-- FIRST reaction block (not the last): the accumulator may hold anything; the output's buffer is handed back
    untouched. -/
noncomputable def runFirst (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) :
    { LS : List (View.Piece (Elt F) S512x1024 .f32) //
      ∀ (xi : Vec F S512x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ (∃ f, a9.view.loc (c : Thread nD τ) ↦[a9.view.set]{fullShare} a9.view.writes (Elt F) f LS)) -∗ K ⟨⟩))
          ⊢ wp frame (wpE (defs₀ (F := F)) Variants.none c none) E (cc1__term2_kernel i a2 h2 a3 h3 a4 h4 a5 h5 a6 h6 a7 h7 a8 h8 a9 h9) K } := by
  refine ⟨?_, fun xi E K => ?run⟩
  case run =>
    simp only [cc1__term2_kernel_eq_skeleton]; unfold cc1__term2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

set_option maxHeartbeats 1000000 in
/-- A MIDDLE reaction block: the accumulator holds what the point before left; the output's buffer is handed back
    untouched. -/
noncomputable def runMiddle (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) :
    { LS : List (View.Piece (Elt F) S512x1024 .f32) //
      ∀ (xi : Vec F S512x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ (∃ f, a9.view.loc (c : Thread nD τ) ↦[a9.view.set]{fullShare} a9.view.writes (Elt F) f LS)) -∗ K ⟨⟩))
          ⊢ wp frame (wpE (defs₀ (F := F)) Variants.none c none) E (cc1__term2_kernel i a2 h2 a3 h3 a4 h4 a5 h5 a6 h6 a7 h7 a8 h8 a9 h9) K } := by
  refine ⟨?_, fun xi E K => ?run⟩
  case run =>
    simp only [cc1__term2_kernel_eq_skeleton]; unfold cc1__term2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

set_option maxHeartbeats 1000000 in
/-- The LAST reaction block (not the first): the accumulator holds what the point before left; the output's buffer
    may hold anything and is stored into. -/
noncomputable def runLast (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) :
    Σ' (LO : List (View.Piece (Elt F) S512x1024 .f32)), { LS : List (View.Piece (Elt F) S512x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc1__term2_kernel i a2 h2 a3 h3 a4 h4 a5 h5 a6 h6 a7 h7 a8 h8 a9 h9) K } := by
  refine ⟨?_, ?_, fun E K => ?run⟩
  case run =>
    simp only [cc1__term2_kernel_eq_skeleton]; unfold cc1__term2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

/-! ## What each case leaves, as values -/

theorem hz2 : (![0, 0] : Fin 2 → Nat) = fun _ => 0 := funext fun a => by fin_cases a <;> rfl
theorem hz1 : (![0] : Fin 1 → Nat) = fun _ => 0 := funext fun a => by fin_cases a <;> rfl

/-- The first case's stores into the accumulator cover it (each is the whole buffer). -/
theorem coverFirst (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (y : S512x1024.Idx) :
    ∃ pc ∈ (runFirst c i a2 h2 a3 h3 a4 h4 a5 h5 a6 h6 a7 h7 a8 h8 a9 h9 hF hL x0 x1 x2 x3 x4 x5).1, y ∈ pc.1.set :=
  View.cover_of_tiledL (runFirst c i a2 h2 a3 h3 a4 h4 a5 h5 a6 h6 a7 h7 a8 h8 a9 h9 hF hL x0 x1 x2 x3 x4 x5).1 S512x1024.size (by sl_kernel_rfl) y

/-- At a first reaction block the accumulator ends holding the block's contribution added to the first-order
    block: the restart is one whole-buffer store, read back whole, and the sum is stored whole over it. -/
theorem first_leaves (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32)
    (v : View sig .tc .vmem S512x1024 .f32) (f : v.ty.Contents (Elt F)) :
    v.read (Elt F) (v.writes (Elt F) f (runFirst c i a2 h2 a3 h3 a4 h4 a5 h5 a6 h6 a7 h7 a8 h8 a9 h9 hF hL x0 x1 x2 x3 x4 x5).1)
      = (k1_pay2 x0 x2 x3 x1 x4 (k1_pay1 x5) : Vec F S512x1024 .f32) := by
  rw [View.read_writes_eq_canon _ _ _ (coverFirst c i a2 h2 a3 h3 a4 h4 a5 h5 a6 h6 a7 h7 a8 h8 a9 h9 hF hL x0 x1 x2 x3 x4 x5)]
  unfold runFirst
  dsimp only
  sl_unfold_words
  rw [View.canon_cons_unit_zero (S := S512x1024) hz2, View.readCov_unit_zero (S := S512x1024) _ hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-- A middle case's one store into the accumulator covers it. -/
theorem coverMiddle (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) (y : S512x1024.Idx) :
    ∃ pc ∈ (runMiddle c i a2 h2 a3 h3 a4 h4 a5 h5 a6 h6 a7 h7 a8 h8 a9 h9 hF hL x0 x1 x2 x3 x4 x5 xs).1, y ∈ pc.1.set :=
  View.cover_of_tiledL (runMiddle c i a2 h2 a3 h3 a4 h4 a5 h5 a6 h6 a7 h7 a8 h8 a9 h9 hF hL x0 x1 x2 x3 x4 x5 xs).1 S512x1024.size (by sl_kernel_rfl) y

/-- At a middle reaction block the accumulator ends holding the block's contribution added to what it held. -/
theorem middle_leaves (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32)
    (v : View sig .tc .vmem S512x1024 .f32) (f : v.ty.Contents (Elt F)) :
    v.read (Elt F) (v.writes (Elt F) f (runMiddle c i a2 h2 a3 h3 a4 h4 a5 h5 a6 h6 a7 h7 a8 h8 a9 h9 hF hL x0 x1 x2 x3 x4 x5 xs).1)
      = (k1_pay2 x0 x2 x3 x1 x4 xs : Vec F S512x1024 .f32) := by
  rw [View.read_writes_eq_canon _ _ _ (coverMiddle c i a2 h2 a3 h3 a4 h4 a5 h5 a6 h6 a7 h7 a8 h8 a9 h9 hF hL x0 x1 x2 x3 x4 x5 xs)]
  unfold runMiddle
  dsimp only
  sl_unfold_words
  rw [View.canon_unit_zero hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-- The last case's one store into the accumulator covers it, -/
theorem coverLastAcc (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) (y : S512x1024.Idx) :
    ∃ pc ∈ (runLast c i a2 h2 a3 h3 a4 h4 a5 h5 a6 h6 a7 h7 a8 h8 a9 h9 hF hL x0 x1 x2 x3 x4 x5 xs).2.1, y ∈ pc.1.set :=
  View.cover_of_tiledL (runLast c i a2 h2 a3 h3 a4 h4 a5 h5 a6 h6 a7 h7 a8 h8 a9 h9 hF hL x0 x1 x2 x3 x4 x5 xs).2.1 S512x1024.size (by sl_kernel_rfl) y

/-- and its one store into the output's buffer covers that. -/
theorem coverLastOut (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) (y : S512x1024.Idx) :
    ∃ pc ∈ (runLast c i a2 h2 a3 h3 a4 h4 a5 h5 a6 h6 a7 h7 a8 h8 a9 h9 hF hL x0 x1 x2 x3 x4 x5 xs).1, y ∈ pc.1.set :=
  View.cover_of_tiledL (runLast c i a2 h2 a3 h3 a4 h4 a5 h5 a6 h6 a7 h7 a8 h8 a9 h9 hF hL x0 x1 x2 x3 x4 x5 xs).1 S512x1024.size (by sl_kernel_rfl) y

/-- At the last reaction block the accumulator ends holding the block's contribution added to what it held, -/
theorem last_leaves_acc (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32)
    (v : View sig .tc .vmem S512x1024 .f32) (f : v.ty.Contents (Elt F)) :
    v.read (Elt F) (v.writes (Elt F) f (runLast c i a2 h2 a3 h3 a4 h4 a5 h5 a6 h6 a7 h7 a8 h8 a9 h9 hF hL x0 x1 x2 x3 x4 x5 xs).2.1)
      = (k1_pay2 x0 x2 x3 x1 x4 xs : Vec F S512x1024 .f32) := by
  rw [View.read_writes_eq_canon _ _ _ (coverLastAcc c i a2 h2 a3 h3 a4 h4 a5 h5 a6 h6 a7 h7 a8 h8 a9 h9 hF hL x0 x1 x2 x3 x4 x5 xs)]
  unfold runLast
  dsimp only
  sl_unfold_words
  rw [View.canon_unit_zero hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-- and the output's buffer the same: the accumulator read back whole and stored whole. -/
theorem last_leaves_out (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32)
    (v : View sig .tc .vmem S512x1024 .f32) (f : v.ty.Contents (Elt F)) :
    v.read (Elt F) (v.writes (Elt F) f (runLast c i a2 h2 a3 h3 a4 h4 a5 h5 a6 h6 a7 h7 a8 h8 a9 h9 hF hL x0 x1 x2 x3 x4 x5 xs).1)
      = (k1_pay2 x0 x2 x3 x1 x4 xs : Vec F S512x1024 .f32) := by
  rw [View.read_writes_eq_canon _ _ _ (coverLastOut c i a2 h2 a3 h3 a4 h4 a5 h5 a6 h6 a7 h7 a8 h8 a9 h9 hF hL x0 x1 x2 x3 x4 x5 xs)]
  unfold runLast
  dsimp only
  sl_unfold_words
  rw [View.canon_unit_zero hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-! ## The accumulator, point by point -/

/-- Window `w`'s block at grid point `t`, read off its array as the region finds it (`V`: the core's buffer
    contents when the region is entered). -/
def blk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid point `n`: at the first reaction block of a batch tile, the block's contribution
    added to the first-order block; at a later one, added to what the point before left. -/
def acc (V : (c : Dev nD) → (b : Ref sig .tc) → Buf (Elt F) ((c : Thread nD τ).loc b)) (c : Dev nD) : (n : ℕ) → n < cfg1.N → Vec F S512x1024 .f32
  | 0, hn => k1_pay2 (blk V c 0 ⟨0, hn⟩) (blk V c 2 ⟨0, hn⟩) (blk V c 3 ⟨0, hn⟩) (blk V c 1 ⟨0, hn⟩) (blk V c 4 ⟨0, hn⟩) (k1_pay1 (blk V c 5 ⟨0, hn⟩))
  | n + 1, hn =>
    if h : (n + 1) % 16 = 0 then
      k1_pay2 (blk V c 0 ⟨n + 1, hn⟩) (blk V c 2 ⟨n + 1, hn⟩) (blk V c 3 ⟨n + 1, hn⟩) (blk V c 1 ⟨n + 1, hn⟩) (blk V c 4 ⟨n + 1, hn⟩) (k1_pay1 (blk V c 5 ⟨n + 1, hn⟩))
    else
      k1_pay2 (blk V c 0 ⟨n + 1, hn⟩) (blk V c 2 ⟨n + 1, hn⟩) (blk V c 3 ⟨n + 1, hn⟩) (blk V c 1 ⟨n + 1, hn⟩) (blk V c 4 ⟨n + 1, hn⟩) (acc V c n (Nat.lt_of_succ_lt hn))

/-- At the first reaction block of a batch tile the accumulator restarts from the first-order result's block. -/
theorem acc_first (V : (c : Dev nD) → (b : Ref sig .tc) → Buf (Elt F) ((c : Thread nD τ).loc b)) (c : Dev nD) (t : Fin cfg1.N) (h : t.val % 16 = 0) :
    acc V c t.val t.isLt = (k1_pay2 (blk V c 0 t) (blk V c 2 t) (blk V c 3 t) (blk V c 1 t) (blk V c 4 t) (k1_pay1 (blk V c 5 t)) : Vec F S512x1024 .f32) := by
  obtain ⟨n, hn⟩ := t
  cases n with
  | zero => rfl
  | succ n => exact dif_pos h

/-- At a later reaction block it adds this block's contribution to what the point before left. -/
theorem acc_next (V : (c : Dev nD) → (b : Ref sig .tc) → Buf (Elt F) ((c : Thread nD τ).loc b)) (c : Dev nD) (t : Fin cfg1.N) (h : ¬ t.val % 16 = 0) :
    acc V c t.val t.isLt = (k1_pay2 (blk V c 0 t) (blk V c 2 t) (blk V c 3 t) (blk V c 1 t) (blk V c 4 t)
      (acc V c (t.val - 1) (Nat.lt_of_le_of_lt (Nat.sub_le _ _) t.isLt)) : Vec F S512x1024 .f32) := by
  obtain ⟨n, hn⟩ := t
  cases n with
  | zero => exact absurd (Nat.zero_mod _) h
  | succ n => exact (dif_neg h).trans rfl

/-! ## The invariant -/

/-- The region's invariant before position `n`: before the first point the class invariant (the accumulator at
    anything); afterwards the untouched scoped buffers, the accumulator owned at what the point before left,
    and the generator register at some state. -/
def PhiS (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(restScoped (F := F) c ∗ owns (c : Thread nD τ) accM fullShare (acc V c n hn)) ∗ (∃ r, prngReg c r))

theorem PhiS_zero (V : (c : Dev nD) → (b : Ref sig .tc) → Buf (Elt F) ((c : Thread nD τ).loc b)) (c : Dev nD) (n : ℕ) (h : n ≤ cfg1.N) (hz : n = 0) : PhiS V c n h = Pipeline.ΦA spec1 c := by
  subst hz; rfl

theorem PhiS_succ (V : (c : Dev nD) → (b : Ref sig .tc) → Buf (Elt F) ((c : Thread nD τ).loc b)) (c : Dev nD) (n : ℕ) (hn : n < cfg1.N) :
    PhiS V c (n + 1) hn = iprop(iprop(restScoped (F := F) c ∗ owns (c : Thread nD τ) accM fullShare (acc V c n hn)) ∗ (∃ r, prngReg c r)) := rfl

theorem PhiS_pos (V : (c : Dev nD) → (b : Ref sig .tc) → Buf (Elt F) ((c : Thread nD τ).loc b)) (c : Dev nD) (n : ℕ) (h : n ≤ cfg1.N) (hz : n ≠ 0) :
    PhiS V c n h = iprop(iprop(restScoped (F := F) c ∗ owns (c : Thread nD τ) accM fullShare (acc V c (n - 1) (by omega))) ∗ (∃ r, prngReg c r)) := by
  cases n with
  | zero => exact absurd rfl hz
  | succ n => rfl

/-! ## The proof data -/

/-- The region's proof data: the arrays as the region finds them; after the body each input window's buffer at its
    block and the output window's at the accumulator; the invariant above; full shares; nothing owed. -/
def dat (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => acc V c t.val t.isLt
  Φ t := PhiS V c t.val (Nat.le_of_lt_succ t.isLt)
  q _ := fullShare
  owed _ := 0

theorem dat_A (V : (c : Dev nD) → (b : Ref sig .tc) → Buf (Elt F) ((c : Thread nD τ).loc b)) (c : Dev nD) (w : Fin cfg1.W) : (dat V c).A w = V c (Pipeline.arrRef spec1 w) := by
  dsimp only [dat]
theorem dat_q (V : (c : Dev nD) → (b : Ref sig .tc) → Buf (Elt F) ((c : Thread nD τ).loc b)) (c : Dev nD) (w : Fin cfg1.W) : (dat V c).q w = fullShare := by
  dsimp only [dat]
/-- The data record no waited pairs: the bound on them is the trivial one. -/
theorem dat_recorded (V : (c : Dev nD) → (b : Ref sig .tc) → Buf (Elt F) ((c : Thread nD τ).loc b)) (c : Dev nD) (t : Fin (cfg1.N + 1)) : (dat V c).recorded t = Set.univ := by
  dsimp only [dat]
theorem dat_owed (V : (c : Dev nD) → (b : Ref sig .tc) → Buf (Elt F) ((c : Thread nD τ).loc b)) (c : Dev nD) (t : Fin (cfg1.N + 1)) : (dat V c).owed t = 0 := by
  dsimp only [dat]
/-- The output window's staging buffer after the body: the accumulator. -/
theorem dat_after_out (V : (c : Dev nD) → (b : Ref sig .tc) → Buf (Elt F) ((c : Thread nD τ).loc b)) (c : Dev nD) (t : Fin cfg1.N) : (dat V c).after 6 t = acc V c t.val t.isLt := by
  dsimp only [dat]

theorem after0 (V : (c : Dev nD) → (b : Ref sig .tc) → Buf (Elt F) ((c : Thread nD τ).loc b)) (c : Dev nD) (t : Fin cfg1.N) : (dat V c).after 0 t = blk V c 0 t := by dsimp only [dat]
theorem after1 (V : (c : Dev nD) → (b : Ref sig .tc) → Buf (Elt F) ((c : Thread nD τ).loc b)) (c : Dev nD) (t : Fin cfg1.N) : (dat V c).after 1 t = blk V c 1 t := by dsimp only [dat]
theorem after2 (V : (c : Dev nD) → (b : Ref sig .tc) → Buf (Elt F) ((c : Thread nD τ).loc b)) (c : Dev nD) (t : Fin cfg1.N) : (dat V c).after 2 t = blk V c 2 t := by dsimp only [dat]
theorem after3 (V : (c : Dev nD) → (b : Ref sig .tc) → Buf (Elt F) ((c : Thread nD τ).loc b)) (c : Dev nD) (t : Fin cfg1.N) : (dat V c).after 3 t = blk V c 3 t := by dsimp only [dat]
theorem after4 (V : (c : Dev nD) → (b : Ref sig .tc) → Buf (Elt F) ((c : Thread nD τ).loc b)) (c : Dev nD) (t : Fin cfg1.N) : (dat V c).after 4 t = blk V c 4 t := by dsimp only [dat]
theorem after5 (V : (c : Dev nD) → (b : Ref sig .tc) → Buf (Elt F) ((c : Thread nD τ).loc b)) (c : Dev nD) (t : Fin cfg1.N) : (dat V c).after 5 t = blk V c 5 t := by dsimp only [dat]

/-- The invariant at a point's start, restated at the point's position. -/
theorem Phi_castSucc (V : (c : Dev nD) → (b : Ref sig .tc) → Buf (Elt F) ((c : Thread nD τ).loc b)) (c : Dev nD) (t : Fin cfg1.N) :
    (dat V c).Φ t.castSucc = PhiS V c t.val (Nat.le_of_lt t.isLt) := by
  dsimp only [dat]; simp only [Fin.coe_castSucc]

/-- Each input window's current staging buffer holds its block at every point, fetched there or not: unfetched,
    its block index has not moved, and the body leaves the block in place. -/
theorem before0 (V : (c : Dev nD) → (b : Ref sig .tc) → Buf (Elt F) ((c : Thread nD τ).loc b)) (c : Dev nD) (t : Fin cfg1.N) (d) : (dat V c).before 0 t d = blk V c 0 t :=
  ((dat V c).before_in_eq_fetched 0 rfl (fun _ => rfl) (fun _ _ _ => rfl) (fun t => by rw [after0]; unfold Dat.blockOf blk; rw [dat_A]; try rfl) t d).trans
    (by unfold Dat.fetched Dat.blockOf blk; rw [dat_A]; try rfl)
theorem before1 (V : (c : Dev nD) → (b : Ref sig .tc) → Buf (Elt F) ((c : Thread nD τ).loc b)) (c : Dev nD) (t : Fin cfg1.N) (d) : (dat V c).before 1 t d = blk V c 1 t :=
  ((dat V c).before_in_eq_fetched 1 rfl (fun _ => rfl) (fun _ _ _ => rfl) (fun t => by rw [after1]; unfold Dat.blockOf blk; rw [dat_A]; try rfl) t d).trans
    (by unfold Dat.fetched Dat.blockOf blk; rw [dat_A]; try rfl)
theorem before2 (V : (c : Dev nD) → (b : Ref sig .tc) → Buf (Elt F) ((c : Thread nD τ).loc b)) (c : Dev nD) (t : Fin cfg1.N) (d) : (dat V c).before 2 t d = blk V c 2 t :=
  ((dat V c).before_in_eq_fetched 2 rfl (fun _ => rfl) (fun _ _ _ => rfl) (fun t => by rw [after2]; unfold Dat.blockOf blk; rw [dat_A]; try rfl) t d).trans
    (by unfold Dat.fetched Dat.blockOf blk; rw [dat_A]; try rfl)
theorem before3 (V : (c : Dev nD) → (b : Ref sig .tc) → Buf (Elt F) ((c : Thread nD τ).loc b)) (c : Dev nD) (t : Fin cfg1.N) (d) : (dat V c).before 3 t d = blk V c 3 t :=
  ((dat V c).before_in_eq_fetched 3 rfl (fun _ => rfl) (fun _ _ _ => rfl) (fun t => by rw [after3]; unfold Dat.blockOf blk; rw [dat_A]; try rfl) t d).trans
    (by unfold Dat.fetched Dat.blockOf blk; rw [dat_A]; try rfl)
theorem before4 (V : (c : Dev nD) → (b : Ref sig .tc) → Buf (Elt F) ((c : Thread nD τ).loc b)) (c : Dev nD) (t : Fin cfg1.N) (d) : (dat V c).before 4 t d = blk V c 4 t :=
  ((dat V c).before_in_eq_fetched 4 rfl (fun _ => rfl) (fun _ _ _ => rfl) (fun t => by rw [after4]; unfold Dat.blockOf blk; rw [dat_A]; try rfl) t d).trans
    (by unfold Dat.fetched Dat.blockOf blk; rw [dat_A]; try rfl)
theorem before5 (V : (c : Dev nD) → (b : Ref sig .tc) → Buf (Elt F) ((c : Thread nD τ).loc b)) (c : Dev nD) (t : Fin cfg1.N) (d) : (dat V c).before 5 t d = blk V c 5 t :=
  ((dat V c).before_in_eq_fetched 5 rfl (fun _ => rfl) (fun _ _ _ => rfl) (fun t => by rw [after5]; unfold Dat.blockOf blk; rw [dat_A]; try rfl) t d).trans
    (by unfold Dat.fetched Dat.blockOf blk; rw [dat_A]; try rfl)

/-- The inputs are never idle: the body leaves each at its block. -/
theorem leaves0 (V : (c : Dev nD) → (b : Ref sig .tc) → Buf (Elt F) ((c : Thread nD τ).loc b)) (c : Dev nD) (t : Fin cfg1.N) : (dat V c).leavesExact 0 t = owns (c : Thread nD τ) (ms0 t) fullShare (blk V c 0 t) := by
  unfold Dat.leavesExact; rw [show cfg1.idle 0 (grid1.coords t) = false from rfl, after0]
theorem leaves1 (V : (c : Dev nD) → (b : Ref sig .tc) → Buf (Elt F) ((c : Thread nD τ).loc b)) (c : Dev nD) (t : Fin cfg1.N) : (dat V c).leavesExact 1 t = owns (c : Thread nD τ) (ms1 t) fullShare (blk V c 1 t) := by
  unfold Dat.leavesExact; rw [show cfg1.idle 1 (grid1.coords t) = false from rfl, after1]
theorem leaves2 (V : (c : Dev nD) → (b : Ref sig .tc) → Buf (Elt F) ((c : Thread nD τ).loc b)) (c : Dev nD) (t : Fin cfg1.N) : (dat V c).leavesExact 2 t = owns (c : Thread nD τ) (ms2 t) fullShare (blk V c 2 t) := by
  unfold Dat.leavesExact; rw [show cfg1.idle 2 (grid1.coords t) = false from rfl, after2]
theorem leaves3 (V : (c : Dev nD) → (b : Ref sig .tc) → Buf (Elt F) ((c : Thread nD τ).loc b)) (c : Dev nD) (t : Fin cfg1.N) : (dat V c).leavesExact 3 t = owns (c : Thread nD τ) (ms3 t) fullShare (blk V c 3 t) := by
  unfold Dat.leavesExact; rw [show cfg1.idle 3 (grid1.coords t) = false from rfl, after3]
theorem leaves4 (V : (c : Dev nD) → (b : Ref sig .tc) → Buf (Elt F) ((c : Thread nD τ).loc b)) (c : Dev nD) (t : Fin cfg1.N) : (dat V c).leavesExact 4 t = owns (c : Thread nD τ) (ms4 t) fullShare (blk V c 4 t) := by
  unfold Dat.leavesExact; rw [show cfg1.idle 4 (grid1.coords t) = false from rfl, after4]
theorem leaves5 (V : (c : Dev nD) → (b : Ref sig .tc) → Buf (Elt F) ((c : Thread nD τ).loc b)) (c : Dev nD) (t : Fin cfg1.N) : (dat V c).leavesExact 5 t = owns (c : Thread nD τ) (ms5 t) fullShare (blk V c 5 t) := by
  unfold Dat.leavesExact; rw [show cfg1.idle 5 (grid1.coords t) = false from rfl, after5]

/-! ## The body obligation -/

/-- What the body is called with at point `t`, the windows one by one, -/
def bodyPre (V : (c : Dev nD) → (b : Ref sig .tc) → Buf (Elt F) ((c : Thread nD τ).loc b)) (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (V : (c : Dev nD) → (b : Ref sig .tc) → Buf (Elt F) ((c : Thread nD τ).loc b)) (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point. The inputs' memrefs hold their blocks; the point's position in its batch tile says which
    case applies; the invariant hands the body the accumulator at what the point before left (at anything where the
    body restarts it) and takes it back at this point's value; off the last reaction block the output's buffer goes
    back untouched, at the last it ends at the accumulator's value; the core owes nothing throughout. -/
theorem sound_body (V : (c : Dev nD) → (b : Ref sig .tc) → Buf (Elt F) ((c : Thread nD τ).loc b)) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 128 := lt_of_lt_of_eq t.isLt (show cfg1.N = 128 from N_1)
  by_cases h0 : t.val % 16 = 0
  · have h1 : ¬t.val % 16 = 15 := by omega
    rw [Dat.leavesExact_idle (dat V c) 6 t (out_idle t (fun h => h1 ((isLast_iff t).mp h))) (out_noFlush t (fun h => h1 ((isLast_iff t).mp h)))]
    rw [acc_first V c t h0]
    by_cases hz : t.val = 0
    · rw [Phi_castSucc V c t, PhiS_zero V c _ _ hz, PhiA_eq]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Hrest HS Hg]
      · isplitr [Hg]
        · isplitl [Hrest]; · iexact Hrest
          unfold owns; iexists _; isplitr
          swap; · iexact HS
          ipureintro; exact first_leaves c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc V c t, PhiS_pos V c _ _ hz]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [Hrest HS Hg]
      · isplitr [Hg]
        · isplitl [Hrest]; · iexact Hrest
          unfold owns; iexists _; isplitr
          swap; · iexact HS
          ipureintro; exact first_leaves c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat V c).leavesExact 6 t = owns (c : Thread nD τ) (ms6 t) fullShare ((dat V c).after 6 t) from by
        unfold Dat.leavesExact; rw [out_live t ((isLast_iff t).mpr h1)], dat_after_out]
      rw [acc_next V c t h0]
      rw [Phi_castSucc V c t, PhiS_pos V c _ _ hz]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [Hrest HS Hg]
      · isplitr [Hg]
        · isplitl [Hrest]; · iexact Hrest
          unfold owns; iexists _; isplitr
          swap; · iexact HS
          ipureintro; exact last_leaves_acc c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (blk V c 0 t) (blk V c 1 t) (blk V c 2 t) (blk V c 3 t) (blk V c 4 t) (blk V c 5 t) _ _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact last_leaves_out c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (blk V c 0 t) (blk V c 1 t) (blk V c 2 t) (blk V c 3 t) (blk V c 4 t) (blk V c 5 t) _ _ _
    · rw [Dat.leavesExact_idle (dat V c) 6 t (out_idle t (fun h => h1 ((isLast_iff t).mp h))) (out_noFlush t (fun h => h1 ((isLast_iff t).mp h)))]
      rw [acc_next V c t h0]
      rw [Phi_castSucc V c t, PhiS_pos V c _ _ hz]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h1 ((isLast_iff t).mp h)) (blk V c 0 t) (blk V c 1 t) (blk V c 2 t) (blk V c 3 t) (blk V c 4 t) (blk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Hrest HS Hg]
      · isplitr [Hg]
        · isplitl [Hrest]; · iexact Hrest
          unfold owns; iexists _; isplitr
          swap; · iexact HS
          ipureintro; exact middle_leaves c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h1 ((isLast_iff t).mp h)) (blk V c 0 t) (blk V c 1 t) (blk V c 2 t) (blk V c 3 t) (blk V c 4 t) (blk V c 5 t) _ _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (V : (c : Dev nD) → (b : Ref sig .tc) → Buf (Elt F) ((c : Thread nD τ).loc b)) (c : Dev nD) : BodyObligation (dat (F := F) V c) (defs₀ (F := F)) Variants.none () Set.univ := fun t => by
  rw [bigSep_W1, bigSep_W1]
  exact sound_body V c t

/-- What the launch hands the region is the invariant before the first point. -/
theorem hin (V : (c : Dev nD) → (b : Ref sig .tc) → Buf (Elt F) ((c : Thread nD τ).loc b)) (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class invariant back: what the accumulator holds is forgotten. -/
theorem Phi_out (V : (c : Dev nD) → (b : Ref sig .tc) → Buf (Elt F) ((c : Thread nD τ).loc b)) (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨Hrest, HS⟩, Hg⟩
  isplitr [Hg]
  · isplitl [Hrest]; · iexact Hrest
    iexists _; iexact HS
  iexact Hg

/-- The same after the last point. -/
theorem hout (V : (c : Dev nD) → (b : Ref sig .tc) → Buf (Elt F) ((c : Thread nD τ).loc b)) (c : Dev nD) : (dat V c).Φ (Fin.last cfg1.N) ⊢ (Pipeline.ΦA spec1 c : sProp 𝕄) :=
  Phi_out V c _ (by rw [Fin.val_last]; have : cfg1.N = 128 := N_1; omega)

end Cert.KernelIdeal.Term2

end
-- ==== Proof.Fold.lean ====
/-
  The TensorCore's buffer contents at the boundaries of the program's items: at launch, after the host lines that cut
  the second-order reactant table into its two columns, after the first-order region (its result array at what its
  write-backs leave) and after the second-order region.
  -/
import proofs.«430890_j60138132078971_1_alg».proof.Proof.Term1
import proofs.«430890_j60138132078971_1_alg».proof.Proof.Term2
import Idealize.ShloMosaic.Lib.ValueIdx
import Idealize.ShloMosaic.Lib.ValueLayout
import Idealize.ShloMosaic.Lib.Pipeline.Value
import Idealize.ShloMosaic.Lib.StableHlo.Run
import proofs.«430890_j60138132078971_1_alg».proof.Proof.Gen.KernelIdeal.Regions

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the host lines (the first-order region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first-order region's exit: its arrays at what the pipeline leaves, every other buffer as entered. -/
def W2 (c : Dev nD) : Valuation τ sig (Elt F) :=
  Pipeline.withArrays spec0 c (W1 m c) fun w => (Term1.dat (V1 m) c).arrAt w cfg0.N
/-- The same read at the TensorCore's references (the second-order region's entry). -/
abbrev V2 : (c : Dev nD) → (b : Ref sig .tc) → Buf (Elt F) ((c : Thread nD τ).loc b) := fun c b => W2 m c b
/-- At the second-order region's exit. -/
def W3 (c : Dev nD) : Valuation τ sig (Elt F) :=
  Pipeline.withArrays spec1 c (W2 m c) fun w => (Term2.dat (V2 m) c).arrAt w cfg1.N
abbrev V3 : (c : Dev nD) → (b : Ref sig .tc) → Buf (Elt F) ((c : Thread nD τ).loc b) := fun c b => W3 m c b

theorem W2_arr (c : Dev nD) (w : Fin cfg0.W) :
    W2 m c (Proc.devRef .tc (Pipeline.arrRef spec0 w)) = (Term1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (Term2.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- The host lines write only the table's two cut columns and their two reshaped copies: any other buffer is found
    after them as launched. -/
theorem W1_of_not_written (c : Dev nD) (r : Ref sig .tc) (h : r ∉ hostOps0_W) :
    W1 m c (Proc.devRef .tc r) = m ((c : Thread nD τ).loc r) :=
  StableHlo.after_of_writes_sub hostOps0 _ hostOps0_writes h

/-- A window of the first-order region that is only read leaves its array as the region found it. -/
theorem W2_of_input (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((Term1.dat (V1 m) c).arrAt_in w hin _).trans (Term1.dat_A (V1 m) c w))
/-- The same of the second-order region. -/
theorem W3_of_input (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((Term2.dat (V2 m) c).arrAt_in w hin _).trans (Term2.dat_A (V2 m) c w))

/-- The program's result after the run: the second-order region's output array. -/
theorem V3_result (c : Dev nD) : V3 m c main_v5 = (Term2.dat (V2 m) c).arrAt 6 cfg1.N := W3_arr m c 6
/-- The first-order result as the second-order region finds it. -/
theorem V2_y1 (c : Dev nD) : V2 m c main_v4 = (Term1.dat (V1 m) c).arrAt 4 cfg0.N := W2_arr m c 4

/-- No item writes an argument: each is found as launched at every boundary. -/
theorem V1_main_arg0 (c : Dev nD) : V1 m c main_arg0 = m ((c : Thread nD τ).loc main_arg0) := W1_of_not_written m c main_arg0 (by decide)
theorem V1_main_arg1 (c : Dev nD) : V1 m c main_arg1 = m ((c : Thread nD τ).loc main_arg1) := W1_of_not_written m c main_arg1 (by decide)
theorem V1_main_arg3 (c : Dev nD) : V1 m c main_arg3 = m ((c : Thread nD τ).loc main_arg3) := W1_of_not_written m c main_arg3 (by decide)
theorem V1_main_arg4 (c : Dev nD) : V1 m c main_arg4 = m ((c : Thread nD τ).loc main_arg4) := W1_of_not_written m c main_arg4 (by decide)
theorem V2_main_arg0 (c : Dev nD) : V2 m c main_arg0 = m ((c : Thread nD τ).loc main_arg0) :=
  (W2_of_input m c 0 rfl).trans (V1_main_arg0 m c)
theorem V2_main_arg2 (c : Dev nD) : V2 m c main_arg2 = m ((c : Thread nD τ).loc main_arg2) :=
  (W2_of_ne m c main_arg2 (by decide)).trans (W1_of_not_written m c main_arg2 (by decide))
theorem V2_main_arg6 (c : Dev nD) : V2 m c main_arg6 = m ((c : Thread nD τ).loc main_arg6) :=
  (W2_of_ne m c main_arg6 (by decide)).trans (W1_of_not_written m c main_arg6 (by decide))
/-- The two columns of the second-order reactant table, as the host lines leave them. -/
theorem V2_main_v1 (c : Dev nD) : V2 m c main_v1 = V1 m c main_v1 := W2_of_ne m c main_v1 (by decide)
theorem V2_main_v3 (c : Dev nD) : V2 m c main_v3 = V1 m c main_v3 := W2_of_ne m c main_v3 (by decide)

/-- Column `k` of a two-column table, cut out as a one-column matrix and flattened to a vector, reads at `n` the
    table's entry `(n, k)`: the flattening keeps the row-major position, the cut shifts the column by `k`. -/
theorem column_apply {α : Type} (X : S16384x2.Idx → α) (k : Fin 2) (hs : S16384x2.Slices ![0, k.val] S16384x1)
    (hc : S16384x1.ShapeCasts S16384) (n : Fin 16384) :
    shapeCast S16384 (extractStridedSlice S16384x1 ![0, k.val] X hs) hc (ValueIdx.ix1 n) = X (ValueIdx.ix2 n k) := by
  refine (shapeCast_apply _ hc (ValueIdx.ix1 n) (ValueIdx.ix2 n (0 : Fin 1)) (by
    rw [Shape.rowMajor_val_two, Shape.rowMajor_val_one]
    show n.val * 1 + 0 = n.val
    omega)).trans ?_
  exact ValueIdx.slice2_axis1_apply k.val X hs n (0 : Fin 1) k (by show k.val = k.val + 0; omega)

/-- The host lines cut the two-column reactant table into its columns: entry n of each column is the table's entry (n, 0),
    resp. (n, 1). -/
theorem V1_main_v1_apply (c : Dev nD) (n : Fin 16384) :
    V1 m c main_v1 (ValueIdx.ix1 n) = m ((c : Thread nD τ).loc main_arg5) (ValueIdx.ix2 n 0) := by
  have e : (V1 m c main_v1 : S16384.Idx → Elt F .i32) =
      shapeCast S16384 (extractStridedSlice S16384x1 ![0, 0] (m ((c : Thread nD τ).loc main_arg5)) slices_S16384x2_S16384x1_0_0)
        shapeCasts_S16384x1_S16384 := by
    dsimp only [V1, W1, W0, hostOps0]; after_results; rfl
  rw [e]
  exact column_apply _ 0 slices_S16384x2_S16384x1_0_0 shapeCasts_S16384x1_S16384 n
theorem V1_main_v3_apply (c : Dev nD) (n : Fin 16384) :
    V1 m c main_v3 (ValueIdx.ix1 n) = m ((c : Thread nD τ).loc main_arg5) (ValueIdx.ix2 n 1) := by
  have e : (V1 m c main_v3 : S16384.Idx → Elt F .i32) =
      shapeCast S16384 (extractStridedSlice S16384x1 ![0, 1] (m ((c : Thread nD τ).loc main_arg5)) slices_S16384x2_S16384x1_0_1)
        shapeCasts_S16384x1_S16384 := by
    dsimp only [V1, W1, W0, hostOps0]; after_results; rfl
  rw [e]
  exact column_apply _ 1 slices_S16384x2_S16384x1_0_1 shapeCasts_S16384x1_S16384 n
theorem V3_main_arg0 (c : Dev nD) : V3 m c main_arg0 = m ((c : Thread nD τ).loc main_arg0) :=
  (W3_of_input m c 0 rfl).trans (V2_main_arg0 m c)
theorem V3_main_arg1 (c : Dev nD) : V3 m c main_arg1 = m ((c : Thread nD τ).loc main_arg1) :=
  (W3_of_ne m c main_arg1 (by decide)).trans ((W2_of_input m c 1 rfl).trans (V1_main_arg1 m c))
theorem V3_main_arg2 (c : Dev nD) : V3 m c main_arg2 = m ((c : Thread nD τ).loc main_arg2) :=
  (W3_of_input m c 1 rfl).trans (V2_main_arg2 m c)
theorem V3_main_arg3 (c : Dev nD) : V3 m c main_arg3 = m ((c : Thread nD τ).loc main_arg3) :=
  (W3_of_ne m c main_arg3 (by decide)).trans ((W2_of_input m c 2 rfl).trans (V1_main_arg3 m c))
theorem V3_main_arg4 (c : Dev nD) : V3 m c main_arg4 = m ((c : Thread nD τ).loc main_arg4) :=
  (W3_of_ne m c main_arg4 (by decide)).trans ((W2_of_input m c 3 rfl).trans (V1_main_arg4 m c))
theorem V3_main_arg5 (c : Dev nD) : V3 m c main_arg5 = m ((c : Thread nD τ).loc main_arg5) :=
  (W3_of_ne m c main_arg5 (by decide)).trans ((W2_of_ne m c main_arg5 (by decide)).trans (W1_of_not_written m c main_arg5 (by decide)))
theorem V3_main_arg6 (c : Dev nD) : V3 m c main_arg6 = m ((c : Thread nD τ).loc main_arg6) :=
  (W3_of_input m c 4 rfl).trans (V2_main_arg6 m c)

end Cert.KernelIdeal.Fold

end
-- ==== Proof.Run.lean ====
/-
  The program's run: the host lines, the first-order region, the second-order region, from any launch memory. Every
  weakly fair execution terminates; the result array ends at what the second-order region's write-backs leave and every
  argument array ends as launched.
-/
import proofs.«430890_j60138132078971_1_alg».proof.Proof.Fold
import proofs.«430890_j60138132078971_1_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Items

variable (m : (ℓ : Loc nD τ sig) → Buf (Elt F) ℓ)

/-- Both regions' proof data: the first-order region's at the contents the host lines leave, the second-order region's
    at the contents the first-order region leaves. -/
def dats : (p : Fin 2) → (c : Dev nD) → Dat τ (Elt F) Unit ℕ (UR sig nD τ) ℕ (Pipeline.pin (pcfgs (F := F)) adm p) c
  | ⟨0, _⟩ => fun c => Term1.dat (Fold.V1 m) c
  | ⟨1, _⟩ => fun c => Term2.dat (Fold.V2 m) c

/-- Neither region's data owe anything at any point, and neither bounds the pairs a core's waits may have recorded. -/
theorem owed1 (c : Dev nD) (t : Fin ((Pipeline.pin (pcfgs (F := F)) adm 0).N + 1)) : (dats m 0 c).owed t = 0 :=
  Term1.dat_owed (Fold.V1 m) c t
theorem owed2 (c : Dev nD) (t : Fin ((Pipeline.pin (pcfgs (F := F)) adm 1).N + 1)) : (dats m 1 c).owed t = 0 :=
  Term2.dat_owed (Fold.V2 m) c t
theorem recorded1 (c : Dev nD) (t : Fin ((Pipeline.pin (pcfgs (F := F)) adm 0).N + 1)) : (dats m 0 c).recorded t = Set.univ :=
  Term1.dat_recorded (Fold.V1 m) c t
theorem recorded2 (c : Dev nD) (t : Fin ((Pipeline.pin (pcfgs (F := F)) adm 1).N + 1)) : (dats m 1 c).recorded t = Set.univ :=
  Term2.dat_recorded (Fold.V2 m) c t

/-- A core that owes nothing stands, before any point of the first-order region, as that region's data say (owing
    nothing, whatever pairs its waits have recorded); and conversely. -/
theorem owes_in1 (c : Dev nD) (t : Fin ((Pipeline.pin (pcfgs (F := F)) adm 0).N + 1)) :
    (iprop(∃ W, owes (c : Thread nD τ) (0 : CellTallies nD τ sig Unit) W) : sProp 𝕄) ⊢ (dats m 0 c).owesAt () t := by
  unfold Pipeline.Dat.owesAt Pipeline.owesWithin
  rw [owed1 m c t]
  iintro ⟨%W, HO⟩; iexists W; isplitr
  · ipureintro; exact fun x _ => Or.inl (by rw [recorded1 m c t]; exact trivial)
  iexact HO
theorem owes_out1 (c : Dev nD) (t : Fin ((Pipeline.pin (pcfgs (F := F)) adm 0).N + 1)) :
    (dats m 0 c).owesAt () t ⊢ (iprop(∃ W, owes (c : Thread nD τ) (0 : CellTallies nD τ sig Unit) W) : sProp 𝕄) := by
  unfold Pipeline.Dat.owesAt Pipeline.owesWithin
  rw [owed1 m c t]
  iintro ⟨%W, -, HO⟩; iexists W; iexact HO
/-- The same of the second-order region. -/
theorem owes_in2 (c : Dev nD) (t : Fin ((Pipeline.pin (pcfgs (F := F)) adm 1).N + 1)) :
    (iprop(∃ W, owes (c : Thread nD τ) (0 : CellTallies nD τ sig Unit) W) : sProp 𝕄) ⊢ (dats m 1 c).owesAt () t := by
  unfold Pipeline.Dat.owesAt Pipeline.owesWithin
  rw [owed2 m c t]
  iintro ⟨%W, HO⟩; iexists W; isplitr
  · ipureintro; exact fun x _ => Or.inl (by rw [recorded2 m c t]; exact trivial)
  iexact HO
theorem owes_out2 (c : Dev nD) (t : Fin ((Pipeline.pin (pcfgs (F := F)) adm 1).N + 1)) :
    (dats m 1 c).owesAt () t ⊢ (iprop(∃ W, owes (c : Thread nD τ) (0 : CellTallies nD τ sig Unit) W) : sProp 𝕄) := by
  unfold Pipeline.Dat.owesAt Pipeline.owesWithin
  rw [owed2 m c t]
  iintro ⟨%W, -, HO⟩; iexists W; iexact HO

/-- No loop variant, no pair of cores at a level: no core owes another anything. -/
abbrev noVariant : Variants := Variants.none
abbrev noPairs : GSem nD τ sig → Finset Unit := fun _ => ∅
abbrev noLevel : GSem nD τ sig → Unit → ℕ := fun _ _ => 0

/-- What a core carries beside its buffers from item to item: its generator register at some state, and nothing owed. -/
abbrev beside (c : Dev nD) : sProp 𝕄 :=
  iprop((∃ r, prngReg c r) ∗ ∃ W, owes (c : Thread nD τ) (0 : CellTallies nD τ sig Unit) W)

/-- A core between two items: every unscoped buffer whole at the contents `W c`, and what rides beside. -/
abbrev between (W : Dev nD → Valuation τ sig (Elt F)) (c : Dev nD) : sProp 𝕄 :=
  iprop(StableHlo.held (c : Thread nD τ) (Pipeline.ucRefs τ sig) (W c) ∗ beside c)

/-- The state the run ends in, without the (empty) debt: the buffers at the last contents, the generator register. -/
abbrev atEnd (c : Dev nD) : sProp 𝕄 :=
  iprop(StableHlo.held (c : Thread nD τ) (Pipeline.ucRefs τ sig) (Fold.W3 m c) ∗ ∃ r, prngReg c r)

/-- Item 0, the host lines that cut the reactant table into its two columns: from the launch contents to `W1`. -/
abbrev cutItem : Pipeline.HostSeg (Name := ℕ) (U := UR sig nD τ) (pcfgs (F := F)) defs₀ noVariant noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Fold.W0 m) beside

/-- At the first-order region's exit each of its arrays holds what the pipeline leaves, every other buffer what it held
    at entry. -/
theorem exit1_arr (c : Dev nD) (w : Fin cfg0.W) : (Term1.dat (Fold.V1 m) c).arrAt w cfg0.N = Fold.V2 m c (Pipeline.arrRef spec0 w) :=
  (Fold.W2_arr m c w).symm
theorem exit1_rest (c : Dev nD) : ∀ b, b ∉ Finset.univ.image (Pipeline.arrRef spec0) → Fold.V2 m c b = Fold.V1 m c b :=
  fun b hb => Fold.W2_of_ne m c b fun w e => hb (Finset.mem_image.mpr ⟨w, Finset.mem_univ _, e⟩)
/-- The same at the second-order region's exit. -/
theorem exit2_arr (c : Dev nD) (w : Fin cfg1.W) : (Term2.dat (Fold.V2 m) c).arrAt w cfg1.N = Fold.V3 m c (Pipeline.arrRef spec1 w) :=
  (Fold.W3_arr m c w).symm
theorem exit2_rest (c : Dev nD) : ∀ b, b ∉ Finset.univ.image (Pipeline.arrRef spec1) → Fold.V3 m c b = Fold.V2 m c b :=
  fun b hb => Fold.W3_of_ne m c b fun w e => hb (Finset.mem_image.mpr ⟨w, Finset.mem_univ _, e⟩)

set_option backward.isDefEq.respectTransparency.types false in
/-- Item 1, the first-order region: entered from every unscoped buffer at `W1`, left at `W2`. Its five arrays are split out
    of the unscoped buffers at entry and put back at their exit contents; the generator register goes into the region's
    invariant and comes back; nothing is owed; the kernel has no semaphore of its own. -/
def firstOrder : Pipeline.RegionSeg (pcfgs (F := F)) adm (dats m) () defs₀ noVariant noPairs noLevel 0 where
  win := launch0.win.to₀
  block_pos := launch0.block_pos
  stage_whole := launch0.stage_whole
  K := PEmpty
  osem k := k.elim
  ho := Pipeline.OwnSemFacts.none _
  hbody c := (Term1.body_obligation (Fold.V1 m) c).loose
  hwaits := Pipeline.hwaits_of_owed_zero _ _ _ _ noPairs noLevel 0 fun c t => Term1.dat_owed (Fold.V1 m) c t
  pre c := between (Fold.W1 m) c
  post c := between (Fold.W2 m) c
  X c := iprop(∃ r, prngReg c r)
  Y c := iprop(∃ r, prngReg c r)
  Z c := Pipeline.unscopedRest (Ix := Unit) (Name := ℕ) (U := UR sig nD τ) (Lvl := ℕ) spec0 c (Fold.V1 m c)
  hentry c := by
    rw [Pipeline.ownSems0_none]
    have hsplit := Pipeline.arrays_of_unscopedBufs (p := 0) (pcfgs (F := F)) adm (dats m) launch0.win launch0.arr_whole c
      ((dats m 0 c).share_full (Term1.dat_q (Fold.V1 m) c)) (Fold.V1 m c) (Term1.dat_A (Fold.V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in1 m c 0); iexact HO
    isplitl [Hp]; · iexact Hp
    iexact Hrest
  hin c := by
    refine BIBase.Entails.trans ?_ (Term1.hin (Fold.V1 m) c)
    unfold Pipeline.ΦA
    iintro ⟨Hp, -, Hr⟩
    isplitl [Hr]; · iexact Hr
    iexact Hp
  hout c := by
    rw [Pipeline.ownSems0_none]
    refine (Term1.hout (Fold.V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m) ((dats m 0 c).share_full (Term1.dat_q (Fold.V1 m) c))
      (Fold.V1 m c) (Fold.V2 m c) ((dats m 0 c).arrAt · cfg0.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out1 m c (Fin.last _)); iexact HO

set_option backward.isDefEq.respectTransparency.types false in
/-- Item 2, the second-order region: entered from every unscoped buffer at `W2`, left at `W3`, in the same way over its
    seven arrays. -/
def secondOrder : Pipeline.RegionSeg (pcfgs (F := F)) adm (dats m) () defs₀ noVariant noPairs noLevel 1 where
  win := launch1.win.to₀
  block_pos := launch1.block_pos
  stage_whole := launch1.stage_whole
  K := PEmpty
  osem k := k.elim
  ho := Pipeline.OwnSemFacts.none _
  hbody c := (Term2.body_obligation (Fold.V2 m) c).loose
  hwaits := Pipeline.hwaits_of_owed_zero _ _ _ _ noPairs noLevel 1 fun c t => Term2.dat_owed (Fold.V2 m) c t
  pre c := between (Fold.W2 m) c
  post c := between (Fold.W3 m) c
  X c := iprop(∃ r, prngReg c r)
  Y c := iprop(∃ r, prngReg c r)
  Z c := Pipeline.unscopedRest (Ix := Unit) (Name := ℕ) (U := UR sig nD τ) (Lvl := ℕ) spec1 c (Fold.V2 m c)
  hentry c := by
    rw [Pipeline.ownSems0_none]
    have hsplit := Pipeline.arrays_of_unscopedBufs (p := 1) (pcfgs (F := F)) adm (dats m) launch1.win launch1.arr_whole c
      ((dats m 1 c).share_full (Term2.dat_q (Fold.V2 m) c)) (Fold.V2 m c) (Term2.dat_A (Fold.V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in2 m c 0); iexact HO
    isplitl [Hp]; · iexact Hp
    iexact Hrest
  hin c := by
    refine BIBase.Entails.trans ?_ (Term2.hin (Fold.V2 m) c)
    unfold Pipeline.ΦA
    iintro ⟨Hp, -, Hr⟩
    isplitl [Hr]; · iexact Hr
    iexact Hp
  hout c := by
    rw [Pipeline.ownSems0_none]
    refine (Term2.hout (Fold.V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m) ((dats m 1 c).share_full (Term2.dat_q (Fold.V2 m) c))
      (Fold.V2 m c) (Fold.V3 m c) ((dats m 1 c).arrAt · cfg1.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out2 m c (Fin.last _)); iexact HO

/-- The program's three items in order. -/
abbrev items : List (Pipeline.Seg (pcfgs (F := F)) adm (dats m) () defs₀ noVariant noPairs noLevel) :=
  [ .host (cutItem m), .region (firstOrder m), .region (secondOrder m) ]

/-- The program is the run of its items: its chain of statements, against which the items' run is checked by
    definitional unfolding. -/
theorem main_items (c : Dev nD) : main (F := F) c = Pipeline.Seg.run (items m) := (main_chain c).trans (by chain_rfl)

/-- The last boundary, regrouped: the debt (none) stands apart from the buffers and the generator register. -/
theorem between_end (c : Dev nD) :
    between (Fold.W3 m) c ⊢ iprop(atEnd m c ∗ ∃ W, owes (c : Thread nD τ) (0 : CellTallies nD τ sig Unit) W) := by
  iintro ⟨Hh, Hp, HO⟩
  isplitl [Hh Hp]
  · isplitl [Hh]; · iexact Hh
    iexact Hp
  iexact HO

/-- An unscoped TensorCore reference is among those a core holds between items. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Items

set_option backward.isDefEq.respectTransparency.types false in
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = Fold.V3 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (dats m) () cellOf_inj emb₁ defs₀ noVariant noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (Fold.W0 m)) (Tₙ := atEnd m)
    (hch := ⟨fun _ => .rfl, fun _ => .rfl, fun _ => .rfl, fun c => between_end m c⟩)
    (hinit := by
      refine Pipeline.initEach noPairs noLevel fun c => ?_
      rw [show unscopedBufs c (fun b => m ((c : Thread nD τ).loc b)) = StableHlo.held (c : Thread nD τ) (Pipeline.ucRefs τ sig) (Fold.W0 m c)
        from Pipeline.unscopedBufs_held c (Fold.W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Fold.W3 m c b)
    (hfin := fun c s' => by
      iintro ⟨⟨Hh, -⟩, HSI⟩
      unfold StableHlo.held
      imodintro
      iapply (pointsTo_read_all (Pipeline.ucRefs τ sig) (fun b => (((c : Thread nD τ)).1, b)) (Fold.W3 m c) s')
      isplitl [Hh] <;> iassumption)
    (hQ := fun s h c =>
      ⟨h c _ (mem_unscoped main_v5 (by decide)),
       (h c _ (mem_unscoped main_arg0 (by decide))).trans (Fold.V3_main_arg0 m c),
       (h c _ (mem_unscoped main_arg1 (by decide))).trans (Fold.V3_main_arg1 m c),
       (h c _ (mem_unscoped main_arg2 (by decide))).trans (Fold.V3_main_arg2 m c),
       (h c _ (mem_unscoped main_arg3 (by decide))).trans (Fold.V3_main_arg3 m c),
       (h c _ (mem_unscoped main_arg4 (by decide))).trans (Fold.V3_main_arg4 m c),
       (h c _ (mem_unscoped main_arg5 (by decide))).trans (Fold.V3_main_arg5 m c),
       (h c _ (mem_unscoped main_arg6 (by decide))).trans (Fold.V3_main_arg6 m c)⟩)

end Cert.KernelIdeal.Run

end
-- ==== Proof.BitsTerm1.lean ====
/-
  The first-order kernel's region: what the accumulator holds after each grid point, and the region's proof data.

  The grid is (batch tile, reaction block), the reaction block running fastest with period 4.  At the first
  reaction block of a batch tile the body resets its accumulator to zero; at every block it adds the block's
  contribution (two one-hot contractions) to the accumulator; at the last block it copies the accumulator
  into the output window, which is left alone at every other point.
-/
import proofs.«430890_j60138132078971_1_alg».proof.Proof.Gen.Kernel.Launch
import proofs.«430890_j60138132078971_1_alg».proof.Proof.Gen.Kernel.Skeleton
import proofs.«430890_j60138132078971_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Term1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- The body's first branch: this is the first reaction block of its batch tile (reaction coordinate 0). -/
abbrev firstBlock (i : grid0.Coords) : Prop :=
  (Scalar.cmpi .ne (Scalar.extui (Scalar.cmpi .eq (BitVec.ofNat 32 (i 1).val) 0#32)) 0#32) = 1#1
/-- It holds exactly at the points whose position is a multiple of 4. -/
theorem first_iff : ∀ t : Fin cfg0.N, firstBlock (grid0.coords t) ↔ t.val % 4 = 0 :=
  (by decide +kernel : ∀ t : Fin grid0.N, firstBlock (grid0.coords t) ↔ t.val % 4 = 0)

/-- The body's second branch: this is the last reaction block of its batch tile (reaction coordinate 3). -/
abbrev lastBlock (i : grid0.Coords) : Prop := k0_cond2 i = 1#1
/-- It holds exactly at the points whose position is 3 modulo 4. -/
theorem last_iff : ∀ t : Fin cfg0.N, lastBlock (grid0.coords t) ↔ t.val % 4 = 3 :=
  (by decide +kernel : ∀ t : Fin grid0.N, lastBlock (grid0.coords t) ↔ t.val % 4 = 3)

/-- Away from a last block the output window is idle, -/
theorem out_idle : ∀ t : Fin cfg0.N, ¬lastBlock (grid0.coords t) → cfg0.idle 4 (grid0.coords t) = true := by decide +kernel
/-- and is not written back; -/
theorem out_unflushed : ∀ t : Fin cfg0.N, ¬lastBlock (grid0.coords t) → (cfg0.win 4).flush t = false := by decide +kernel
/-- at a last block it is live. -/
theorem out_live : ∀ t : Fin cfg0.N, lastBlock (grid0.coords t) → cfg0.idle 4 (grid0.coords t) = false := by decide +kernel

/-! ## The memrefs the body is called on -/

/-- The accumulator: a whole scoped buffer of the kernel's own, carried from point to point. -/
abbrev scr : Memref sig .tc .vmem S512x1024 .f32 := Memref.whole cc0_scratch0

/-- Each window's current staging memref at point `t`, and its wholeness. -/
abbrev stg0 (t : Fin cfg0.N) : Memref sig .tc .vmem S512x1024 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S512x1024 .f32 := win0_1.stage (cfg0.slots t 1)
abbrev whole1 (t : Fin cfg0.N) : (stg1 t).IsWhole := hstage0_1 ((cfg0.slots t 1).cast nbuf0_1)
abbrev stg2 (t : Fin cfg0.N) : Memref sig .tc .vmem S1024 .i32 := win0_2.stage (cfg0.slots t 2)
abbrev whole2 (t : Fin cfg0.N) : (stg2 t).IsWhole := hstage0_2 ((cfg0.slots t 2).cast nbuf0_2)
abbrev stg3 (t : Fin cfg0.N) : Memref sig .tc .vmem S1024 .i32 := win0_3.stage (cfg0.slots t 3)
abbrev whole3 (t : Fin cfg0.N) : (stg3 t).IsWhole := hstage0_3 ((cfg0.slots t 3).cast nbuf0_3)
abbrev stg4 (t : Fin cfg0.N) : Memref sig .tc .vmem S512x1024 .f32 := win0_4.stage (cfg0.slots t 4)
abbrev whole4 (t : Fin cfg0.N) : (stg4 t).IsWhole := hstage0_4 ((cfg0.slots t 4).cast nbuf0_4)

/-- The offsets of a whole-buffer rectangle are zero, in rank 2 and in rank 1. -/
theorem off2 : (![0, 0] : Fin 2 → Nat) = fun _ => 0 := funext fun a => by fin_cases a <;> rfl
theorem off1 : (![0] : Fin 1 → Nat) = fun _ => 0 := funext fun a => by fin_cases a <;> rfl

/-! ## The body's three runs -/

set_option maxHeartbeats 1000000 in
/-- FIRST BLOCK (reset taken, copy-out not taken).  On whole memrefs, the four inputs at their contents, the
    output buffer at contents it hands back untouched and the accumulator at anything, the body runs to the
    inputs and the output as they were and the accumulator with the pieces `LS` written (latest first). -/
noncomputable def runFirst (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : firstBlock i) (hc1 : ¬lastBlock i)
    (x0 : Vec F S512x1024 .f32) (x1 : Vec F S512x1024 .f32) (x2 : Vec F S1024 .i32) (x3 : Vec F S1024 .i32) :
    { LS : List (View.Piece (Elt F) S512x1024 .f32) //
      ∀ (xo : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc0__term1_kernel i arg2 harg2 arg3 harg3 arg4 harg4 arg5 harg5 arg6 harg6 arg7 harg7) K } := by
  refine ⟨?_, fun xo E K => ?run⟩
  case run =>
    simp only [cc0__term1_kernel_eq_skeleton]; unfold cc0__term1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- MIDDLE BLOCK (neither branch taken).  As before, but the accumulator is handed over at the contents `xs`
    the point before left. -/
noncomputable def runMiddle (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : ¬lastBlock i)
    (x0 : Vec F S512x1024 .f32) (x1 : Vec F S512x1024 .f32) (x2 : Vec F S1024 .i32) (x3 : Vec F S1024 .i32) (xs : Vec F S512x1024 .f32) :
    { LS : List (View.Piece (Elt F) S512x1024 .f32) //
      ∀ (xo : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc0__term1_kernel i arg2 harg2 arg3 harg3 arg4 harg4 arg5 harg5 arg6 harg6 arg7 harg7) K } := by
  refine ⟨?_, fun xo E K => ?run⟩
  case run =>
    simp only [cc0__term1_kernel_eq_skeleton]; unfold cc0__term1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- LAST BLOCK (reset not taken, copy-out taken).  The output buffer is handed over at anything and comes back
    with the pieces `LO` written; the accumulator as in the middle case. -/
noncomputable def runLast (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i)
    (x0 : Vec F S512x1024 .f32) (x1 : Vec F S512x1024 .f32) (x2 : Vec F S1024 .i32) (x3 : Vec F S1024 .i32) (xs : Vec F S512x1024 .f32) :
    Σ' (LO : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__term1_kernel i arg2 harg2 arg3 harg3 arg4 harg4 arg5 harg5 arg6 harg6 arg7 harg7) K } := by
  refine ⟨?_, ?_, fun E K => ?run⟩
  case run =>
    simp only [cc0__term1_kernel_eq_skeleton]; unfold cc0__term1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

/-! ## What the runs leave: the pieces cover their buffers, and read back as the payloads -/

/-- The first block's pieces cover the accumulator. -/
theorem cover_first (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : firstBlock i) (hc1 : ¬lastBlock i) (x0 : Vec F S512x1024 .f32) (x1 : Vec F S512x1024 .f32) (x2 : Vec F S1024 .i32) (x3 : Vec F S1024 .i32) (y : S512x1024.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S512x1024.size (by sl_kernel_rfl) y

/-- A middle block's pieces cover the accumulator. -/
theorem cover_middle (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : ¬lastBlock i) (x0 : Vec F S512x1024 .f32) (x1 : Vec F S512x1024 .f32) (x2 : Vec F S1024 .i32) (x3 : Vec F S1024 .i32) (xs : Vec F S512x1024 .f32) (y : S512x1024.Idx) :
    ∃ pc ∈ (runMiddle c i arg2 harg2 arg3 harg3 arg4 harg4 arg5 harg5 arg6 harg6 arg7 harg7 hc0 hc1 x0 x1 x2 x3 xs).1, y ∈ pc.1.set :=
  View.cover_of_tiledL (runMiddle c i arg2 harg2 arg3 harg3 arg4 harg4 arg5 harg5 arg6 harg6 arg7 harg7 hc0 hc1 x0 x1 x2 x3 xs).1 S512x1024.size (by sl_kernel_rfl) y

/-- The last block's pieces cover the accumulator, -/
theorem cover_last_acc (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32) (y : S512x1024.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S512x1024.size (by sl_kernel_rfl) y

/-- and the output buffer. -/
theorem cover_last_out (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32) (y : S512x1024.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S512x1024.size (by sl_kernel_rfl) y

/-- After the first block the accumulator reads as the block's contribution added to zero: the reset's store is
    covered by the update's, whose operand is the reset read back. -/
theorem read_first (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : firstBlock i) (hc1 : ¬lastBlock i) (x0 : Vec F S512x1024 .f32) (x1 : Vec F S512x1024 .f32) (x2 : Vec F S1024 .i32) (x3 : Vec F S1024 .i32)
    (v : View sig .tc .vmem S512x1024 .f32) (f : v.ty.Contents (Elt F)) :
    v.read (Elt F) (v.writes (Elt F) f (runFirst c i arg2 harg2 arg3 harg3 arg4 harg4 arg5 harg5 arg6 harg6 arg7 harg7 hc0 hc1 x0 x1 x2 x3).1)
      = (k0_pay2 x0 x2 x1 x3 (k0_pay1 (F := F)) : Vec F S512x1024 .f32) := by
  rw [View.read_writes_eq_canon _ _ _ (cover_first c i arg2 harg2 arg3 harg3 arg4 harg4 arg5 harg5 arg6 harg6 arg7 harg7 hc0 hc1 x0 x1 x2 x3)]
  unfold runFirst
  dsimp only
  sl_unfold_words
  rw [View.canon_cons_unit_zero (S := S512x1024) off2, View.readCov_unit_zero (S := S512x1024) _ off2]
  simp only [View.readAt_eq_ld, harg2.read_unread, harg3.read_unread, harg4.read_unread, harg5.read_unread, harg7.read_unread,
    View.ld_unit_zero (S := S512x1024) off2, View.ld_unit_zero (S := S1024) off1]

/-- After a middle block it reads as the block's contribution added to what it held. -/
theorem read_middle (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : ¬lastBlock i) (x0 : Vec F S512x1024 .f32) (x1 : Vec F S512x1024 .f32) (x2 : Vec F S1024 .i32) (x3 : Vec F S1024 .i32) (xs : Vec F S512x1024 .f32)
    (v : View sig .tc .vmem S512x1024 .f32) (f : v.ty.Contents (Elt F)) :
    v.read (Elt F) (v.writes (Elt F) f (runMiddle c i arg2 harg2 arg3 harg3 arg4 harg4 arg5 harg5 arg6 harg6 arg7 harg7 hc0 hc1 x0 x1 x2 x3 xs).1)
      = (k0_pay2 x0 x2 x1 x3 xs : Vec F S512x1024 .f32) := by
  rw [View.read_writes_eq_canon _ _ _ (cover_middle c i arg2 harg2 arg3 harg3 arg4 harg4 arg5 harg5 arg6 harg6 arg7 harg7 hc0 hc1 x0 x1 x2 x3 xs)]
  unfold runMiddle
  dsimp only
  sl_unfold_words
  rw [View.canon_unit_zero (S := S512x1024) off2]
  simp only [View.readAt_eq_ld, harg2.read_unread, harg3.read_unread, harg4.read_unread, harg5.read_unread, harg7.read_unread,
    View.ld_unit_zero (S := S512x1024) off2, View.ld_unit_zero (S := S1024) off1]

/-- After the last block likewise, -/
theorem read_last_acc (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32)
    (v : View sig .tc .vmem S512x1024 .f32) (f : v.ty.Contents (Elt F)) :
    v.read (Elt F) (v.writes (Elt F) f (runLast c i arg2 harg2 arg3 harg3 arg4 harg4 arg5 harg5 arg6 harg6 arg7 harg7 hc0 hc1 x0 x1 x2 x3 xs).2.1)
      = (k0_pay2 x0 x2 x1 x3 xs : Vec F S512x1024 .f32) := by
  rw [View.read_writes_eq_canon _ _ _ (cover_last_acc c i arg2 harg2 arg3 harg3 arg4 harg4 arg5 harg5 arg6 harg6 arg7 harg7 hc0 hc1 x0 x1 x2 x3 xs)]
  unfold runLast
  dsimp only
  sl_unfold_words
  rw [View.canon_unit_zero (S := S512x1024) off2]
  simp only [View.readAt_eq_ld, harg2.read_unread, harg3.read_unread, harg4.read_unread, harg5.read_unread, harg7.read_unread,
    View.ld_unit_zero (S := S512x1024) off2, View.ld_unit_zero (S := S1024) off1]

/-- and the output buffer reads as the accumulator just stored: the copy-out loads it back whole. -/
theorem read_last_out (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S512x1024 .f32) (harg6 : arg6.IsWhole) (arg7 : Memref sig .tc .vmem S512x1024 .f32) (harg7 : arg7.IsWhole)
    (hc0 : ¬firstBlock i) (hc1 : lastBlock i) (x0 : Vec F S512x1024 .f32) (x1 : Vec F S512x1024 .f32) (x2 : Vec F S1024 .i32) (x3 : Vec F S1024 .i32) (xs : Vec F S512x1024 .f32)
    (v : View sig .tc .vmem S512x1024 .f32) (f : v.ty.Contents (Elt F)) :
    v.read (Elt F) (v.writes (Elt F) f (runLast c i arg2 harg2 arg3 harg3 arg4 harg4 arg5 harg5 arg6 harg6 arg7 harg7 hc0 hc1 x0 x1 x2 x3 xs).1)
      = (k0_pay2 x0 x2 x1 x3 xs : Vec F S512x1024 .f32) := by
  rw [View.read_writes_eq_canon _ _ _ (cover_last_out c i arg2 harg2 arg3 harg3 arg4 harg4 arg5 harg5 arg6 harg6 arg7 harg7 hc0 hc1 x0 x1 x2 x3 xs)]
  unfold runLast
  dsimp only
  sl_unfold_words
  rw [View.canon_unit_zero (S := S512x1024) off2, View.readCov_unit_zero (S := S512x1024) _ off2]
  simp only [View.readAt_eq_ld, harg2.read_unread, harg3.read_unread, harg4.read_unread, harg5.read_unread, harg7.read_unread,
    View.ld_unit_zero (S := S512x1024) off2, View.ld_unit_zero (S := S1024) off1]

/-! ## The accumulator, point by point -/

/-- Window `w`'s block at grid point `t`, read off its array as the region finds it (`V`: the core's buffer
    contents when the region is entered). -/
def blk (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid point `n`. -/
def acc (V : (c : Dev nD) → (b : Ref sig .tc) → Buf (Elt F) ((c : Thread nD τ).loc b)) (c : Dev nD) : (n : ℕ) → n < cfg0.N → Vec F S512x1024 .f32
  | 0, hn => k0_pay2 (blk V c 0 ⟨0, hn⟩) (blk V c 2 ⟨0, hn⟩) (blk V c 1 ⟨0, hn⟩) (blk V c 3 ⟨0, hn⟩) (k0_pay1 (F := F))
  | n + 1, hn =>
    if (n + 1) % 4 = 0 then
      k0_pay2 (blk V c 0 ⟨n + 1, hn⟩) (blk V c 2 ⟨n + 1, hn⟩) (blk V c 1 ⟨n + 1, hn⟩) (blk V c 3 ⟨n + 1, hn⟩) (k0_pay1 (F := F))
    else
      k0_pay2 (blk V c 0 ⟨n + 1, hn⟩) (blk V c 2 ⟨n + 1, hn⟩) (blk V c 1 ⟨n + 1, hn⟩) (blk V c 3 ⟨n + 1, hn⟩) (acc V c n (Nat.lt_of_succ_lt hn))

/-- At the first reaction block of a batch tile the accumulator restarts from zero. -/
theorem acc_first (V : (c : Dev nD) → (b : Ref sig .tc) → Buf (Elt F) ((c : Thread nD τ).loc b)) (c : Dev nD) (t : Fin cfg0.N) (h : t.val % 4 = 0) :
    acc V c t.val t.isLt = (k0_pay2 (blk V c 0 t) (blk V c 2 t) (blk V c 1 t) (blk V c 3 t) (k0_pay1 (F := F)) : Vec F S512x1024 .f32) := by
  obtain ⟨n, hn⟩ := t
  cases n with
  | zero => rfl
  | succ n => exact if_pos h

/-- At a later reaction block it adds this block's contribution to what the point before left. -/
theorem acc_next (V : (c : Dev nD) → (b : Ref sig .tc) → Buf (Elt F) ((c : Thread nD τ).loc b)) (c : Dev nD) (t : Fin cfg0.N) (h : ¬ t.val % 4 = 0) :
    acc V c t.val t.isLt = (k0_pay2 (blk V c 0 t) (blk V c 2 t) (blk V c 1 t) (blk V c 3 t)
      (acc V c (t.val - 1) (Nat.lt_of_le_of_lt (Nat.sub_le _ _) t.isLt)) : Vec F S512x1024 .f32) := by
  obtain ⟨n, hn⟩ := t
  cases n with
  | zero => exact absurd (Nat.zero_mod _) h
  | succ n => exact if_neg h

/-! ## The invariant -/

/-- Every other scoped buffer of the core that is no staging buffer of this call, each at some contents: the
    body neither reads nor writes them. -/
def otherScoped (c : Dev nD) : sProp 𝕄 :=
  Pipeline.scopedRestBut (Ix := Unit) (Name := ℕ) (U := UR sig nD τ) (Lvl := ℕ) (Val := Elt F) spec0 c [cc0_scratch0]

/-- The class invariant, with the accumulator split off as a memref owned at some contents. -/
theorem PhiA_eq (c : Dev nD) :
    (Pipeline.ΦA spec0 c : sProp 𝕄)
      = iprop(iprop((∃ d, owns (c : Thread nD τ) scr fullShare d) ∗ otherScoped (F := F) c) ∗ (∃ r, prngReg c r)) := by
  unfold Pipeline.ΦA otherScoped
  rw [Pipeline.scopedRest_split_of_list spec0 c [cc0_scratch0] (by decide) (by decide)]
  simp only [bigSepL_singleton, scr, owns_whole]; try rfl

/-- The region invariant before position `n`: before the first point the class invariant (the accumulator at
    anything); afterwards the accumulator at what the point before left, the other scoped buffers at anything and
    the generator register at some state. -/
def PhiS (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scr fullShare (acc V c n hn) ∗ otherScoped (F := F) c) ∗ (∃ r, prngReg c r))

theorem PhiS_zero (V : (c : Dev nD) → (b : Ref sig .tc) → Buf (Elt F) ((c : Thread nD τ).loc b)) (c : Dev nD) (n : ℕ) (h : n ≤ cfg0.N) (hz : n = 0) : PhiS V c n h = Pipeline.ΦA spec0 c := by
  subst hz; rfl

theorem PhiS_succ (V : (c : Dev nD) → (b : Ref sig .tc) → Buf (Elt F) ((c : Thread nD τ).loc b)) (c : Dev nD) (n : ℕ) (hn : n < cfg0.N) :
    PhiS V c (n + 1) hn = iprop(iprop(owns (c : Thread nD τ) scr fullShare (acc V c n hn) ∗ otherScoped (F := F) c) ∗ (∃ r, prngReg c r)) := rfl

theorem PhiS_pos (V : (c : Dev nD) → (b : Ref sig .tc) → Buf (Elt F) ((c : Thread nD τ).loc b)) (c : Dev nD) (n : ℕ) (h : n ≤ cfg0.N) (hz : n ≠ 0) :
    PhiS V c n h = iprop(iprop(owns (c : Thread nD τ) scr fullShare (acc V c (n - 1) (by omega)) ∗ otherScoped (F := F) c) ∗ (∃ r, prngReg c r)) := by
  cases n with
  | zero => exact absurd rfl hz
  | succ n => rfl

/-! ## The proof data -/

/-- The region's proof data. -/
def dat (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => acc V c t.val t.isLt
  Φ t := PhiS V c t.val (Nat.le_of_lt_succ t.isLt)
  q _ := fullShare
  owed _ := 0

theorem dat_A (V : (c : Dev nD) → (b : Ref sig .tc) → Buf (Elt F) ((c : Thread nD τ).loc b)) (c : Dev nD) (w : Fin cfg0.W) : (dat V c).A w = V c (Pipeline.arrRef spec0 w) := by
  dsimp only [dat]
theorem dat_q (V : (c : Dev nD) → (b : Ref sig .tc) → Buf (Elt F) ((c : Thread nD τ).loc b)) (c : Dev nD) (w : Fin cfg0.W) : (dat V c).q w = fullShare := by
  dsimp only [dat]
/-- The data record no waited pairs: the bound on them is the trivial one. -/
theorem dat_recorded (V : (c : Dev nD) → (b : Ref sig .tc) → Buf (Elt F) ((c : Thread nD τ).loc b)) (c : Dev nD) (t : Fin (cfg0.N + 1)) : (dat V c).recorded t = Set.univ := by
  dsimp only [dat]
theorem dat_owed (V : (c : Dev nD) → (b : Ref sig .tc) → Buf (Elt F) ((c : Thread nD τ).loc b)) (c : Dev nD) (t : Fin (cfg0.N + 1)) : (dat V c).owed t = 0 := by
  dsimp only [dat]
/-- The output window's staging buffer after the body: the accumulator. -/
theorem dat_after_out (V : (c : Dev nD) → (b : Ref sig .tc) → Buf (Elt F) ((c : Thread nD τ).loc b)) (c : Dev nD) (t : Fin cfg0.N) : (dat V c).after 4 t = acc V c t.val t.isLt := by
  dsimp only [dat]

/-- An input window's staging buffer after the body: its block, untouched. -/
theorem after_in0 (V : (c : Dev nD) → (b : Ref sig .tc) → Buf (Elt F) ((c : Thread nD τ).loc b)) (c : Dev nD) (t : Fin cfg0.N) : (dat V c).after 0 t = blk V c 0 t := by dsimp only [dat]
theorem after_in1 (V : (c : Dev nD) → (b : Ref sig .tc) → Buf (Elt F) ((c : Thread nD τ).loc b)) (c : Dev nD) (t : Fin cfg0.N) : (dat V c).after 1 t = blk V c 1 t := by dsimp only [dat]
theorem after_in2 (V : (c : Dev nD) → (b : Ref sig .tc) → Buf (Elt F) ((c : Thread nD τ).loc b)) (c : Dev nD) (t : Fin cfg0.N) : (dat V c).after 2 t = blk V c 2 t := by dsimp only [dat]
theorem after_in3 (V : (c : Dev nD) → (b : Ref sig .tc) → Buf (Elt F) ((c : Thread nD τ).loc b)) (c : Dev nD) (t : Fin cfg0.N) : (dat V c).after 3 t = blk V c 3 t := by dsimp only [dat]

/-- The invariant at a point's start, restated at the point's position. -/
theorem PhiS_castSucc (V : (c : Dev nD) → (b : Ref sig .tc) → Buf (Elt F) ((c : Thread nD τ).loc b)) (c : Dev nD) (t : Fin cfg0.N) :
    (dat V c).Φ t.castSucc = PhiS V c t.val (Nat.le_of_lt t.isLt) := by
  dsimp only [dat]; simp only [Fin.coe_castSucc]

/-- Each input window's current staging buffer holds its block at every point, fetched there or not: an
    unfetched window's block index has not moved, and the body left the block in place. -/
theorem before_in0 (V : (c : Dev nD) → (b : Ref sig .tc) → Buf (Elt F) ((c : Thread nD τ).loc b)) (c : Dev nD) (t : Fin cfg0.N) (d) : (dat V c).before 0 t d = blk V c 0 t :=
  ((dat V c).before_in_eq_fetched 0 rfl (fun _ => rfl) (fun _ _ _ => rfl)
    (fun t => by rw [after_in0]; unfold Dat.blockOf blk; rw [dat_A]; try rfl) t d).trans
    (by unfold Dat.fetched Dat.blockOf blk; rw [dat_A]; try rfl)
theorem before_in1 (V : (c : Dev nD) → (b : Ref sig .tc) → Buf (Elt F) ((c : Thread nD τ).loc b)) (c : Dev nD) (t : Fin cfg0.N) (d) : (dat V c).before 1 t d = blk V c 1 t :=
  ((dat V c).before_in_eq_fetched 1 rfl (fun _ => rfl) (fun _ _ _ => rfl)
    (fun t => by rw [after_in1]; unfold Dat.blockOf blk; rw [dat_A]; try rfl) t d).trans
    (by unfold Dat.fetched Dat.blockOf blk; rw [dat_A]; try rfl)
theorem before_in2 (V : (c : Dev nD) → (b : Ref sig .tc) → Buf (Elt F) ((c : Thread nD τ).loc b)) (c : Dev nD) (t : Fin cfg0.N) (d) : (dat V c).before 2 t d = blk V c 2 t :=
  ((dat V c).before_in_eq_fetched 2 rfl (fun _ => rfl) (fun _ _ _ => rfl)
    (fun t => by rw [after_in2]; unfold Dat.blockOf blk; rw [dat_A]; try rfl) t d).trans
    (by unfold Dat.fetched Dat.blockOf blk; rw [dat_A]; try rfl)
theorem before_in3 (V : (c : Dev nD) → (b : Ref sig .tc) → Buf (Elt F) ((c : Thread nD τ).loc b)) (c : Dev nD) (t : Fin cfg0.N) (d) : (dat V c).before 3 t d = blk V c 3 t :=
  ((dat V c).before_in_eq_fetched 3 rfl (fun _ => rfl) (fun _ _ _ => rfl)
    (fun t => by rw [after_in3]; unfold Dat.blockOf blk; rw [dat_A]; try rfl) t d).trans
    (by unfold Dat.fetched Dat.blockOf blk; rw [dat_A]; try rfl)

/-- An input window is never idle: the body leaves its buffer at the block. -/
theorem leaves_in0 (V : (c : Dev nD) → (b : Ref sig .tc) → Buf (Elt F) ((c : Thread nD τ).loc b)) (c : Dev nD) (t : Fin cfg0.N) :
    (dat V c).leavesExact 0 t = owns (c : Thread nD τ) (stg0 t) fullShare (blk V c 0 t) := by
  rw [← after_in0]
theorem leaves_in1 (V : (c : Dev nD) → (b : Ref sig .tc) → Buf (Elt F) ((c : Thread nD τ).loc b)) (c : Dev nD) (t : Fin cfg0.N) :
    (dat V c).leavesExact 1 t = owns (c : Thread nD τ) (stg1 t) fullShare (blk V c 1 t) := by
  rw [← after_in1]
theorem leaves_in2 (V : (c : Dev nD) → (b : Ref sig .tc) → Buf (Elt F) ((c : Thread nD τ).loc b)) (c : Dev nD) (t : Fin cfg0.N) :
    (dat V c).leavesExact 2 t = owns (c : Thread nD τ) (stg2 t) fullShare (blk V c 2 t) := by
  rw [← after_in2]
theorem leaves_in3 (V : (c : Dev nD) → (b : Ref sig .tc) → Buf (Elt F) ((c : Thread nD τ).loc b)) (c : Dev nD) (t : Fin cfg0.N) :
    (dat V c).leavesExact 3 t = owns (c : Thread nD τ) (stg3 t) fullShare (blk V c 3 t) := by
  rw [← after_in3]

/-! ## The body obligation, at a generic point -/

/-- What the body is called with at point `t` (the library's precondition, the windows one by one), -/
def bodyPre (V : (c : Dev nD) → (b : Ref sig .tc) → Buf (Elt F) ((c : Thread nD τ).loc b)) (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d))
    ∗ (∃ d, owns (c : Thread nD τ) (stg4 t) fullShare ((dat V c).before 4 t d)))

/-- and what it returns. -/
def bodyPost (V : (c : Dev nD) → (b : Ref sig .tc) → Buf (Elt F) ((c : Thread nD τ).loc b)) (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point.  The inputs' memrefs hold their blocks; the position modulo 4 says which of the three
    runs applies; the invariant hands the body the accumulator at what the point before left (at anything at a
    first block) and takes it back at this point's value; the output window is handed back untouched except at a
    last block, where it comes back holding the accumulator; the core owes nothing throughout. -/
theorem sound_body (V : (c : Dev nD) → (b : Ref sig .tc) → Buf (Elt F) ((c : Thread nD τ).loc b)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3]
  have hN : t.val < 32 := lt_of_lt_of_eq t.isLt (show cfg0.N = 32 from N_0)
  by_cases h0 : t.val % 4 = 0
  · have hl : ¬lastBlock (grid0.coords t) := fun h => by have := (last_iff t).mp h; omega
    rw [Dat.leavesExact_idle (dat V c) 4 t (out_idle t hl) (out_unflushed t hl)]
    rw [acc_first V c t h0]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((first_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact read_first c _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((first_iff t).mpr h0) hl (blk V c 0 t) (blk V c 1 t) (blk V c 2 t) (blk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact read_first c _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4
  · have hf : ¬firstBlock (grid0.coords t) := fun h => h0 ((first_iff t).mp h)
    have hz : t.val ≠ 0 := fun h => h0 (by rw [h])
    rw [acc_next V c t h0]
    rw [PhiS_castSucc V c t, PhiS_pos V c _ _ hz]
    by_cases h1 : t.val % 4 = 3
    · have hl : lastBlock (grid0.coords t) := (last_iff t).mpr h1
      rw [show (dat V c).leavesExact 4 t = owns (c : Thread nD τ) (stg4 t) fullShare ((dat V c).after 4 t) from by
        unfold Dat.leavesExact; rw [out_live t hl], dat_after_out, acc_next V c t h0]
      iintro ⟨⟨⟨HS, Hrest⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hl (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HS Hrest Hg]
      · isplitl [HS Hrest]
        · isplitl [HS]
          · unfold owns; iexists _; isplitr
            swap; · iexact HS
            ipureintro; exact read_last_acc c _ _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact read_last_out c _ _ _ _ _ _ _ _ _ _ _ _ _ _ _ _ _ _ _ _ _ _
    · have hl : ¬lastBlock (grid0.coords t) := fun h => h1 ((last_iff t).mp h)
      rw [Dat.leavesExact_idle (dat V c) 4 t (out_idle t hl) (out_unflushed t hl)]
      iintro ⟨⟨⟨HS, Hrest⟩, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ hf hl (blk V c 0 t) (blk V c 1 t) (blk V c 2 t) (blk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact read_middle c _ _ _ _ _ _ _ _ _ _ _ _ _ _ _ _ _ _ _ _ _ _
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation (V : (c : Dev nD) → (b : Ref sig .tc) → Buf (Elt F) ((c : Thread nD τ).loc b)) (c : Dev nD) : BodyObligation (dat (F := F) V c) (defs₀ (F := F)) Variants.none () Set.univ := fun t => by
  rw [bigSep_W0, bigSep_W0]
  exact sound_body V c t

theorem hin (V : (c : Dev nD) → (b : Ref sig .tc) → Buf (Elt F) ((c : Thread nD τ).loc b)) (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the accumulator's named
    contents are forgotten. -/
theorem Phi_out (V : (c : Dev nD) → (b : Ref sig .tc) → Buf (Elt F) ((c : Thread nD τ).loc b)) (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, Hrest⟩, Hg⟩
  isplitl [HS Hrest]
  · isplitl [HS]
    · iexists _; iexact HS
    iexact Hrest
  iexact Hg

theorem hout (V : (c : Dev nD) → (b : Ref sig .tc) → Buf (Elt F) ((c : Thread nD τ).loc b)) (c : Dev nD) : (dat V c).Φ (Fin.last cfg0.N) ⊢ (Pipeline.ΦA spec0 c : sProp 𝕄) :=
  Phi_out V c _ (by rw [Fin.val_last]; have : cfg0.N = 32 := N_0; omega)

end Cert.Kernel.Term1

end
-- ==== Proof.BitsTerm2.lean ====
/-
  The second-order kernel's region: what the accumulator holds after each grid point, and the region's proof data.
-/
import proofs.«430890_j60138132078971_1_alg».proof.Proof.Gen.Kernel.Launch
import proofs.«430890_j60138132078971_1_alg».proof.Proof.Gen.Kernel.Skeleton
import proofs.«430890_j60138132078971_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Term2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which reaction block of its batch tile a grid point is -/

/-- The kernel's test "this is the first reaction block of the batch tile", from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 16): decided over the grid. -/
theorem isFirst_iff : ∀ t : Fin cfg1.N, isFirst (grid1.coords t) ↔ t.val % 16 = 0 :=
  (by decide +kernel : ∀ t : Fin grid1.N, isFirst (grid1.coords t) ↔ t.val % 16 = 0)

/-- The kernel's test "this is the last reaction block of the batch tile". -/
abbrev isLast (i : grid1.Coords) : Prop := k1_cond2 i = 1#1
/-- It holds at the points ≡ 15 (mod 16): decided over the grid. -/
theorem isLast_iff : ∀ t : Fin cfg1.N, isLast (grid1.coords t) ↔ t.val % 16 = 15 :=
  (by decide +kernel : ∀ t : Fin grid1.N, isLast (grid1.coords t) ↔ t.val % 16 = 15)

/-! ## Where the output window is idle -/

/-- Off the last reaction block the output window is idle: nothing is stored into it, -/
theorem out_idle : ∀ t : Fin cfg1.N, ¬isLast (grid1.coords t) → cfg1.idle 6 (grid1.coords t) = true := by decide +kernel
/-- and its block is not written back. -/
theorem out_noFlush : ∀ t : Fin cfg1.N, ¬isLast (grid1.coords t) → (cfg1.win 6).flush t = false := by decide +kernel
/-- At the last reaction block it is live. -/
theorem out_live : ∀ t : Fin cfg1.N, isLast (grid1.coords t) → cfg1.idle 6 (grid1.coords t) = false := by decide +kernel

/-! ## The memrefs the body is called with -/

/-- Each window's current staging memref at point `t`, and its wholeness. -/
abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1024 .f32 := win1_6.stage (cfg1.slots t 6)
abbrev hs6 (t : Fin cfg1.N) : (ms6 t).IsWhole := hstage1_6 ((cfg1.slots t 6).cast nbuf1_6)
/-- The accumulator: a whole scoped buffer of the kernel's own, carried from point to point. -/
abbrev accM : Memref sig .tc .vmem S512x1024 .f32 := Memref.whole cc1_scratch0
/-- The same as a view, through which its contents are stated. -/
abbrev accV : View sig .tc .vmem S512x1024 .f32 := accM.view
/-- One staging buffer of the output window, through which its contents are stated. -/
abbrev outV : View sig .tc .vmem S512x1024 .f32 := (Memref.whole cc1_stg6_0 : Memref sig .tc .vmem S512x1024 .f32).view

/-! ## The region's invariant, opened -/

/-- The core's scoped buffers this region never touches (the first-order region's staging buffers and its
    accumulator), each whole at some contents. -/
def restScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant is: those buffers, the accumulator owned at some contents, and the generator register at
    some state (separating conjunction re-associated; a whole buffer owned is its points-to). -/
theorem PhiA_eq (c : Dev nD) :
    (Pipeline.ΦA spec1 c : sProp 𝕄)
      = iprop(iprop(restScoped (F := F) c ∗ (∃ d, owns (c : Thread nD τ) accM fullShare d)) ∗ (∃ r, prngReg c r)) := by
  unfold Pipeline.ΦA; rw [scopedRest1_eq]; unfold restScoped; simp only [accM, owns_whole]
  refine Idealize.SL.BI.Entails.antisymm ?_ ?_
  · show (_ : sProp 𝕄) ⊢ _
    iintro ⟨⟨H1, H2, H3, H4, H5, H6, H7, H8, H9, H10, H11, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · iexact HS
    · iexact Hg
  · show (_ : sProp 𝕄) ⊢ _
    iintro ⟨⟨⟨H1, H2, H3, H4, H5, H6, H7, H8, H9, H10, H11⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact HS
    · iexact Hg

/-! ## The body on whole memrefs, case by case

Each case states: on whole memrefs — the six inputs at given contents, the output's and the accumulator's as the
case needs them — the body runs to a continuation that holds the inputs as they were and each buffer the case
stores into with the case's stores written, as a list of pieces (last first) that the run itself finds. -/

set_option maxHeartbeats 1000000 in
/-- FIRST reaction block (not the last): the accumulator may hold anything; the output's buffer is handed back
    untouched. -/
noncomputable def runFirst (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) :
    { LS : List (View.Piece (Elt F) S512x1024 .f32) //
      ∀ (xi : Vec F S512x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ (∃ f, a9.view.loc (c : Thread nD τ) ↦[a9.view.set]{fullShare} a9.view.writes (Elt F) f LS)) -∗ K ⟨⟩))
          ⊢ wp frame (wpE (defs₀ (F := F)) Variants.none c none) E (cc1__term2_kernel i a2 h2 a3 h3 a4 h4 a5 h5 a6 h6 a7 h7 a8 h8 a9 h9) K } := by
  refine ⟨?_, fun xi E K => ?run⟩
  case run =>
    simp only [cc1__term2_kernel_eq_skeleton]; unfold cc1__term2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

set_option maxHeartbeats 1000000 in
/-- A MIDDLE reaction block: the accumulator holds what the point before left; the output's buffer is handed back
    untouched. -/
noncomputable def runMiddle (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) :
    { LS : List (View.Piece (Elt F) S512x1024 .f32) //
      ∀ (xi : Vec F S512x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xi ∗ (∃ f, a9.view.loc (c : Thread nD τ) ↦[a9.view.set]{fullShare} a9.view.writes (Elt F) f LS)) -∗ K ⟨⟩))
          ⊢ wp frame (wpE (defs₀ (F := F)) Variants.none c none) E (cc1__term2_kernel i a2 h2 a3 h3 a4 h4 a5 h5 a6 h6 a7 h7 a8 h8 a9 h9) K } := by
  refine ⟨?_, fun xi E K => ?run⟩
  case run =>
    simp only [cc1__term2_kernel_eq_skeleton]; unfold cc1__term2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    iexists _; iexact HS

set_option maxHeartbeats 1000000 in
/-- The LAST reaction block (not the first): the accumulator holds what the point before left; the output's buffer
    may hold anything and is stored into. -/
noncomputable def runLast (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) :
    Σ' (LO : List (View.Piece (Elt F) S512x1024 .f32)), { LS : List (View.Piece (Elt F) S512x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc1__term2_kernel i a2 h2 a3 h3 a4 h4 a5 h5 a6 h6 a7 h7 a8 h8 a9 h9) K } := by
  refine ⟨?_, ?_, fun E K => ?run⟩
  case run =>
    simp only [cc1__term2_kernel_eq_skeleton]; unfold cc1__term2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

/-! ## What each case leaves, as values -/

theorem hz2 : (![0, 0] : Fin 2 → Nat) = fun _ => 0 := funext fun a => by fin_cases a <;> rfl
theorem hz1 : (![0] : Fin 1 → Nat) = fun _ => 0 := funext fun a => by fin_cases a <;> rfl

/-- The first case's stores into the accumulator cover it (each is the whole buffer). -/
theorem coverFirst (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (y : S512x1024.Idx) :
    ∃ pc ∈ (runFirst c i a2 h2 a3 h3 a4 h4 a5 h5 a6 h6 a7 h7 a8 h8 a9 h9 hF hL x0 x1 x2 x3 x4 x5).1, y ∈ pc.1.set :=
  View.cover_of_tiledL (runFirst c i a2 h2 a3 h3 a4 h4 a5 h5 a6 h6 a7 h7 a8 h8 a9 h9 hF hL x0 x1 x2 x3 x4 x5).1 S512x1024.size (by sl_kernel_rfl) y

/-- At a first reaction block the accumulator ends holding the block's contribution added to the first-order
    block: the restart is one whole-buffer store, read back whole, and the sum is stored whole over it. -/
theorem first_leaves (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32)
    (v : View sig .tc .vmem S512x1024 .f32) (f : v.ty.Contents (Elt F)) :
    v.read (Elt F) (v.writes (Elt F) f (runFirst c i a2 h2 a3 h3 a4 h4 a5 h5 a6 h6 a7 h7 a8 h8 a9 h9 hF hL x0 x1 x2 x3 x4 x5).1)
      = (k1_pay2 x0 x2 x3 x1 x4 (k1_pay1 x5) : Vec F S512x1024 .f32) := by
  rw [View.read_writes_eq_canon _ _ _ (coverFirst c i a2 h2 a3 h3 a4 h4 a5 h5 a6 h6 a7 h7 a8 h8 a9 h9 hF hL x0 x1 x2 x3 x4 x5)]
  unfold runFirst
  dsimp only
  sl_unfold_words
  rw [View.canon_cons_unit_zero (S := S512x1024) hz2, View.readCov_unit_zero (S := S512x1024) _ hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-- A middle case's one store into the accumulator covers it. -/
theorem coverMiddle (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) (y : S512x1024.Idx) :
    ∃ pc ∈ (runMiddle c i a2 h2 a3 h3 a4 h4 a5 h5 a6 h6 a7 h7 a8 h8 a9 h9 hF hL x0 x1 x2 x3 x4 x5 xs).1, y ∈ pc.1.set :=
  View.cover_of_tiledL (runMiddle c i a2 h2 a3 h3 a4 h4 a5 h5 a6 h6 a7 h7 a8 h8 a9 h9 hF hL x0 x1 x2 x3 x4 x5 xs).1 S512x1024.size (by sl_kernel_rfl) y

/-- At a middle reaction block the accumulator ends holding the block's contribution added to what it held. -/
theorem middle_leaves (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : ¬isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32)
    (v : View sig .tc .vmem S512x1024 .f32) (f : v.ty.Contents (Elt F)) :
    v.read (Elt F) (v.writes (Elt F) f (runMiddle c i a2 h2 a3 h3 a4 h4 a5 h5 a6 h6 a7 h7 a8 h8 a9 h9 hF hL x0 x1 x2 x3 x4 x5 xs).1)
      = (k1_pay2 x0 x2 x3 x1 x4 xs : Vec F S512x1024 .f32) := by
  rw [View.read_writes_eq_canon _ _ _ (coverMiddle c i a2 h2 a3 h3 a4 h4 a5 h5 a6 h6 a7 h7 a8 h8 a9 h9 hF hL x0 x1 x2 x3 x4 x5 xs)]
  unfold runMiddle
  dsimp only
  sl_unfold_words
  rw [View.canon_unit_zero hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-- The last case's one store into the accumulator covers it, -/
theorem coverLastAcc (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) (y : S512x1024.Idx) :
    ∃ pc ∈ (runLast c i a2 h2 a3 h3 a4 h4 a5 h5 a6 h6 a7 h7 a8 h8 a9 h9 hF hL x0 x1 x2 x3 x4 x5 xs).2.1, y ∈ pc.1.set :=
  View.cover_of_tiledL (runLast c i a2 h2 a3 h3 a4 h4 a5 h5 a6 h6 a7 h7 a8 h8 a9 h9 hF hL x0 x1 x2 x3 x4 x5 xs).2.1 S512x1024.size (by sl_kernel_rfl) y

/-- and its one store into the output's buffer covers that. -/
theorem coverLastOut (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32) (y : S512x1024.Idx) :
    ∃ pc ∈ (runLast c i a2 h2 a3 h3 a4 h4 a5 h5 a6 h6 a7 h7 a8 h8 a9 h9 hF hL x0 x1 x2 x3 x4 x5 xs).1, y ∈ pc.1.set :=
  View.cover_of_tiledL (runLast c i a2 h2 a3 h3 a4 h4 a5 h5 a6 h6 a7 h7 a8 h8 a9 h9 hF hL x0 x1 x2 x3 x4 x5 xs).1 S512x1024.size (by sl_kernel_rfl) y

/-- At the last reaction block the accumulator ends holding the block's contribution added to what it held, -/
theorem last_leaves_acc (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32)
    (v : View sig .tc .vmem S512x1024 .f32) (f : v.ty.Contents (Elt F)) :
    v.read (Elt F) (v.writes (Elt F) f (runLast c i a2 h2 a3 h3 a4 h4 a5 h5 a6 h6 a7 h7 a8 h8 a9 h9 hF hL x0 x1 x2 x3 x4 x5 xs).2.1)
      = (k1_pay2 x0 x2 x3 x1 x4 xs : Vec F S512x1024 .f32) := by
  rw [View.read_writes_eq_canon _ _ _ (coverLastAcc c i a2 h2 a3 h3 a4 h4 a5 h5 a6 h6 a7 h7 a8 h8 a9 h9 hF hL x0 x1 x2 x3 x4 x5 xs)]
  unfold runLast
  dsimp only
  sl_unfold_words
  rw [View.canon_unit_zero hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-- and the output's buffer the same: the accumulator read back whole and stored whole. -/
theorem last_leaves_out (c : Dev nD) (i : grid1.Coords) (a2 : Memref sig .tc .vmem S512x1024 .f32) (h2 : a2.IsWhole) (a3 : Memref sig .tc .vmem S512x1024 .f32) (h3 : a3.IsWhole)
    (a4 : Memref sig .tc .vmem S1024 .i32) (h4 : a4.IsWhole) (a5 : Memref sig .tc .vmem S1024 .i32) (h5 : a5.IsWhole)
    (a6 : Memref sig .tc .vmem S1024 .i32) (h6 : a6.IsWhole) (a7 : Memref sig .tc .vmem S512x1024 .f32) (h7 : a7.IsWhole)
    (a8 : Memref sig .tc .vmem S512x1024 .f32) (h8 : a8.IsWhole) (a9 : Memref sig .tc .vmem S512x1024 .f32) (h9 : a9.IsWhole)
    (hF : ¬isFirst i) (hL : isLast i) (x0 : Vec F S512x1024 .f32) (x1 : Vec F S512x1024 .f32) (x2 : Vec F S1024 .i32) (x3 : Vec F S1024 .i32) (x4 : Vec F S1024 .i32) (x5 : Vec F S512x1024 .f32) (xs : Vec F S512x1024 .f32)
    (v : View sig .tc .vmem S512x1024 .f32) (f : v.ty.Contents (Elt F)) :
    v.read (Elt F) (v.writes (Elt F) f (runLast c i a2 h2 a3 h3 a4 h4 a5 h5 a6 h6 a7 h7 a8 h8 a9 h9 hF hL x0 x1 x2 x3 x4 x5 xs).1)
      = (k1_pay2 x0 x2 x3 x1 x4 xs : Vec F S512x1024 .f32) := by
  rw [View.read_writes_eq_canon _ _ _ (coverLastOut c i a2 h2 a3 h3 a4 h4 a5 h5 a6 h6 a7 h7 a8 h8 a9 h9 hF hL x0 x1 x2 x3 x4 x5 xs)]
  unfold runLast
  dsimp only
  sl_unfold_words
  rw [View.canon_unit_zero hz2]
  simp only [View.readAt_eq_ld, h2.read_unread, h3.read_unread, h4.read_unread, h5.read_unread, h6.read_unread, h7.read_unread, h9.read_unread, View.ld_unit_zero (S := S512x1024) hz2, View.ld_unit_zero (S := S1024) hz1, View.readCov_unit_zero (S := S512x1024) _ hz2]

/-! ## The accumulator, point by point -/

/-- Window `w`'s block at grid point `t`, read off its array as the region finds it (`V`: the core's buffer
    contents when the region is entered). -/
def blk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid point `n`: at the first reaction block of a batch tile, the block's contribution
    added to the first-order block; at a later one, added to what the point before left. -/
def acc (V : (c : Dev nD) → (b : Ref sig .tc) → Buf (Elt F) ((c : Thread nD τ).loc b)) (c : Dev nD) : (n : ℕ) → n < cfg1.N → Vec F S512x1024 .f32
  | 0, hn => k1_pay2 (blk V c 0 ⟨0, hn⟩) (blk V c 2 ⟨0, hn⟩) (blk V c 3 ⟨0, hn⟩) (blk V c 1 ⟨0, hn⟩) (blk V c 4 ⟨0, hn⟩) (k1_pay1 (blk V c 5 ⟨0, hn⟩))
  | n + 1, hn =>
    if h : (n + 1) % 16 = 0 then
      k1_pay2 (blk V c 0 ⟨n + 1, hn⟩) (blk V c 2 ⟨n + 1, hn⟩) (blk V c 3 ⟨n + 1, hn⟩) (blk V c 1 ⟨n + 1, hn⟩) (blk V c 4 ⟨n + 1, hn⟩) (k1_pay1 (blk V c 5 ⟨n + 1, hn⟩))
    else
      k1_pay2 (blk V c 0 ⟨n + 1, hn⟩) (blk V c 2 ⟨n + 1, hn⟩) (blk V c 3 ⟨n + 1, hn⟩) (blk V c 1 ⟨n + 1, hn⟩) (blk V c 4 ⟨n + 1, hn⟩) (acc V c n (Nat.lt_of_succ_lt hn))

/-- At the first reaction block of a batch tile the accumulator restarts from the first-order result's block. -/
theorem acc_first (V : (c : Dev nD) → (b : Ref sig .tc) → Buf (Elt F) ((c : Thread nD τ).loc b)) (c : Dev nD) (t : Fin cfg1.N) (h : t.val % 16 = 0) :
    acc V c t.val t.isLt = (k1_pay2 (blk V c 0 t) (blk V c 2 t) (blk V c 3 t) (blk V c 1 t) (blk V c 4 t) (k1_pay1 (blk V c 5 t)) : Vec F S512x1024 .f32) := by
  obtain ⟨n, hn⟩ := t
  cases n with
  | zero => rfl
  | succ n => exact dif_pos h

/-- At a later reaction block it adds this block's contribution to what the point before left. -/
theorem acc_next (V : (c : Dev nD) → (b : Ref sig .tc) → Buf (Elt F) ((c : Thread nD τ).loc b)) (c : Dev nD) (t : Fin cfg1.N) (h : ¬ t.val % 16 = 0) :
    acc V c t.val t.isLt = (k1_pay2 (blk V c 0 t) (blk V c 2 t) (blk V c 3 t) (blk V c 1 t) (blk V c 4 t)
      (acc V c (t.val - 1) (Nat.lt_of_le_of_lt (Nat.sub_le _ _) t.isLt)) : Vec F S512x1024 .f32) := by
  obtain ⟨n, hn⟩ := t
  cases n with
  | zero => exact absurd (Nat.zero_mod _) h
  | succ n => exact (dif_neg h).trans rfl

/-! ## The invariant -/

/-- The region's invariant before position `n`: before the first point the class invariant (the accumulator at
    anything); afterwards the untouched scoped buffers, the accumulator owned at what the point before left,
    and the generator register at some state. -/
def PhiS (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(restScoped (F := F) c ∗ owns (c : Thread nD τ) accM fullShare (acc V c n hn)) ∗ (∃ r, prngReg c r))

theorem PhiS_zero (V : (c : Dev nD) → (b : Ref sig .tc) → Buf (Elt F) ((c : Thread nD τ).loc b)) (c : Dev nD) (n : ℕ) (h : n ≤ cfg1.N) (hz : n = 0) : PhiS V c n h = Pipeline.ΦA spec1 c := by
  subst hz; rfl

theorem PhiS_succ (V : (c : Dev nD) → (b : Ref sig .tc) → Buf (Elt F) ((c : Thread nD τ).loc b)) (c : Dev nD) (n : ℕ) (hn : n < cfg1.N) :
    PhiS V c (n + 1) hn = iprop(iprop(restScoped (F := F) c ∗ owns (c : Thread nD τ) accM fullShare (acc V c n hn)) ∗ (∃ r, prngReg c r)) := rfl

theorem PhiS_pos (V : (c : Dev nD) → (b : Ref sig .tc) → Buf (Elt F) ((c : Thread nD τ).loc b)) (c : Dev nD) (n : ℕ) (h : n ≤ cfg1.N) (hz : n ≠ 0) :
    PhiS V c n h = iprop(iprop(restScoped (F := F) c ∗ owns (c : Thread nD τ) accM fullShare (acc V c (n - 1) (by omega))) ∗ (∃ r, prngReg c r)) := by
  cases n with
  | zero => exact absurd rfl hz
  | succ n => rfl

/-! ## The proof data -/

/-- The region's proof data: the arrays as the region finds them; after the body each input window's buffer at its
    block and the output window's at the accumulator; the invariant above; full shares; nothing owed. -/
def dat (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => acc V c t.val t.isLt
  Φ t := PhiS V c t.val (Nat.le_of_lt_succ t.isLt)
  q _ := fullShare
  owed _ := 0

theorem dat_A (V : (c : Dev nD) → (b : Ref sig .tc) → Buf (Elt F) ((c : Thread nD τ).loc b)) (c : Dev nD) (w : Fin cfg1.W) : (dat V c).A w = V c (Pipeline.arrRef spec1 w) := by
  dsimp only [dat]
theorem dat_q (V : (c : Dev nD) → (b : Ref sig .tc) → Buf (Elt F) ((c : Thread nD τ).loc b)) (c : Dev nD) (w : Fin cfg1.W) : (dat V c).q w = fullShare := by
  dsimp only [dat]
/-- The data record no waited pairs: the bound on them is the trivial one. -/
theorem dat_recorded (V : (c : Dev nD) → (b : Ref sig .tc) → Buf (Elt F) ((c : Thread nD τ).loc b)) (c : Dev nD) (t : Fin (cfg1.N + 1)) : (dat V c).recorded t = Set.univ := by
  dsimp only [dat]
theorem dat_owed (V : (c : Dev nD) → (b : Ref sig .tc) → Buf (Elt F) ((c : Thread nD τ).loc b)) (c : Dev nD) (t : Fin (cfg1.N + 1)) : (dat V c).owed t = 0 := by
  dsimp only [dat]
/-- The output window's staging buffer after the body: the accumulator. -/
theorem dat_after_out (V : (c : Dev nD) → (b : Ref sig .tc) → Buf (Elt F) ((c : Thread nD τ).loc b)) (c : Dev nD) (t : Fin cfg1.N) : (dat V c).after 6 t = acc V c t.val t.isLt := by
  dsimp only [dat]

theorem after0 (V : (c : Dev nD) → (b : Ref sig .tc) → Buf (Elt F) ((c : Thread nD τ).loc b)) (c : Dev nD) (t : Fin cfg1.N) : (dat V c).after 0 t = blk V c 0 t := by dsimp only [dat]
theorem after1 (V : (c : Dev nD) → (b : Ref sig .tc) → Buf (Elt F) ((c : Thread nD τ).loc b)) (c : Dev nD) (t : Fin cfg1.N) : (dat V c).after 1 t = blk V c 1 t := by dsimp only [dat]
theorem after2 (V : (c : Dev nD) → (b : Ref sig .tc) → Buf (Elt F) ((c : Thread nD τ).loc b)) (c : Dev nD) (t : Fin cfg1.N) : (dat V c).after 2 t = blk V c 2 t := by dsimp only [dat]
theorem after3 (V : (c : Dev nD) → (b : Ref sig .tc) → Buf (Elt F) ((c : Thread nD τ).loc b)) (c : Dev nD) (t : Fin cfg1.N) : (dat V c).after 3 t = blk V c 3 t := by dsimp only [dat]
theorem after4 (V : (c : Dev nD) → (b : Ref sig .tc) → Buf (Elt F) ((c : Thread nD τ).loc b)) (c : Dev nD) (t : Fin cfg1.N) : (dat V c).after 4 t = blk V c 4 t := by dsimp only [dat]
theorem after5 (V : (c : Dev nD) → (b : Ref sig .tc) → Buf (Elt F) ((c : Thread nD τ).loc b)) (c : Dev nD) (t : Fin cfg1.N) : (dat V c).after 5 t = blk V c 5 t := by dsimp only [dat]

/-- The invariant at a point's start, restated at the point's position. -/
theorem Phi_castSucc (V : (c : Dev nD) → (b : Ref sig .tc) → Buf (Elt F) ((c : Thread nD τ).loc b)) (c : Dev nD) (t : Fin cfg1.N) :
    (dat V c).Φ t.castSucc = PhiS V c t.val (Nat.le_of_lt t.isLt) := by
  dsimp only [dat]; simp only [Fin.coe_castSucc]

/-- Each input window's current staging buffer holds its block at every point, fetched there or not: unfetched,
    its block index has not moved, and the body leaves the block in place. -/
theorem before0 (V : (c : Dev nD) → (b : Ref sig .tc) → Buf (Elt F) ((c : Thread nD τ).loc b)) (c : Dev nD) (t : Fin cfg1.N) (d) : (dat V c).before 0 t d = blk V c 0 t :=
  ((dat V c).before_in_eq_fetched 0 rfl (fun _ => rfl) (fun _ _ _ => rfl) (fun t => by rw [after0]; unfold Dat.blockOf blk; rw [dat_A]; try rfl) t d).trans
    (by unfold Dat.fetched Dat.blockOf blk; rw [dat_A]; try rfl)
theorem before1 (V : (c : Dev nD) → (b : Ref sig .tc) → Buf (Elt F) ((c : Thread nD τ).loc b)) (c : Dev nD) (t : Fin cfg1.N) (d) : (dat V c).before 1 t d = blk V c 1 t :=
  ((dat V c).before_in_eq_fetched 1 rfl (fun _ => rfl) (fun _ _ _ => rfl) (fun t => by rw [after1]; unfold Dat.blockOf blk; rw [dat_A]; try rfl) t d).trans
    (by unfold Dat.fetched Dat.blockOf blk; rw [dat_A]; try rfl)
theorem before2 (V : (c : Dev nD) → (b : Ref sig .tc) → Buf (Elt F) ((c : Thread nD τ).loc b)) (c : Dev nD) (t : Fin cfg1.N) (d) : (dat V c).before 2 t d = blk V c 2 t :=
  ((dat V c).before_in_eq_fetched 2 rfl (fun _ => rfl) (fun _ _ _ => rfl) (fun t => by rw [after2]; unfold Dat.blockOf blk; rw [dat_A]; try rfl) t d).trans
    (by unfold Dat.fetched Dat.blockOf blk; rw [dat_A]; try rfl)
theorem before3 (V : (c : Dev nD) → (b : Ref sig .tc) → Buf (Elt F) ((c : Thread nD τ).loc b)) (c : Dev nD) (t : Fin cfg1.N) (d) : (dat V c).before 3 t d = blk V c 3 t :=
  ((dat V c).before_in_eq_fetched 3 rfl (fun _ => rfl) (fun _ _ _ => rfl) (fun t => by rw [after3]; unfold Dat.blockOf blk; rw [dat_A]; try rfl) t d).trans
    (by unfold Dat.fetched Dat.blockOf blk; rw [dat_A]; try rfl)
theorem before4 (V : (c : Dev nD) → (b : Ref sig .tc) → Buf (Elt F) ((c : Thread nD τ).loc b)) (c : Dev nD) (t : Fin cfg1.N) (d) : (dat V c).before 4 t d = blk V c 4 t :=
  ((dat V c).before_in_eq_fetched 4 rfl (fun _ => rfl) (fun _ _ _ => rfl) (fun t => by rw [after4]; unfold Dat.blockOf blk; rw [dat_A]; try rfl) t d).trans
    (by unfold Dat.fetched Dat.blockOf blk; rw [dat_A]; try rfl)
theorem before5 (V : (c : Dev nD) → (b : Ref sig .tc) → Buf (Elt F) ((c : Thread nD τ).loc b)) (c : Dev nD) (t : Fin cfg1.N) (d) : (dat V c).before 5 t d = blk V c 5 t :=
  ((dat V c).before_in_eq_fetched 5 rfl (fun _ => rfl) (fun _ _ _ => rfl) (fun t => by rw [after5]; unfold Dat.blockOf blk; rw [dat_A]; try rfl) t d).trans
    (by unfold Dat.fetched Dat.blockOf blk; rw [dat_A]; try rfl)

/-- The inputs are never idle: the body leaves each at its block. -/
theorem leaves0 (V : (c : Dev nD) → (b : Ref sig .tc) → Buf (Elt F) ((c : Thread nD τ).loc b)) (c : Dev nD) (t : Fin cfg1.N) : (dat V c).leavesExact 0 t = owns (c : Thread nD τ) (ms0 t) fullShare (blk V c 0 t) := by
  unfold Dat.leavesExact; rw [show cfg1.idle 0 (grid1.coords t) = false from rfl, after0]
theorem leaves1 (V : (c : Dev nD) → (b : Ref sig .tc) → Buf (Elt F) ((c : Thread nD τ).loc b)) (c : Dev nD) (t : Fin cfg1.N) : (dat V c).leavesExact 1 t = owns (c : Thread nD τ) (ms1 t) fullShare (blk V c 1 t) := by
  unfold Dat.leavesExact; rw [show cfg1.idle 1 (grid1.coords t) = false from rfl, after1]
theorem leaves2 (V : (c : Dev nD) → (b : Ref sig .tc) → Buf (Elt F) ((c : Thread nD τ).loc b)) (c : Dev nD) (t : Fin cfg1.N) : (dat V c).leavesExact 2 t = owns (c : Thread nD τ) (ms2 t) fullShare (blk V c 2 t) := by
  unfold Dat.leavesExact; rw [show cfg1.idle 2 (grid1.coords t) = false from rfl, after2]
theorem leaves3 (V : (c : Dev nD) → (b : Ref sig .tc) → Buf (Elt F) ((c : Thread nD τ).loc b)) (c : Dev nD) (t : Fin cfg1.N) : (dat V c).leavesExact 3 t = owns (c : Thread nD τ) (ms3 t) fullShare (blk V c 3 t) := by
  unfold Dat.leavesExact; rw [show cfg1.idle 3 (grid1.coords t) = false from rfl, after3]
theorem leaves4 (V : (c : Dev nD) → (b : Ref sig .tc) → Buf (Elt F) ((c : Thread nD τ).loc b)) (c : Dev nD) (t : Fin cfg1.N) : (dat V c).leavesExact 4 t = owns (c : Thread nD τ) (ms4 t) fullShare (blk V c 4 t) := by
  unfold Dat.leavesExact; rw [show cfg1.idle 4 (grid1.coords t) = false from rfl, after4]
theorem leaves5 (V : (c : Dev nD) → (b : Ref sig .tc) → Buf (Elt F) ((c : Thread nD τ).loc b)) (c : Dev nD) (t : Fin cfg1.N) : (dat V c).leavesExact 5 t = owns (c : Thread nD τ) (ms5 t) fullShare (blk V c 5 t) := by
  unfold Dat.leavesExact; rw [show cfg1.idle 5 (grid1.coords t) = false from rfl, after5]

/-! ## The body obligation -/

/-- What the body is called with at point `t`, the windows one by one, -/
def bodyPre (V : (c : Dev nD) → (b : Ref sig .tc) → Buf (Elt F) ((c : Thread nD τ).loc b)) (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (V : (c : Dev nD) → (b : Ref sig .tc) → Buf (Elt F) ((c : Thread nD τ).loc b)) (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point. The inputs' memrefs hold their blocks; the point's position in its batch tile says which
    case applies; the invariant hands the body the accumulator at what the point before left (at anything where the
    body restarts it) and takes it back at this point's value; off the last reaction block the output's buffer goes
    back untouched, at the last it ends at the accumulator's value; the core owes nothing throughout. -/
theorem sound_body (V : (c : Dev nD) → (b : Ref sig .tc) → Buf (Elt F) ((c : Thread nD τ).loc b)) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 128 := lt_of_lt_of_eq t.isLt (show cfg1.N = 128 from N_1)
  by_cases h0 : t.val % 16 = 0
  · have h1 : ¬t.val % 16 = 15 := by omega
    rw [Dat.leavesExact_idle (dat V c) 6 t (out_idle t (fun h => h1 ((isLast_iff t).mp h))) (out_noFlush t (fun h => h1 ((isLast_iff t).mp h)))]
    rw [acc_first V c t h0]
    by_cases hz : t.val = 0
    · rw [Phi_castSucc V c t, PhiS_zero V c _ _ hz, PhiA_eq]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Hrest HS Hg]
      · isplitr [Hg]
        · isplitl [Hrest]; · iexact Hrest
          unfold owns; iexists _; isplitr
          swap; · iexact HS
          ipureintro; exact first_leaves c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc V c t, PhiS_pos V c _ _ hz]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [Hrest HS Hg]
      · isplitr [Hg]
        · isplitl [Hrest]; · iexact Hrest
          unfold owns; iexists _; isplitr
          swap; · iexact HS
          ipureintro; exact first_leaves c (grid1.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (blk V c 0 t) (blk V c 1 t) (blk V c 2 t) (blk V c 3 t) (blk V c 4 t) (blk V c 5 t) _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat V c).leavesExact 6 t = owns (c : Thread nD τ) (ms6 t) fullShare ((dat V c).after 6 t) from by
        unfold Dat.leavesExact; rw [out_live t ((isLast_iff t).mpr h1)], dat_after_out]
      rw [acc_next V c t h0]
      rw [Phi_castSucc V c t, PhiS_pos V c _ _ hz]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [Hrest HS Hg]
      · isplitr [Hg]
        · isplitl [Hrest]; · iexact Hrest
          unfold owns; iexists _; isplitr
          swap; · iexact HS
          ipureintro; exact last_leaves_acc c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (blk V c 0 t) (blk V c 1 t) (blk V c 2 t) (blk V c 3 t) (blk V c 4 t) (blk V c 5 t) _ _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact last_leaves_out c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (blk V c 0 t) (blk V c 1 t) (blk V c 2 t) (blk V c 3 t) (blk V c 4 t) (blk V c 5 t) _ _ _
    · rw [Dat.leavesExact_idle (dat V c) 6 t (out_idle t (fun h => h1 ((isLast_iff t).mp h))) (out_noFlush t (fun h => h1 ((isLast_iff t).mp h)))]
      rw [acc_next V c t h0]
      rw [Phi_castSucc V c t, PhiS_pos V c _ _ hz]
      iintro ⟨⟨⟨Hrest, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h1 ((isLast_iff t).mp h)) (blk V c 0 t) (blk V c 1 t) (blk V c 2 t) (blk V c 3 t) (blk V c 4 t) (blk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [Hrest HS Hg]
      · isplitr [Hg]
        · isplitl [Hrest]; · iexact Hrest
          unfold owns; iexists _; isplitr
          swap; · iexact HS
          ipureintro; exact middle_leaves c (grid1.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h1 ((isLast_iff t).mp h)) (blk V c 0 t) (blk V c 1 t) (blk V c 2 t) (blk V c 3 t) (blk V c 4 t) (blk V c 5 t) _ _ _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (V : (c : Dev nD) → (b : Ref sig .tc) → Buf (Elt F) ((c : Thread nD τ).loc b)) (c : Dev nD) : BodyObligation (dat (F := F) V c) (defs₀ (F := F)) Variants.none () Set.univ := fun t => by
  rw [bigSep_W1, bigSep_W1]
  exact sound_body V c t

/-- What the launch hands the region is the invariant before the first point. -/
theorem hin (V : (c : Dev nD) → (b : Ref sig .tc) → Buf (Elt F) ((c : Thread nD τ).loc b)) (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class invariant back: what the accumulator holds is forgotten. -/
theorem Phi_out (V : (c : Dev nD) → (b : Ref sig .tc) → Buf (Elt F) ((c : Thread nD τ).loc b)) (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨Hrest, HS⟩, Hg⟩
  isplitr [Hg]
  · isplitl [Hrest]; · iexact Hrest
    iexists _; iexact HS
  iexact Hg

/-- The same after the last point. -/
theorem hout (V : (c : Dev nD) → (b : Ref sig .tc) → Buf (Elt F) ((c : Thread nD τ).loc b)) (c : Dev nD) : (dat V c).Φ (Fin.last cfg1.N) ⊢ (Pipeline.ΦA spec1 c : sProp 𝕄) :=
  Phi_out V c _ (by rw [Fin.val_last]; have : cfg1.N = 128 := N_1; omega)

end Cert.Kernel.Term2

end
-- ==== Proof.BitsFold.lean ====
/-
  The TensorCore's buffer contents at the boundaries of the program's items: at launch, after the host lines that cut
  the second-order reactant table into its two columns, after the first-order region (its result array at what its
  write-backs leave) and after the second-order region.
  -/
import proofs.«430890_j60138132078971_1_alg».proof.Proof.BitsTerm1
import proofs.«430890_j60138132078971_1_alg».proof.Proof.BitsTerm2
import Idealize.ShloMosaic.Lib.ValueIdx
import Idealize.ShloMosaic.Lib.ValueLayout
import Idealize.ShloMosaic.Lib.Pipeline.Value
import Idealize.ShloMosaic.Lib.StableHlo.Run
import proofs.«430890_j60138132078971_1_alg».proof.Proof.Gen.Kernel.Regions

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the host lines (the first-order region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first-order region's exit: its arrays at what the pipeline leaves, every other buffer as entered. -/
def W2 (c : Dev nD) : Valuation τ sig (Elt F) :=
  Pipeline.withArrays spec0 c (W1 m c) fun w => (Term1.dat (V1 m) c).arrAt w cfg0.N
/-- The same read at the TensorCore's references (the second-order region's entry). -/
abbrev V2 : (c : Dev nD) → (b : Ref sig .tc) → Buf (Elt F) ((c : Thread nD τ).loc b) := fun c b => W2 m c b
/-- At the second-order region's exit. -/
def W3 (c : Dev nD) : Valuation τ sig (Elt F) :=
  Pipeline.withArrays spec1 c (W2 m c) fun w => (Term2.dat (V2 m) c).arrAt w cfg1.N
abbrev V3 : (c : Dev nD) → (b : Ref sig .tc) → Buf (Elt F) ((c : Thread nD τ).loc b) := fun c b => W3 m c b

theorem W2_arr (c : Dev nD) (w : Fin cfg0.W) :
    W2 m c (Proc.devRef .tc (Pipeline.arrRef spec0 w)) = (Term1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (Term2.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- The host lines write only the table's two cut columns and their two reshaped copies: any other buffer is found
    after them as launched. -/
theorem W1_of_not_written (c : Dev nD) (r : Ref sig .tc) (h : r ∉ hostOps0_W) :
    W1 m c (Proc.devRef .tc r) = m ((c : Thread nD τ).loc r) :=
  StableHlo.after_of_writes_sub hostOps0 _ hostOps0_writes h

/-- A window of the first-order region that is only read leaves its array as the region found it. -/
theorem W2_of_input (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((Term1.dat (V1 m) c).arrAt_in w hin _).trans (Term1.dat_A (V1 m) c w))
/-- The same of the second-order region. -/
theorem W3_of_input (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((Term2.dat (V2 m) c).arrAt_in w hin _).trans (Term2.dat_A (V2 m) c w))

/-- The program's result after the run: the second-order region's output array. -/
theorem V3_result (c : Dev nD) : V3 m c main_v5 = (Term2.dat (V2 m) c).arrAt 6 cfg1.N := W3_arr m c 6
/-- The first-order result as the second-order region finds it. -/
theorem V2_y1 (c : Dev nD) : V2 m c main_v4 = (Term1.dat (V1 m) c).arrAt 4 cfg0.N := W2_arr m c 4

/-- No item writes an argument: each is found as launched at every boundary. -/
theorem V1_main_arg0 (c : Dev nD) : V1 m c main_arg0 = m ((c : Thread nD τ).loc main_arg0) := W1_of_not_written m c main_arg0 (by decide)
theorem V1_main_arg1 (c : Dev nD) : V1 m c main_arg1 = m ((c : Thread nD τ).loc main_arg1) := W1_of_not_written m c main_arg1 (by decide)
theorem V1_main_arg3 (c : Dev nD) : V1 m c main_arg3 = m ((c : Thread nD τ).loc main_arg3) := W1_of_not_written m c main_arg3 (by decide)
theorem V1_main_arg4 (c : Dev nD) : V1 m c main_arg4 = m ((c : Thread nD τ).loc main_arg4) := W1_of_not_written m c main_arg4 (by decide)
theorem V2_main_arg0 (c : Dev nD) : V2 m c main_arg0 = m ((c : Thread nD τ).loc main_arg0) :=
  (W2_of_input m c 0 rfl).trans (V1_main_arg0 m c)
theorem V2_main_arg2 (c : Dev nD) : V2 m c main_arg2 = m ((c : Thread nD τ).loc main_arg2) :=
  (W2_of_ne m c main_arg2 (by decide)).trans (W1_of_not_written m c main_arg2 (by decide))
theorem V2_main_arg6 (c : Dev nD) : V2 m c main_arg6 = m ((c : Thread nD τ).loc main_arg6) :=
  (W2_of_ne m c main_arg6 (by decide)).trans (W1_of_not_written m c main_arg6 (by decide))
/-- The two columns of the second-order reactant table, as the host lines leave them. -/
theorem V2_main_v1 (c : Dev nD) : V2 m c main_v1 = V1 m c main_v1 := W2_of_ne m c main_v1 (by decide)
theorem V2_main_v3 (c : Dev nD) : V2 m c main_v3 = V1 m c main_v3 := W2_of_ne m c main_v3 (by decide)

/-- Column `k` of a two-column table, cut out as a one-column matrix and flattened to a vector, reads at `n` the
    table's entry `(n, k)`: the flattening keeps the row-major position, the cut shifts the column by `k`. -/
theorem column_apply {α : Type} (X : S16384x2.Idx → α) (k : Fin 2) (hs : S16384x2.Slices ![0, k.val] S16384x1)
    (hc : S16384x1.ShapeCasts S16384) (n : Fin 16384) :
    shapeCast S16384 (extractStridedSlice S16384x1 ![0, k.val] X hs) hc (ValueIdx.ix1 n) = X (ValueIdx.ix2 n k) := by
  refine (shapeCast_apply _ hc (ValueIdx.ix1 n) (ValueIdx.ix2 n (0 : Fin 1)) (by
    rw [Shape.rowMajor_val_two, Shape.rowMajor_val_one]
    show n.val * 1 + 0 = n.val
    omega)).trans ?_
  exact ValueIdx.slice2_axis1_apply k.val X hs n (0 : Fin 1) k (by show k.val = k.val + 0; omega)

/-- The host lines cut the two-column reactant table into its columns: entry n of each column is the table's entry (n, 0),
    resp. (n, 1). -/
theorem V1_main_v1_apply (c : Dev nD) (n : Fin 16384) :
    V1 m c main_v1 (ValueIdx.ix1 n) = m ((c : Thread nD τ).loc main_arg5) (ValueIdx.ix2 n 0) := by
  have e : (V1 m c main_v1 : S16384.Idx → Elt F .i32) =
      shapeCast S16384 (extractStridedSlice S16384x1 ![0, 0] (m ((c : Thread nD τ).loc main_arg5)) slices_S16384x2_S16384x1_0_0)
        shapeCasts_S16384x1_S16384 := by
    dsimp only [V1, W1, W0, hostOps0]; after_results; rfl
  rw [e]
  exact column_apply _ 0 slices_S16384x2_S16384x1_0_0 shapeCasts_S16384x1_S16384 n
theorem V1_main_v3_apply (c : Dev nD) (n : Fin 16384) :
    V1 m c main_v3 (ValueIdx.ix1 n) = m ((c : Thread nD τ).loc main_arg5) (ValueIdx.ix2 n 1) := by
  have e : (V1 m c main_v3 : S16384.Idx → Elt F .i32) =
      shapeCast S16384 (extractStridedSlice S16384x1 ![0, 1] (m ((c : Thread nD τ).loc main_arg5)) slices_S16384x2_S16384x1_0_1)
        shapeCasts_S16384x1_S16384 := by
    dsimp only [V1, W1, W0, hostOps0]; after_results; rfl
  rw [e]
  exact column_apply _ 1 slices_S16384x2_S16384x1_0_1 shapeCasts_S16384x1_S16384 n
theorem V3_main_arg0 (c : Dev nD) : V3 m c main_arg0 = m ((c : Thread nD τ).loc main_arg0) :=
  (W3_of_input m c 0 rfl).trans (V2_main_arg0 m c)
theorem V3_main_arg1 (c : Dev nD) : V3 m c main_arg1 = m ((c : Thread nD τ).loc main_arg1) :=
  (W3_of_ne m c main_arg1 (by decide)).trans ((W2_of_input m c 1 rfl).trans (V1_main_arg1 m c))
theorem V3_main_arg2 (c : Dev nD) : V3 m c main_arg2 = m ((c : Thread nD τ).loc main_arg2) :=
  (W3_of_input m c 1 rfl).trans (V2_main_arg2 m c)
theorem V3_main_arg3 (c : Dev nD) : V3 m c main_arg3 = m ((c : Thread nD τ).loc main_arg3) :=
  (W3_of_ne m c main_arg3 (by decide)).trans ((W2_of_input m c 2 rfl).trans (V1_main_arg3 m c))
theorem V3_main_arg4 (c : Dev nD) : V3 m c main_arg4 = m ((c : Thread nD τ).loc main_arg4) :=
  (W3_of_ne m c main_arg4 (by decide)).trans ((W2_of_input m c 3 rfl).trans (V1_main_arg4 m c))
theorem V3_main_arg5 (c : Dev nD) : V3 m c main_arg5 = m ((c : Thread nD τ).loc main_arg5) :=
  (W3_of_ne m c main_arg5 (by decide)).trans ((W2_of_ne m c main_arg5 (by decide)).trans (W1_of_not_written m c main_arg5 (by decide)))
theorem V3_main_arg6 (c : Dev nD) : V3 m c main_arg6 = m ((c : Thread nD τ).loc main_arg6) :=
  (W3_of_input m c 4 rfl).trans (V2_main_arg6 m c)

end Cert.Kernel.Fold

end
-- ==== Proof.BitsRun.lean ====
/-
  The program's run: the host lines, the first-order region, the second-order region, from any launch memory. Every
  weakly fair execution terminates; the result array ends at what the second-order region's write-backs leave and every
  argument array ends as launched.
-/
import proofs.«430890_j60138132078971_1_alg».proof.Proof.BitsFold
import proofs.«430890_j60138132078971_1_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Items

variable (m : (ℓ : Loc nD τ sig) → Buf (Elt F) ℓ)

/-- Both regions' proof data: the first-order region's at the contents the host lines leave, the second-order region's
    at the contents the first-order region leaves. -/
def dats : (p : Fin 2) → (c : Dev nD) → Dat τ (Elt F) Unit ℕ (UR sig nD τ) ℕ (Pipeline.pin (pcfgs (F := F)) adm p) c
  | ⟨0, _⟩ => fun c => Term1.dat (Fold.V1 m) c
  | ⟨1, _⟩ => fun c => Term2.dat (Fold.V2 m) c

/-- Neither region's data owe anything at any point, and neither bounds the pairs a core's waits may have recorded. -/
theorem owed1 (c : Dev nD) (t : Fin ((Pipeline.pin (pcfgs (F := F)) adm 0).N + 1)) : (dats m 0 c).owed t = 0 :=
  Term1.dat_owed (Fold.V1 m) c t
theorem owed2 (c : Dev nD) (t : Fin ((Pipeline.pin (pcfgs (F := F)) adm 1).N + 1)) : (dats m 1 c).owed t = 0 :=
  Term2.dat_owed (Fold.V2 m) c t
theorem recorded1 (c : Dev nD) (t : Fin ((Pipeline.pin (pcfgs (F := F)) adm 0).N + 1)) : (dats m 0 c).recorded t = Set.univ :=
  Term1.dat_recorded (Fold.V1 m) c t
theorem recorded2 (c : Dev nD) (t : Fin ((Pipeline.pin (pcfgs (F := F)) adm 1).N + 1)) : (dats m 1 c).recorded t = Set.univ :=
  Term2.dat_recorded (Fold.V2 m) c t

/-- A core that owes nothing stands, before any point of the first-order region, as that region's data say (owing
    nothing, whatever pairs its waits have recorded); and conversely. -/
theorem owes_in1 (c : Dev nD) (t : Fin ((Pipeline.pin (pcfgs (F := F)) adm 0).N + 1)) :
    (iprop(∃ W, owes (c : Thread nD τ) (0 : CellTallies nD τ sig Unit) W) : sProp 𝕄) ⊢ (dats m 0 c).owesAt () t := by
  unfold Pipeline.Dat.owesAt Pipeline.owesWithin
  rw [owed1 m c t]
  iintro ⟨%W, HO⟩; iexists W; isplitr
  · ipureintro; exact fun x _ => Or.inl (by rw [recorded1 m c t]; exact trivial)
  iexact HO
theorem owes_out1 (c : Dev nD) (t : Fin ((Pipeline.pin (pcfgs (F := F)) adm 0).N + 1)) :
    (dats m 0 c).owesAt () t ⊢ (iprop(∃ W, owes (c : Thread nD τ) (0 : CellTallies nD τ sig Unit) W) : sProp 𝕄) := by
  unfold Pipeline.Dat.owesAt Pipeline.owesWithin
  rw [owed1 m c t]
  iintro ⟨%W, -, HO⟩; iexists W; iexact HO
/-- The same of the second-order region. -/
theorem owes_in2 (c : Dev nD) (t : Fin ((Pipeline.pin (pcfgs (F := F)) adm 1).N + 1)) :
    (iprop(∃ W, owes (c : Thread nD τ) (0 : CellTallies nD τ sig Unit) W) : sProp 𝕄) ⊢ (dats m 1 c).owesAt () t := by
  unfold Pipeline.Dat.owesAt Pipeline.owesWithin
  rw [owed2 m c t]
  iintro ⟨%W, HO⟩; iexists W; isplitr
  · ipureintro; exact fun x _ => Or.inl (by rw [recorded2 m c t]; exact trivial)
  iexact HO
theorem owes_out2 (c : Dev nD) (t : Fin ((Pipeline.pin (pcfgs (F := F)) adm 1).N + 1)) :
    (dats m 1 c).owesAt () t ⊢ (iprop(∃ W, owes (c : Thread nD τ) (0 : CellTallies nD τ sig Unit) W) : sProp 𝕄) := by
  unfold Pipeline.Dat.owesAt Pipeline.owesWithin
  rw [owed2 m c t]
  iintro ⟨%W, -, HO⟩; iexists W; iexact HO

/-- No loop variant, no pair of cores at a level: no core owes another anything. -/
abbrev noVariant : Variants := Variants.none
abbrev noPairs : GSem nD τ sig → Finset Unit := fun _ => ∅
abbrev noLevel : GSem nD τ sig → Unit → ℕ := fun _ _ => 0

/-- What a core carries beside its buffers from item to item: its generator register at some state, and nothing owed. -/
abbrev beside (c : Dev nD) : sProp 𝕄 :=
  iprop((∃ r, prngReg c r) ∗ ∃ W, owes (c : Thread nD τ) (0 : CellTallies nD τ sig Unit) W)

/-- A core between two items: every unscoped buffer whole at the contents `W c`, and what rides beside. -/
abbrev between (W : Dev nD → Valuation τ sig (Elt F)) (c : Dev nD) : sProp 𝕄 :=
  iprop(StableHlo.held (c : Thread nD τ) (Pipeline.ucRefs τ sig) (W c) ∗ beside c)

/-- The state the run ends in, without the (empty) debt: the buffers at the last contents, the generator register. -/
abbrev atEnd (c : Dev nD) : sProp 𝕄 :=
  iprop(StableHlo.held (c : Thread nD τ) (Pipeline.ucRefs τ sig) (Fold.W3 m c) ∗ ∃ r, prngReg c r)

/-- Item 0, the host lines that cut the reactant table into its two columns: from the launch contents to `W1`. -/
abbrev cutItem : Pipeline.HostSeg (Name := ℕ) (U := UR sig nD τ) (pcfgs (F := F)) defs₀ noVariant noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Fold.W0 m) beside

/-- At the first-order region's exit each of its arrays holds what the pipeline leaves, every other buffer what it held
    at entry. -/
theorem exit1_arr (c : Dev nD) (w : Fin cfg0.W) : (Term1.dat (Fold.V1 m) c).arrAt w cfg0.N = Fold.V2 m c (Pipeline.arrRef spec0 w) :=
  (Fold.W2_arr m c w).symm
theorem exit1_rest (c : Dev nD) : ∀ b, b ∉ Finset.univ.image (Pipeline.arrRef spec0) → Fold.V2 m c b = Fold.V1 m c b :=
  fun b hb => Fold.W2_of_ne m c b fun w e => hb (Finset.mem_image.mpr ⟨w, Finset.mem_univ _, e⟩)
/-- The same at the second-order region's exit. -/
theorem exit2_arr (c : Dev nD) (w : Fin cfg1.W) : (Term2.dat (Fold.V2 m) c).arrAt w cfg1.N = Fold.V3 m c (Pipeline.arrRef spec1 w) :=
  (Fold.W3_arr m c w).symm
theorem exit2_rest (c : Dev nD) : ∀ b, b ∉ Finset.univ.image (Pipeline.arrRef spec1) → Fold.V3 m c b = Fold.V2 m c b :=
  fun b hb => Fold.W3_of_ne m c b fun w e => hb (Finset.mem_image.mpr ⟨w, Finset.mem_univ _, e⟩)

set_option backward.isDefEq.respectTransparency.types false in
/-- Item 1, the first-order region: entered from every unscoped buffer at `W1`, left at `W2`. Its five arrays are split out
    of the unscoped buffers at entry and put back at their exit contents; the generator register goes into the region's
    invariant and comes back; nothing is owed; the kernel has no semaphore of its own. -/
def firstOrder : Pipeline.RegionSeg (pcfgs (F := F)) adm (dats m) () defs₀ noVariant noPairs noLevel 0 where
  win := launch0.win.to₀
  block_pos := launch0.block_pos
  stage_whole := launch0.stage_whole
  K := PEmpty
  osem k := k.elim
  ho := Pipeline.OwnSemFacts.none _
  hbody c := (Term1.body_obligation (Fold.V1 m) c).loose
  hwaits := Pipeline.hwaits_of_owed_zero _ _ _ _ noPairs noLevel 0 fun c t => Term1.dat_owed (Fold.V1 m) c t
  pre c := between (Fold.W1 m) c
  post c := between (Fold.W2 m) c
  X c := iprop(∃ r, prngReg c r)
  Y c := iprop(∃ r, prngReg c r)
  Z c := Pipeline.unscopedRest (Ix := Unit) (Name := ℕ) (U := UR sig nD τ) (Lvl := ℕ) spec0 c (Fold.V1 m c)
  hentry c := by
    rw [Pipeline.ownSems0_none]
    have hsplit := Pipeline.arrays_of_unscopedBufs (p := 0) (pcfgs (F := F)) adm (dats m) launch0.win launch0.arr_whole c
      ((dats m 0 c).share_full (Term1.dat_q (Fold.V1 m) c)) (Fold.V1 m c) (Term1.dat_A (Fold.V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in1 m c 0); iexact HO
    isplitl [Hp]; · iexact Hp
    iexact Hrest
  hin c := by
    refine BIBase.Entails.trans ?_ (Term1.hin (Fold.V1 m) c)
    unfold Pipeline.ΦA
    iintro ⟨Hp, -, Hr⟩
    isplitl [Hr]; · iexact Hr
    iexact Hp
  hout c := by
    rw [Pipeline.ownSems0_none]
    refine (Term1.hout (Fold.V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m) ((dats m 0 c).share_full (Term1.dat_q (Fold.V1 m) c))
      (Fold.V1 m c) (Fold.V2 m c) ((dats m 0 c).arrAt · cfg0.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out1 m c (Fin.last _)); iexact HO

set_option backward.isDefEq.respectTransparency.types false in
/-- Item 2, the second-order region: entered from every unscoped buffer at `W2`, left at `W3`, in the same way over its
    seven arrays. -/
def secondOrder : Pipeline.RegionSeg (pcfgs (F := F)) adm (dats m) () defs₀ noVariant noPairs noLevel 1 where
  win := launch1.win.to₀
  block_pos := launch1.block_pos
  stage_whole := launch1.stage_whole
  K := PEmpty
  osem k := k.elim
  ho := Pipeline.OwnSemFacts.none _
  hbody c := (Term2.body_obligation (Fold.V2 m) c).loose
  hwaits := Pipeline.hwaits_of_owed_zero _ _ _ _ noPairs noLevel 1 fun c t => Term2.dat_owed (Fold.V2 m) c t
  pre c := between (Fold.W2 m) c
  post c := between (Fold.W3 m) c
  X c := iprop(∃ r, prngReg c r)
  Y c := iprop(∃ r, prngReg c r)
  Z c := Pipeline.unscopedRest (Ix := Unit) (Name := ℕ) (U := UR sig nD τ) (Lvl := ℕ) spec1 c (Fold.V2 m c)
  hentry c := by
    rw [Pipeline.ownSems0_none]
    have hsplit := Pipeline.arrays_of_unscopedBufs (p := 1) (pcfgs (F := F)) adm (dats m) launch1.win launch1.arr_whole c
      ((dats m 1 c).share_full (Term2.dat_q (Fold.V2 m) c)) (Fold.V2 m c) (Term2.dat_A (Fold.V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in2 m c 0); iexact HO
    isplitl [Hp]; · iexact Hp
    iexact Hrest
  hin c := by
    refine BIBase.Entails.trans ?_ (Term2.hin (Fold.V2 m) c)
    unfold Pipeline.ΦA
    iintro ⟨Hp, -, Hr⟩
    isplitl [Hr]; · iexact Hr
    iexact Hp
  hout c := by
    rw [Pipeline.ownSems0_none]
    refine (Term2.hout (Fold.V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m) ((dats m 1 c).share_full (Term2.dat_q (Fold.V2 m) c))
      (Fold.V2 m c) (Fold.V3 m c) ((dats m 1 c).arrAt · cfg1.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out2 m c (Fin.last _)); iexact HO

/-- The program's three items in order. -/
abbrev items : List (Pipeline.Seg (pcfgs (F := F)) adm (dats m) () defs₀ noVariant noPairs noLevel) :=
  [ .host (cutItem m), .region (firstOrder m), .region (secondOrder m) ]

/-- The program is the run of its items: its chain of statements, against which the items' run is checked by
    definitional unfolding. -/
theorem main_items (c : Dev nD) : main (F := F) c = Pipeline.Seg.run (items m) := (main_chain c).trans (by chain_rfl)

/-- The last boundary, regrouped: the debt (none) stands apart from the buffers and the generator register. -/
theorem between_end (c : Dev nD) :
    between (Fold.W3 m) c ⊢ iprop(atEnd m c ∗ ∃ W, owes (c : Thread nD τ) (0 : CellTallies nD τ sig Unit) W) := by
  iintro ⟨Hh, Hp, HO⟩
  isplitl [Hh Hp]
  · isplitl [Hh]; · iexact Hh
    iexact Hp
  iexact HO

/-- An unscoped TensorCore reference is among those a core holds between items. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Items

set_option backward.isDefEq.respectTransparency.types false in
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = Fold.V3 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (dats m) () cellOf_inj emb₁ defs₀ noVariant noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (Fold.W0 m)) (Tₙ := atEnd m)
    (hch := ⟨fun _ => .rfl, fun _ => .rfl, fun _ => .rfl, fun c => between_end m c⟩)
    (hinit := by
      refine Pipeline.initEach noPairs noLevel fun c => ?_
      rw [show unscopedBufs c (fun b => m ((c : Thread nD τ).loc b)) = StableHlo.held (c : Thread nD τ) (Pipeline.ucRefs τ sig) (Fold.W0 m c)
        from Pipeline.unscopedBufs_held c (Fold.W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Fold.W3 m c b)
    (hfin := fun c s' => by
      iintro ⟨⟨Hh, -⟩, HSI⟩
      unfold StableHlo.held
      imodintro
      iapply (pointsTo_read_all (Pipeline.ucRefs τ sig) (fun b => (((c : Thread nD τ)).1, b)) (Fold.W3 m c) s')
      isplitl [Hh] <;> iassumption)
    (hQ := fun s h c =>
      ⟨h c _ (mem_unscoped main_v5 (by decide)),
       (h c _ (mem_unscoped main_arg0 (by decide))).trans (Fold.V3_main_arg0 m c),
       (h c _ (mem_unscoped main_arg1 (by decide))).trans (Fold.V3_main_arg1 m c),
       (h c _ (mem_unscoped main_arg2 (by decide))).trans (Fold.V3_main_arg2 m c),
       (h c _ (mem_unscoped main_arg3 (by decide))).trans (Fold.V3_main_arg3 m c),
       (h c _ (mem_unscoped main_arg4 (by decide))).trans (Fold.V3_main_arg4 m c),
       (h c _ (mem_unscoped main_arg5 (by decide))).trans (Fold.V3_main_arg5 m c),
       (h c _ (mem_unscoped main_arg6 (by decide))).trans (Fold.V3_main_arg6 m c)⟩)

end Cert.Kernel.Run

end
-- ==== Proof.Spec.lean ====
/-
  The reaction term as one function of the argument arrays, over the extended reals.

  A reactant is picked out of a row of abundances by a one-hot row: lane s of the row for the index word w is 1 when
  s, written as a 32-bit word, IS w, and 0 otherwise; the picked abundance is the sum over the 1024 species of
  abundance times that entry. For a word in {0, …, 1023} the sum is the abundance at that species; for any other word
  every entry is 0 and so is the sum. A reaction's term is its picked abundance(s) times its rate, and species s of
  the result collects the terms of the reactions whose product word is s, again through the one-hot entry.
  First-order reactions (4096 of them, one reactant) come first, then second-order ones (16384, two reactants).
-/
import Idealize.ShloMosaic.PureOps.Ideal
import Idealize.ShloMosaic.Lib.ValueIdx

noncomputable section

namespace Cert.Reaction

open Idealize.ShloMosaic Idealize.ShloMosaic.ValueIdx

/-- The one-hot entry at lane `s` for the index word `w`. -/
def oh (s : ℕ) (w : BitVec 32) : EReal := if BitVec.ofNat 32 s = w then 1 else 0

/-- The abundances of sample `b` picked by the index word `w`: the one-hot row times the row of abundances. -/
def pick (y : (⟨2, ![4096, 1024]⟩ : Shape).Idx → EReal) (b : Fin 4096) (w : BitVec 32) : EReal :=
  ∑ s : Fin 1024, y (ix2 b s) * oh s.val w

/-- First-order reaction `n` of sample `b`: the picked reactant times the rate. -/
def term1 (y : (⟨2, ![4096, 1024]⟩ : Shape).Idx → EReal) (rate1 : (⟨2, ![4096, 4096]⟩ : Shape).Idx → EReal)
    (r1 : (⟨1, ![4096]⟩ : Shape).Idx → BitVec 32) (b : Fin 4096) (n : Fin 4096) : EReal :=
  pick y b (r1 (ix1 n)) * rate1 (ix2 b n)

/-- Second-order reaction `n` of sample `b`: the product of the two picked reactants, times the rate. -/
def term2 (y : (⟨2, ![4096, 1024]⟩ : Shape).Idx → EReal) (rate2 : (⟨2, ![4096, 16384]⟩ : Shape).Idx → EReal)
    (r2 : (⟨2, ![16384, 2]⟩ : Shape).Idx → BitVec 32) (b : Fin 4096) (n : Fin 16384) : EReal :=
  pick y b (r2 (ix2 n 0)) * pick y b (r2 (ix2 n 1)) * rate2 (ix2 b n)

/-- What the first-order reactions add to species `s` of sample `b`. -/
def out1 (y : (⟨2, ![4096, 1024]⟩ : Shape).Idx → EReal) (rate1 : (⟨2, ![4096, 4096]⟩ : Shape).Idx → EReal)
    (r1 p1 : (⟨1, ![4096]⟩ : Shape).Idx → BitVec 32) (b : Fin 4096) (s : Fin 1024) : EReal :=
  ∑ n : Fin 4096, term1 y rate1 r1 b n * oh s.val (p1 (ix1 n))

/-- What the second-order reactions add to species `s` of sample `b`. -/
def out2 (y : (⟨2, ![4096, 1024]⟩ : Shape).Idx → EReal) (rate2 : (⟨2, ![4096, 16384]⟩ : Shape).Idx → EReal)
    (r2 : (⟨2, ![16384, 2]⟩ : Shape).Idx → BitVec 32) (p2 : (⟨1, ![16384]⟩ : Shape).Idx → BitVec 32)
    (b : Fin 4096) (s : Fin 1024) : EReal :=
  ∑ n : Fin 16384, term2 y rate2 r2 b n * oh s.val (p2 (ix1 n))

/-- The second-order contribution with the two reactant columns given separately (as the kernel is handed them). -/
def out2c (y : (⟨2, ![4096, 1024]⟩ : Shape).Idx → EReal) (rate2 : (⟨2, ![4096, 16384]⟩ : Shape).Idx → EReal)
    (ra rb p2 : (⟨1, ![16384]⟩ : Shape).Idx → BitVec 32) (b : Fin 4096) (s : Fin 1024) : EReal :=
  ∑ n : Fin 16384, (pick y b (ra (ix1 n)) * pick y b (rb (ix1 n)) * rate2 (ix2 b n)) * oh s.val (p2 (ix1 n))

/-- With the columns read off the two-column table, the column form is the table form. -/
theorem out2c_cols (y : (⟨2, ![4096, 1024]⟩ : Shape).Idx → EReal) (rate2 : (⟨2, ![4096, 16384]⟩ : Shape).Idx → EReal)
    (r2 : (⟨2, ![16384, 2]⟩ : Shape).Idx → BitVec 32) (ra rb p2 : (⟨1, ![16384]⟩ : Shape).Idx → BitVec 32)
    (ha : ∀ n : Fin 16384, ra (ix1 n) = r2 (ix2 n 0)) (hb : ∀ n : Fin 16384, rb (ix1 n) = r2 (ix2 n 1))
    (b : Fin 4096) (s : Fin 1024) : out2c y rate2 ra rb p2 b s = out2 y rate2 r2 p2 b s := by
  unfold out2c out2 term2
  refine Finset.sum_congr rfl fun n _ => ?_
  rw [ha n, hb n]

/-- THE RESULT: species `s` of sample `b` is the first-order contribution plus the second-order one. -/
def G (y : (⟨2, ![4096, 1024]⟩ : Shape).Idx → EReal) (rate1 : (⟨2, ![4096, 4096]⟩ : Shape).Idx → EReal)
    (rate2 : (⟨2, ![4096, 16384]⟩ : Shape).Idx → EReal) (r1 p1 : (⟨1, ![4096]⟩ : Shape).Idx → BitVec 32)
    (r2 : (⟨2, ![16384, 2]⟩ : Shape).Idx → BitVec 32) (p2 : (⟨1, ![16384]⟩ : Shape).Idx → BitVec 32) :
    (⟨2, ![4096, 1024]⟩ : Shape).Idx → EReal :=
  fun i => out1 y rate1 r1 p1 (i 0) (i 1) + out2 y rate2 r2 p2 (i 0) (i 1)

theorem G_apply (y : (⟨2, ![4096, 1024]⟩ : Shape).Idx → EReal) (rate1 : (⟨2, ![4096, 4096]⟩ : Shape).Idx → EReal)
    (rate2 : (⟨2, ![4096, 16384]⟩ : Shape).Idx → EReal) (r1 p1 : (⟨1, ![4096]⟩ : Shape).Idx → BitVec 32)
    (r2 : (⟨2, ![16384, 2]⟩ : Shape).Idx → BitVec 32) (p2 : (⟨1, ![16384]⟩ : Shape).Idx → BitVec 32)
    (b : Fin 4096) (s : Fin 1024) :
    G y rate1 rate2 r1 p1 r2 p2 (ix2 b s) = out1 y rate1 r1 p1 b s + out2 y rate2 r2 p2 b s := rfl

end Cert.Reaction

end
-- ==== Proof.LibOneHot.lean ====
import Mathlib.Data.EReal.Basic
import Mathlib.Data.EReal.Operations
import Mathlib.Algebra.BigOperators.Fin
import Mathlib.Algebra.BigOperators.Group.Finset.Piecewise
import Mathlib.Data.Fintype.BigOperators
import Mathlib.Logic.Equiv.Fin.Basic
import Mathlib.Tactic.Ring

/-!
# One-hot gathers and block sums over the extended reals

General facts about finite sums of extended real numbers, used when a table
row is picked out by multiplying a one-hot row into the table.

* The extended reals are not a ring: `x - x = 0` and distributivity fail at the
  infinities.  For entries that are real numbers they hold, and the proofs go
  through the reals: choose real witnesses, move the inclusion `ℝ → EReal`
  outside the products, differences and finite sums, and finish in `ℝ`.
* `sum_onehot_sub`: `∑ n, (δ(n = a) - δ(n = b)) * x n = x a - x b` for a real
  column `x`; `sum_onehot_zero` is the same with the column identically zero.
* Addition of extended reals is commutative and associative with no side
  condition, so regrouping needs no finiteness: `sum_blocks` cuts a sum over
  `Fin (B * T)` into `B` blocks of `T`, `add_sixteen` collects sixteen terms
  added one after the other, `foldl_add_range` evaluates a running sum.
-/

namespace Cert.LibOneHot

open Finset

/-- An extended real that is a real number. -/
def IsReal (x : EReal) : Prop := ∃ r : ℝ, x = (r : EReal)

/-- A real number minus itself is zero (false at the infinities). -/
theorem sub_self_of_isReal {x : EReal} (h : IsReal x) : x - x = 0 := by
  obtain ⟨r, rfl⟩ := h
  rw [← EReal.coe_sub, sub_self, EReal.coe_zero]

/-- The difference of two real numbers is a real number. -/
theorem isReal_sub {x y : EReal} (hx : IsReal x) (hy : IsReal y) : IsReal (x - y) := by
  obtain ⟨r, rfl⟩ := hx
  obtain ⟨s, rfl⟩ := hy
  exact ⟨r - s, (EReal.coe_sub r s).symm⟩

/-- Zero is a real number. -/
theorem isReal_zero : IsReal (0 : EReal) := ⟨0, EReal.coe_zero.symm⟩

/-- The inclusion of the reals commutes with finite sums. -/
theorem coe_sum {ι : Type*} (s : Finset ι) (f : ι → ℝ) :
    ((∑ n ∈ s, f n : ℝ) : EReal) = ∑ n ∈ s, (f n : EReal) := by
  classical
  induction s using Finset.induction_on with
  | empty => simp
  | insert a s ha ih =>
    rw [Finset.sum_insert ha, Finset.sum_insert ha, EReal.coe_add, ih]

/-- the one-hot difference row times a real column is the difference of the two picked entries -/
theorem sum_onehot_sub {ι : Type*} [Fintype ι] [DecidableEq ι] (x : ι → EReal)
    (hx : ∀ n, IsReal (x n)) (a b : ι) :
    ∑ n, ((if n = a then (1 : EReal) else 0) - (if n = b then (1 : EReal) else 0)) * x n
      = x a - x b := by
  -- real witnesses for the column
  choose r hr using hx
  -- each term is the image of the corresponding real term
  have key : ∀ n,
      ((if n = a then (1 : EReal) else 0) - (if n = b then (1 : EReal) else 0)) * x n
        = ((((if n = a then (1 : ℝ) else 0) - (if n = b then (1 : ℝ) else 0)) * r n : ℝ) :
            EReal) := by
    intro n
    rw [hr n, EReal.coe_mul, EReal.coe_sub]
    congr 2 <;> split_ifs <;> simp
  -- so the sum is the image of the real sum, which is computed in the reals
  rw [Finset.sum_congr rfl (fun n _ => key n), ← coe_sum, hr a, hr b, ← EReal.coe_sub]
  congr 1
  simp [sub_mul, Finset.sum_sub_distrib]

/-- the same with the column identically zero: the sum is zero -/
theorem sum_onehot_zero {ι : Type*} [Fintype ι] [DecidableEq ι] (a b : ι) :
    ∑ n : ι, ((if n = a then (1 : EReal) else 0) - (if n = b then (1 : EReal) else 0))
      * (0 : EReal) = 0 := by
  simp

/-- a sum over Fin (B * T) as B blocks of T -/
theorem sum_blocks (B T : ℕ) (f : ℕ → EReal) :
    ∑ n : Fin (B * T), f n.val = ∑ c : Fin B, ∑ j : Fin T, f (c.val * T + j.val) := by
  -- the index `n` is written uniquely as `c * T + j` with `c < B`, `j < T`
  rw [← (finProdFinEquiv (m := B) (n := T)).sum_comp (fun n => f n.val),
    Fintype.sum_prod_type]
  refine Finset.sum_congr rfl fun c _ => Finset.sum_congr rfl fun j _ => ?_
  congr 1
  simp only [finProdFinEquiv_apply_val]
  ring

/-- Sixteen terms written out. -/
theorem sum_sixteen (g : Fin 16 → EReal) :
    ∑ c, g c = g 0 + g 1 + g 2 + g 3 + g 4 + g 5 + g 6 + g 7 + g 8 + g 9 + g 10 + g 11
      + g 12 + g 13 + g 14 + g 15 := by
  rw [Fin.sum_univ_castSucc, Fin.sum_univ_castSucc, Fin.sum_univ_castSucc,
    Fin.sum_univ_castSucc, Fin.sum_univ_castSucc, Fin.sum_univ_castSucc,
    Fin.sum_univ_castSucc, Fin.sum_univ_castSucc, Fin.sum_univ_eight]
  rfl

/-- sixteen terms added one after the other onto a start value are the start value plus their sum -/
theorem add_sixteen (s : EReal) (g : Fin 16 → EReal) :
    s + g 0 + g 1 + g 2 + g 3 + g 4 + g 5 + g 6 + g 7 + g 8 + g 9 + g 10 + g 11 + g 12
      + g 13 + g 14 + g 15 = s + ∑ c, g c := by
  rw [sum_sixteen]
  simp only [add_assoc]

/-- a running sum: adding block c's sum at step c, from a start value, over B steps -/
theorem foldl_add_range (B : ℕ) (g : ℕ → EReal) (s : EReal) :
    (List.range B).foldl (fun acc c => acc + g c) s = s + ∑ c : Fin B, g c.val := by
  induction B with
  | zero => simp
  | succ n ih =>
    -- the last step adds `g n` to the running sum of the first `n` steps
    rw [List.range_succ, List.foldl_append, ih, Fin.sum_univ_castSucc]
    simp [add_assoc]

end Cert.LibOneHot
-- ==== Proof.PayloadValue.lean ====
/-
  One reaction block's contribution, read at an entry of the batch tile, over the extended reals: the kernel's two
  one-hot matrix products are the picked abundance and the collection by product species.
-/
import proofs.«430890_j60138132078971_1_alg».proof.Proof.Gen.KernelIdeal.Skeleton
import proofs.«430890_j60138132078971_1_alg».proof.Proof.Spec
import proofs.«430890_j60138132078971_1_alg».proof.Proof.LibOneHot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Cert.KernelIdeal Cert.KernelIdeal.Gen Cert.Reaction
open Idealize.ShloMosaic Idealize.ShloMosaic.ValueIdx

/-- What one block of 1024 first-order reactions adds to entry (r, s) of a 512-sample tile: `x0` the tile's abundances,
    `x1` its rates for the block, `x2` / `x3` the block's reactant / product index words. -/
def contrib1 (x0 x1 : (⟨2, ![512, 1024]⟩ : Shape).Idx → EReal) (x2 x3 : (⟨1, ![1024]⟩ : Shape).Idx → BitVec 32)
    (r : Fin 512) (s : Fin 1024) : EReal :=
  ∑ j : Fin 1024, ((∑ s' : Fin 1024, x0 (ix2 r s') * oh s'.val (x2 (ix1 j))) * x1 (ix2 r j)) * oh s.val (x3 (ix1 j))

/-- The same for a block of second-order reactions, `xa` / `xb` the two reactant index words. -/
def contrib2 (x0 x1 : (⟨2, ![512, 1024]⟩ : Shape).Idx → EReal) (xa xb xp : (⟨1, ![1024]⟩ : Shape).Idx → BitVec 32)
    (r : Fin 512) (s : Fin 1024) : EReal :=
  ∑ j : Fin 1024, (((∑ s' : Fin 1024, x0 (ix2 r s') * oh s'.val (xa (ix1 j)))
      * (∑ s' : Fin 1024, x0 (ix2 r s') * oh s'.val (xb (ix1 j)))) * x1 (ix2 r j)) * oh s.val (xp (ix1 j))

/-- A one-bit comparison result, widened to 32 bits and read as a signed integer, is 1 when the two words are equal and 0
    otherwise. -/
theorem eqBit_toReal (a b : BitVec 32) :
    ((((IntOp.cmpi .eq a b).setWidth 32).toInt : ℝ) : EReal) = if a = b then 1 else 0 := by
  by_cases h : a = b
  · subst h
    simp [IntOp.cmpi]
  · have hb : (a == b) = false := by simpa using h
    have hz : ((((IntOp.cmpi .eq a b).setWidth 32).toInt : ℝ) : EReal) = 0 := by simp [IntOp.cmpi, hb]
    rw [hz, if_neg h]

/-- Entry (k, j) of the 0/1 matrix "row number equals the j-th index word": the one-hot entry at lane k for that word. -/
theorem onehot_apply (w : Vec Ideal S1024 .i32) (k j : Fin 1024) :
    (truncf .bf16 (sitofp (F := Ideal) .f32 (extui 32 (cmpi .eq (iota .tc S1024x1024 32 [0] iota_S1024x1024_d0_w32)
      (broadcastTo S1024x1024 (shapeCast S1x1024 w shapeCasts_S1024_S1x1024) broadcasts_S1x1024_S1024x1024)) natLt_1_32))
      bitsLt_bf16_f32 : FVec Ideal S1024x1024 .bf16) (ix2 k j) = oh k.val (w (ix1 j)) := by
  rw [truncf_apply, sitofp_apply, extui_apply]
  show ((((IntOp.cmpi .eq _ _).setWidth 32).toInt : ℝ) : EReal) = _
  rw [eqBit_toReal, iota_single_apply, broadcastTo_1b_ab_apply, shapeCast_a_1a_apply]
  rfl

/-! The two contraction patterns read coordinate by coordinate. In the first the left operand's axis 1 runs against the right
    operand's axis 0; in the second both operands are contracted along their axis 1. -/

theorem lhs_pick_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem lhs_pick_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_pick_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_pick_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

theorem lhs_collect_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

theorem lhs_collect_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q

theorem rhs_collect_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

theorem rhs_collect_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The first product into a zero accumulator, at (r, j): row r of the left matrix against column j of the right one. -/
theorem matmul_pick_apply (A : FVec Ideal S512x1024 .bf16) (B : FVec Ideal S1024x1024 .bf16) (r : Fin 512) (j : Fin 1024) :
    matmul dot_S512x1024_S1024x1024_S512x1024_1_0_0_1_n_n none A B (constant (F := Ideal) S512x1024 .f32 0x00000000#32) (ix2 r j)
      = ∑ k : Fin 1024, A (ix2 r k) * B (ix2 k j) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have hl : dot_S512x1024_S1024x1024_S512x1024_1_0_0_1_n_n.lhsIdx (ix2 r j)
      ((contrEquiv1 dot_S512x1024_S1024x1024_S512x1024_1_0_0_1_n_n 1024 rfl rfl).symm k) = ix2 r k := by
    funext ax; apply Fin.ext
    match ax with
    | ⟨0, _⟩ => exact lhs_pick_0 _ _
    | ⟨1, _⟩ => exact (lhs_pick_1 _ _).trans hk
  have hr : dot_S512x1024_S1024x1024_S512x1024_1_0_0_1_n_n.rhsIdx (ix2 r j)
      ((contrEquiv1 dot_S512x1024_S1024x1024_S512x1024_1_0_0_1_n_n 1024 rfl rfl).symm k) = ix2 k j := by
    funext ax; apply Fin.ext
    match ax with
    | ⟨0, _⟩ => exact (rhs_pick_0 _ _).trans hk
    | ⟨1, _⟩ => exact rhs_pick_1 _ _
  rw [hl, hr]

/-- The second product into a zero accumulator, at (r, s): row r of the left matrix against ROW s of the right one. -/
theorem matmul_collect_apply (A : FVec Ideal S512x1024 .bf16) (B : FVec Ideal S1024x1024 .bf16) (r : Fin 512) (s : Fin 1024) :
    matmul dot_S512x1024_S1024x1024_S512x1024_1_1_0_0_n_n none A B (constant (F := Ideal) S512x1024 .f32 0x00000000#32) (ix2 r s)
      = ∑ j : Fin 1024, A (ix2 r j) * B (ix2 s j) := by
  simp only [matmul]
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have hl : dot_S512x1024_S1024x1024_S512x1024_1_1_0_0_n_n.lhsIdx (ix2 r s)
      ((contrEquiv1 dot_S512x1024_S1024x1024_S512x1024_1_1_0_0_n_n 1024 rfl rfl).symm k) = ix2 r k := by
    funext ax; apply Fin.ext
    match ax with
    | ⟨0, _⟩ => exact lhs_collect_0 _ _
    | ⟨1, _⟩ => exact (lhs_collect_1 _ _).trans hk
  have hr : dot_S512x1024_S1024x1024_S512x1024_1_1_0_0_n_n.rhsIdx (ix2 r s)
      ((contrEquiv1 dot_S512x1024_S1024x1024_S512x1024_1_1_0_0_n_n 1024 rfl rfl).symm k) = ix2 s k := by
    funext ax; apply Fin.ext
    match ax with
    | ⟨0, _⟩ => exact rhs_collect_0 _ _
    | ⟨1, _⟩ => exact (rhs_collect_1 _ _).trans hk
  rw [hl, hr]

/-- The reset value is zero everywhere. -/
theorem k0_pay1_apply (i : S512x1024.Idx) : k0_pay1 (F := Ideal) i = 0 := by
  unfold k0_pay1
  simp only [shapeCast_self, broadcast_apply]
  exact Ideal.ofBits_zero_f32

/-- The first-order kernel's new accumulator at (r, s): the old one plus the block's contribution. -/
theorem k0_pay2_apply (x0 x1 : Vec Ideal S512x1024 .f32) (x2 x3 : Vec Ideal S1024 .i32) (xs : Vec Ideal S512x1024 .f32)
    (r : Fin 512) (s : Fin 1024) :
    k0_pay2 x0 x2 x1 x3 xs (ix2 r s) = xs (ix2 r s) + contrib1 x0 x1 x2 x3 r s := by
  unfold k0_pay2 contrib1
  simp only [shapeCast_self]
  -- the outer sum: the terms of the block collected by product species
  rw [addf_apply, matmul_collect_apply]
  refine congrArg (xs (ix2 r s) + ·) (Finset.sum_congr rfl fun j _ => ?_)
  -- one reaction's term: the picked abundance times the rate
  rw [truncf_apply, mulf_apply, matmul_pick_apply, onehot_apply]
  refine congrArg (fun t => t * x1 (ix2 r j) * oh s.val (x3 (ix1 j))) (Finset.sum_congr rfl fun k _ => ?_)
  rw [truncf_apply, onehot_apply]

/-- The second-order kernel's reset value is the first-order result's block, unchanged. -/
theorem k1_pay1_apply (v : Vec Ideal S512x1024 .f32) (i : S512x1024.Idx) : k1_pay1 v i = v i := by
  unfold k1_pay1
  simp only [shapeCast_self]

/-- The second-order kernel's new accumulator at (r, s). -/
theorem k1_pay2_apply (x0 x1 : Vec Ideal S512x1024 .f32) (xa xb xp : Vec Ideal S1024 .i32) (xs : Vec Ideal S512x1024 .f32)
    (r : Fin 512) (s : Fin 1024) :
    k1_pay2 x0 xa xb x1 xp xs (ix2 r s) = xs (ix2 r s) + contrib2 x0 x1 xa xb xp r s := by
  unfold k1_pay2 contrib2
  simp only [shapeCast_self]
  -- the outer sum: the terms of the block collected by product species
  rw [addf_apply, matmul_collect_apply]
  refine congrArg (xs (ix2 r s) + ·) (Finset.sum_congr rfl fun j _ => ?_)
  -- one reaction's term: the two picked abundances multiplied, times the rate
  rw [truncf_apply, mulf_apply, mulf_apply, matmul_pick_apply, matmul_pick_apply, onehot_apply]
  refine congrArg₂ (fun t u => t * u * x1 (ix2 r j) * oh s.val (xp (ix1 j)))
    (Finset.sum_congr rfl fun k _ => ?_) (Finset.sum_congr rfl fun k _ => ?_)
  · rw [truncf_apply, onehot_apply]
  · rw [truncf_apply, onehot_apply]

end Cert.KernelIdeal.PayloadValue

end
-- ==== Proof.Term1Value.lean ====
/-
  What the first-order region leaves in its result array, over the extended reals: every entry is the sum over all
  4096 first-order reactions of the reaction's term times the one-hot entry of its product species.

  Grid point t = 4 bt + k works on batch tile bt (rows 512 bt … 512 bt + 511) and reaction block k (reactions
  1024 k … 1024 k + 1023). Each input block is its table read at those rows and columns. By induction on the point, the
  accumulator after point t holds at (r, s) the contributions of blocks 0 … k of tile bt; the result's block (bt, 0) is
  written after block 3 only, so it holds the four blocks' contributions, which regroup into the one sum over the 4096
  reactions (addition of extended reals is commutative and associative, no finiteness is needed); the eight written
  blocks cover the result array.
-/
import proofs.«430890_j60138132078971_1_alg».proof.Proof.Term1
import proofs.«430890_j60138132078971_1_alg».proof.Proof.PayloadValue
import proofs.«430890_j60138132078971_1_alg».proof.Proof.Spec
import proofs.«430890_j60138132078971_1_alg».proof.Proof.LibOneHot
import Idealize.ShloMosaic.Lib.Pipeline.Value
import Idealize.ShloMosaic.Lib.ValueIdx

set_option maxRecDepth 16384

noncomputable section

namespace Cert.KernelIdeal.Term1Value

open Cert.KernelIdeal Cert.KernelIdeal.Gen Cert.Reaction
open Idealize.ShloMosaic Idealize.ShloMosaic.TcCoe Idealize.ShloMosaic.ValueIdx
open Idealize.SL Idealize.SL.Sem
open Idealize.ShloMosaic.Pipeline (Dat Cfg Window)

/-- Where each window's block sits at grid point t: the batch tile is t / 4, the reaction block t % 4. -/
theorem blockIndex : ∀ t : Fin cfg0.N,
    win0_0.index t (0 : Fin 2) = t.val / 4 ∧ win0_0.index t (1 : Fin 2) = 0
    ∧ win0_1.index t (0 : Fin 2) = t.val / 4 ∧ win0_1.index t (1 : Fin 2) = t.val % 4
    ∧ win0_2.index t (0 : Fin 1) = t.val % 4
    ∧ win0_3.index t (0 : Fin 1) = t.val % 4
    ∧ win0_4.index t (0 : Fin 2) = t.val / 4 ∧ win0_4.index t (1 : Fin 2) = 0 :=
  (by decide +kernel : ∀ t : Fin grid0.N, _)

section
variable (V : (c : Dev nD) → (b : Ref sig .tc) → Buf (Elt Ideal) ((c : Thread nD τ).loc b)) (c : Dev nD)

/-- The abundance table, the rate table and the reactant / product index words, as the region finds them. -/
abbrev abund : S4096x1024.Idx → EReal := V c main_arg0
abbrev rates : S4096x4096.Idx → EReal := V c main_arg1
abbrev reactant : S4096.Idx → BitVec 32 := V c main_arg3
abbrev product : S4096.Idx → BitVec 32 := V c main_arg4

/-- The four input blocks at a grid point. -/
abbrev abundBlk (t : Fin cfg0.N) : Vec Ideal S512x1024 .f32 := Term1.blk V c 0 t
abbrev ratesBlk (t : Fin cfg0.N) : Vec Ideal S512x1024 .f32 := Term1.blk V c 1 t
abbrev reactantBlk (t : Fin cfg0.N) : Vec Ideal S1024 .i32 := Term1.blk V c 2 t
abbrev productBlk (t : Fin cfg0.N) : Vec Ideal S1024 .i32 := Term1.blk V c 3 t

/-- The abundance block at point t is rows 512 (t / 4) … of the table. -/
theorem abundBlk_apply (t : Fin cfg0.N) (r : Fin 512) (s : Fin 1024) (b : Fin 4096)
    (hb : b.val = 512 * (t.val / 4) + r.val) :
    abundBlk V c t (ix2 r s) = abund V c (ix2 b s) := by
  obtain ⟨e0, e1, -⟩ := blockIndex t
  unfold abundBlk Term1.blk
  rw [View.read_apply]
  show V c main_arg0 _ = V c main_arg0 _
  congr 1
  funext a
  apply Fin.ext
  match a with
  | ⟨0, _⟩ => show win0_0.index t (0 : Fin 2) * 512 + 1 * r.val = b.val; rw [e0, hb]; omega
  | ⟨1, _⟩ => show win0_0.index t (1 : Fin 2) * 1024 + 1 * s.val = s.val; rw [e1]; omega

/-- The rate block at point t is rows 512 (t / 4) …, columns 1024 (t % 4) … of the rate table. -/
theorem ratesBlk_apply (t : Fin cfg0.N) (r : Fin 512) (j : Fin 1024) (b n : Fin 4096)
    (hb : b.val = 512 * (t.val / 4) + r.val) (hn : n.val = 1024 * (t.val % 4) + j.val) :
    ratesBlk V c t (ix2 r j) = rates V c (ix2 b n) := by
  obtain ⟨-, -, e0, e1, -⟩ := blockIndex t
  unfold ratesBlk Term1.blk
  rw [View.read_apply]
  show V c main_arg1 _ = V c main_arg1 _
  congr 1
  funext a
  apply Fin.ext
  match a with
  | ⟨0, _⟩ => show win0_1.index t (0 : Fin 2) * 512 + 1 * r.val = b.val; rw [e0, hb]; omega
  | ⟨1, _⟩ => show win0_1.index t (1 : Fin 2) * 1024 + 1 * j.val = n.val; rw [e1, hn]; omega

/-- The reactant words' block at point t is entries 1024 (t % 4) … of the column. -/
theorem reactantBlk_apply (t : Fin cfg0.N) (j : Fin 1024) (n : Fin 4096)
    (hn : n.val = 1024 * (t.val % 4) + j.val) :
    reactantBlk V c t (ix1 j) = reactant V c (ix1 n) := by
  obtain ⟨-, -, -, -, e0, -⟩ := blockIndex t
  unfold reactantBlk Term1.blk
  rw [View.read_apply]
  show V c main_arg3 _ = V c main_arg3 _
  congr 1
  funext a
  apply Fin.ext
  match a with
  | ⟨0, _⟩ => show win0_2.index t (0 : Fin 1) * 1024 + 1 * j.val = n.val; rw [e0, hn]; omega

/-- The product words' block at point t is entries 1024 (t % 4) … of the column. -/
theorem productBlk_apply (t : Fin cfg0.N) (j : Fin 1024) (n : Fin 4096)
    (hn : n.val = 1024 * (t.val % 4) + j.val) :
    productBlk V c t (ix1 j) = product V c (ix1 n) := by
  obtain ⟨-, -, -, -, -, e0, -⟩ := blockIndex t
  unfold productBlk Term1.blk
  rw [View.read_apply]
  show V c main_arg4 _ = V c main_arg4 _
  congr 1
  funext a
  apply Fin.ext
  match a with
  | ⟨0, _⟩ => show win0_3.index t (0 : Fin 1) * 1024 + 1 * j.val = n.val; rw [e0, hn]; omega

/-- What grid point n adds at entry (r, s) of its batch tile (zero past the grid, where it is never read). -/
def pointAdd (n : ℕ) (r : Fin 512) (s : Fin 1024) : EReal :=
  if h : n < cfg0.N then
    PayloadValue.contrib1 (abundBlk V c ⟨n, h⟩) (ratesBlk V c ⟨n, h⟩) (reactantBlk V c ⟨n, h⟩) (productBlk V c ⟨n, h⟩) r s
  else 0

theorem pointAdd_of_lt (t : Fin cfg0.N) (r : Fin 512) (s : Fin 1024) :
    pointAdd V c t.val r s
      = PayloadValue.contrib1 (abundBlk V c t) (ratesBlk V c t) (reactantBlk V c t) (productBlk V c t) r s := by
  unfold pointAdd
  rw [dif_pos t.isLt]

/-- At the first reaction block of a batch tile the accumulator is that block's contribution. -/
theorem acc_first_apply (t : Fin cfg0.N) (h0 : t.val % 4 = 0) (r : Fin 512) (s : Fin 1024) :
    (Term1.acc V c t.val t.isLt : Vec Ideal S512x1024 .f32) (ix2 r s) = pointAdd V c t.val r s := by
  refine (congrFun (Term1.acc_first V c t h0) (ix2 r s)).trans ?_
  refine (PayloadValue.k0_pay2_apply (abundBlk V c t) (ratesBlk V c t) (reactantBlk V c t) (productBlk V c t)
    (k0_pay1 (F := Ideal)) r s).trans ?_
  rw [PayloadValue.k0_pay1_apply, zero_add, pointAdd_of_lt]

/-- At a later block it is what the point before left plus this block's contribution. -/
theorem acc_next_apply (t : Fin cfg0.N) (h0 : ¬ t.val % 4 = 0) (r : Fin 512) (s : Fin 1024) :
    (Term1.acc V c t.val t.isLt : Vec Ideal S512x1024 .f32) (ix2 r s)
      = (Term1.acc V c (t.val - 1) (Nat.lt_of_le_of_lt (Nat.sub_le _ _) t.isLt) : Vec Ideal S512x1024 .f32) (ix2 r s)
        + pointAdd V c t.val r s := by
  refine (congrFun (Term1.acc_next V c t h0) (ix2 r s)).trans ?_
  refine (PayloadValue.k0_pay2_apply (abundBlk V c t) (ratesBlk V c t) (reactantBlk V c t) (productBlk V c t)
    (Term1.acc V c (t.val - 1) (Nat.lt_of_le_of_lt (Nat.sub_le _ _) t.isLt)) r s).trans ?_
  rw [pointAdd_of_lt]

/-- THE INVARIANT: after point n the accumulator holds, at (r, s), the contributions of the reaction blocks of
    n's batch tile up to n's own. -/
theorem acc_apply : ∀ (n : ℕ) (h : n < cfg0.N) (r : Fin 512) (s : Fin 1024),
    (Term1.acc V c n h : Vec Ideal S512x1024 .f32) (ix2 r s)
      = ∑ k ∈ Finset.range (n % 4 + 1), pointAdd V c (4 * (n / 4) + k) r s := by
  intro n
  induction n with
  | zero =>
    intro h r s
    refine (acc_first_apply V c ⟨0, h⟩ rfl r s).trans ?_
    rw [Finset.sum_range_one]
  | succ n ih =>
    intro h r s
    by_cases h0 : (n + 1) % 4 = 0
    · refine (acc_first_apply V c ⟨n + 1, h⟩ h0 r s).trans ?_
      rw [h0, Finset.sum_range_one]
      show pointAdd V c (n + 1) r s = _
      congr 1
      omega
    · refine (acc_next_apply V c ⟨n + 1, h⟩ h0 r s).trans ?_
      show (Term1.acc V c n (Nat.lt_of_succ_lt h) : Vec Ideal S512x1024 .f32) (ix2 r s) + pointAdd V c (n + 1) r s = _
      rw [ih (Nat.lt_of_succ_lt h) r s]
      have e1 : (n + 1) % 4 = n % 4 + 1 := by omega
      have e2 : (n + 1) / 4 = n / 4 := by omega
      rw [e1, e2, Finset.sum_range_succ _ (n % 4 + 1)]
      congr 2
      omega

end

section
variable (V : (c : Dev nD) → (b : Ref sig .tc) → Buf (Elt Ideal) ((c : Thread nD τ).loc b)) (c : Dev nD)

/-- Reaction n's term for sample b times the one-hot entry of its product species at lane s (zero past the
    4096 reactions, where it is never read). -/
def summand (b : Fin 4096) (s : Fin 1024) (n : ℕ) : EReal :=
  if h : n < 4096 then
    term1 (abund V c) (rates V c) (reactant V c) b ⟨n, h⟩ * oh s.val (product V c (ix1 ⟨n, h⟩))
  else 0

/-- A point's contribution at (r, s), read off the tables: the 1024 reactions of block t % 4, for sample
    512 (t / 4) + r. -/
theorem pointAdd_eq (t : Fin cfg0.N) (r : Fin 512) (s : Fin 1024) (b : Fin 4096)
    (hb : b.val = 512 * (t.val / 4) + r.val) :
    pointAdd V c t.val r s = ∑ j : Fin 1024, summand V c b s (t.val % 4 * 1024 + j.val) := by
  rw [pointAdd_of_lt]
  unfold PayloadValue.contrib1
  refine Finset.sum_congr rfl fun j _ => ?_
  have hk : t.val % 4 < 4 := Nat.mod_lt _ (by decide)
  have hj : j.val < 1024 := j.isLt
  have hlt : t.val % 4 * 1024 + j.val < 4096 := by omega
  have hn : (⟨t.val % 4 * 1024 + j.val, hlt⟩ : Fin 4096).val = 1024 * (t.val % 4) + j.val := by
    show t.val % 4 * 1024 + j.val = _; omega
  unfold summand
  rw [dif_pos hlt]
  unfold term1 pick
  rw [ratesBlk_apply V c t r j b ⟨_, hlt⟩ hb hn, reactantBlk_apply V c t j ⟨_, hlt⟩ hn,
    productBlk_apply V c t j ⟨_, hlt⟩ hn]
  congr 2
  refine Finset.sum_congr rfl fun s' _ => ?_
  rw [abundBlk_apply V c t r s' b hb]

/-- The whole first-order contribution as four blocks of 1024 reactions. -/
theorem out1_blocks (b : Fin 4096) (s : Fin 1024) :
    out1 (abund V c) (rates V c) (reactant V c) (product V c) b s
      = ∑ k : Fin 4, ∑ j : Fin 1024, summand V c b s (k.val * 1024 + j.val) := by
  rw [← Cert.LibOneHot.sum_blocks 4 1024 (summand V c b s)]
  unfold out1
  show ∑ n : Fin 4096, _ = ∑ n : Fin 4096, summand V c b s n.val
  refine Finset.sum_congr rfl fun n _ => ?_
  unfold summand
  rw [dif_pos n.isLt]

/-- What the result array ends holding. -/
abbrev result : Buf (Elt Ideal) ((c : Thread nD τ).loc main_v4) :=
  fun i => out1 (abund V c) (rates V c) (reactant V c) (product V c) (i 0) (i 1)

/-- After the last reaction block of a batch tile the accumulator is the result's block for that tile. -/
theorem acc_last (t : Fin cfg0.N) (h3 : t.val % 4 = 3) (r : Fin 512) (s : Fin 1024) (b : Fin 4096)
    (hb : b.val = 512 * (t.val / 4) + r.val) :
    (Term1.acc V c t.val t.isLt : Vec Ideal S512x1024 .f32) (ix2 r s)
      = out1 (abund V c) (rates V c) (reactant V c) (product V c) b s := by
  have hN : cfg0.N = 32 := rfl
  have ht : t.val < 32 := hN ▸ t.isLt
  have step : ∀ k : ℕ, k < 4 → pointAdd V c (4 * (t.val / 4) + k) r s
      = ∑ j : Fin 1024, summand V c b s (k * 1024 + j.val) := by
    intro k hk
    have hlt : 4 * (t.val / 4) + k < cfg0.N := by show 4 * (t.val / 4) + k < 32; omega
    have hd : (4 * (t.val / 4) + k) / 4 = t.val / 4 := by omega
    have hm : (4 * (t.val / 4) + k) % 4 = k := by omega
    have := pointAdd_eq V c ⟨4 * (t.val / 4) + k, hlt⟩ r s b (by show b.val = 512 * ((4 * (t.val / 4) + k) / 4) + r.val; rw [hd]; exact hb)
    refine this.trans ?_
    show ∑ j : Fin 1024, summand V c b s ((4 * (t.val / 4) + k) % 4 * 1024 + j.val) = _
    rw [hm]
  rw [acc_apply V c t.val t.isLt r s, h3, out1_blocks, Finset.sum_range]
  exact Finset.sum_congr rfl fun k _ => step k.val k.isLt

/-- WHAT A WRITING POINT WRITES BACK is its block of the result. -/
theorem flushed_eq (t : Fin cfg0.N) (hf : (cfg0.win 4).flush t = true) :
    (Term1.dat V c).flushed 4 t = ((cfg0.win 4).blk t).view.read (Elt Ideal) (result V c) := by
  have h3 : t.val % 4 = 3 := (flush0_4 t).mp hf
  have hN : cfg0.N = 32 := rfl
  have ht : t.val < 32 := hN ▸ t.isLt
  obtain ⟨-, -, -, -, -, -, e0, e1⟩ := blockIndex t
  show (cfg0.win 4).cut (grid0.coords t) ((Term1.dat V c).after 4 t) = _
  rw [Term1.dat_after_out]
  funext j
  obtain ⟨r, s, rfl⟩ : ∃ (r : Fin 512) (s : Fin 1024), j = ix2 r s := ⟨j 0, j 1, eq_ix2 j⟩
  have hr : r.val < 512 := r.isLt
  have hlt : 512 * (t.val / 4) + r.val < 4096 := by omega
  refine (acc_last V c t h3 r s ⟨_, hlt⟩ rfl).trans ?_
  show result V c (ix2 ⟨512 * (t.val / 4) + r.val, hlt⟩ s) = result V c (((cfg0.win 4).blk t).view.emb (ix2 r s))
  congr 1
  funext a
  apply Fin.ext
  match a with
  | ⟨0, _⟩ => show 512 * (t.val / 4) + r.val = win0_4.index t (0 : Fin 2) * 512 + 1 * r.val; rw [e0]; omega
  | ⟨1, _⟩ => show s.val = win0_4.index t (1 : Fin 2) * 1024 + 1 * s.val; rw [e1]; omega

/-- An index of the result array is in point t's block iff each coordinate is in the block's range. -/
theorem mem_blk (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4).slice (win0_4.rect t)).set ↔ _
  rw [View.set_slice_whole, Rect.mem_set_unit]
  exact Iff.rfl

/-- Every row of the result array lies in the block of the last point of its batch tile. -/
theorem cover (i : S4096x1024.Idx) :
    ∃ t : Fin cfg0.N, (cfg0.win 4).flush t = true ∧ i ∈ ((cfg0.win 4).blk t).view.set := by
  have hN : cfg0.N = 32 := rfl
  have hi0 : (i 0).val < 4096 := (i 0).isLt
  have hi1 : (i 1).val < 1024 := (i 1).isLt
  have hlt : 4 * ((i 0).val / 512) + 3 < cfg0.N := by show 4 * ((i 0).val / 512) + 3 < 32; omega
  refine ⟨⟨4 * ((i 0).val / 512) + 3, hlt⟩, (flush0_4 _).mpr (by show (4 * ((i 0).val / 512) + 3) % 4 = 3; omega), ?_⟩
  obtain ⟨-, -, -, -, -, -, e0, e1⟩ := blockIndex ⟨4 * ((i 0).val / 512) + 3, hlt⟩
  have e0' : win0_4.index ⟨4 * ((i 0).val / 512) + 3, hlt⟩ (0 : Fin 2) = (i 0).val / 512 := by
    rw [e0]; show (4 * ((i 0).val / 512) + 3) / 4 = _; omega
  rw [mem_blk]
  intro a
  match a with
  | ⟨0, _⟩ => show win0_4.index _ (0 : Fin 2) * 512 ≤ (i 0).val ∧ (i 0).val < win0_4.index _ (0 : Fin 2) * 512 + 512; rw [e0']; omega
  | ⟨1, _⟩ => show win0_4.index _ (1 : Fin 2) * 1024 ≤ (i 1).val ∧ (i 1).val < win0_4.index _ (1 : Fin 2) * 1024 + 1024; rw [e1]; omega

end

/-- The first-order region's result array after the region, from the arrays it was entered with. -/
theorem result_eq (V : (c : Dev nD) → (b : Ref sig .tc) → Buf (Elt Ideal) ((c : Thread nD τ).loc b)) (c : Dev nD) :
    (Term1.dat V c).arrAt 4 cfg0.N
      = fun i => out1 (V c main_arg0) (V c main_arg1) (V c main_arg3) (V c main_arg4) (i 0) (i 1) :=
  (Term1.dat V c).arrAt_eq_of_cover 4 (result V c) (flushed_eq V c) (cover)

end Cert.KernelIdeal.Term1Value

end
-- ==== Proof.Term2Value.lean ====
/-
  What the second-order region leaves in its result array, over the extended reals: the first-order result it was
  handed plus the sum over all 16384 second-order reactions of the reaction's term times the one-hot entry of its
  product species.

  The grid has 8 × 16 points; point t = 16·q + k works on batch tile q (samples 512·q … 512·q + 511) and reaction
  block k (reactions 1024·k … 1024·k + 1023). Within a tile the accumulator restarts at block 0 from the first-order
  result's entries and every block adds its own contribution, so after block k it holds those entries plus the
  contributions of blocks 0 … k (induction on k). The tile is written back once, after block 15; by then the sixteen
  block sums make up the sum over all reactions, because a sum over 16·1024 indices is the sum of its 16 blocks of
  1024 and addition of extended reals regroups freely. The eight tiles cover the result array.
-/
import proofs.«430890_j60138132078971_1_alg».proof.Proof.Term2
import proofs.«430890_j60138132078971_1_alg».proof.Proof.PayloadValue
import proofs.«430890_j60138132078971_1_alg».proof.Proof.Spec
import proofs.«430890_j60138132078971_1_alg».proof.Proof.LibOneHot
import Idealize.ShloMosaic.Lib.Pipeline.Value
import Idealize.ShloMosaic.Lib.ValueIdx

set_option maxRecDepth 16384

noncomputable section

namespace Cert.KernelIdeal.Term2Value

open Cert.KernelIdeal Cert.KernelIdeal.Gen Cert.Reaction
open Cert.KernelIdeal.PayloadValue
open Idealize.ShloMosaic Idealize.ShloMosaic.TcCoe Idealize.ShloMosaic.ValueIdx
open Idealize.SL Idealize.SL.Sem
open Idealize.ShloMosaic.Pipeline (Dat Cfg Window)

/-- A first-order result array `y1` plus the second-order contribution, entry by entry. -/
def plus2 (y1 y : (⟨2, ![4096, 1024]⟩ : Shape).Idx → EReal) (rate2 : (⟨2, ![4096, 16384]⟩ : Shape).Idx → EReal)
    (ra rb p2 : (⟨1, ![16384]⟩ : Shape).Idx → BitVec 32) : (⟨2, ![4096, 1024]⟩ : Shape).Idx → EReal :=
  fun i => y1 i + out2c y rate2 ra rb p2 (i 0) (i 1)

/-! ## The blocks and the arrays, by their literal types -/

/-- The block indices of the seven windows at grid point `t` = 16·(batch tile) + (reaction block), in closed form:
    the abundance, first-order-result and output windows follow the batch tile, the three word windows the reaction
    block, the rate window both. -/
theorem block_index : ∀ t : Fin cfg1.N,
    win1_0.index t (0 : Fin 2) = t.val / 16 ∧ win1_0.index t (1 : Fin 2) = 0
    ∧ win1_1.index t (0 : Fin 2) = t.val / 16 ∧ win1_1.index t (1 : Fin 2) = t.val % 16
    ∧ win1_2.index t (0 : Fin 1) = t.val % 16
    ∧ win1_3.index t (0 : Fin 1) = t.val % 16
    ∧ win1_4.index t (0 : Fin 1) = t.val % 16
    ∧ win1_5.index t (0 : Fin 2) = t.val / 16 ∧ win1_5.index t (1 : Fin 2) = 0
    ∧ win1_6.index t (0 : Fin 2) = t.val / 16 ∧ win1_6.index t (1 : Fin 2) = 0 :=
  (by decide +kernel : ∀ t : Fin grid1.N, _)

section Blocks

variable (V : (c : Dev nD) → (b : Ref sig .tc) → Buf (Elt Ideal) ((c : Thread nD τ).loc b)) (c : Dev nD)

/-- The abundance table, the rate table, the two reactant columns, the product column and the first-order result. -/
abbrev abundArr : (⟨2, ![4096, 1024]⟩ : Shape).Idx → EReal := V c main_arg0
abbrev rateArr : (⟨2, ![4096, 16384]⟩ : Shape).Idx → EReal := V c main_arg2
abbrev firstCol : (⟨1, ![16384]⟩ : Shape).Idx → BitVec 32 := V c main_v1
abbrev secondCol : (⟨1, ![16384]⟩ : Shape).Idx → BitVec 32 := V c main_v3
abbrev prodCol : (⟨1, ![16384]⟩ : Shape).Idx → BitVec 32 := V c main_arg6
abbrev order1Arr : (⟨2, ![4096, 1024]⟩ : Shape).Idx → EReal := V c main_v4

/-- Their blocks at grid point `t`. -/
abbrev abundBlk (t : Fin cfg1.N) : Vec Ideal S512x1024 .f32 := Term2.blk V c 0 t
abbrev rateBlk (t : Fin cfg1.N) : Vec Ideal S512x1024 .f32 := Term2.blk V c 1 t
abbrev firstBlk (t : Fin cfg1.N) : Vec Ideal S1024 .i32 := Term2.blk V c 2 t
abbrev secondBlk (t : Fin cfg1.N) : Vec Ideal S1024 .i32 := Term2.blk V c 3 t
abbrev prodBlk (t : Fin cfg1.N) : Vec Ideal S1024 .i32 := Term2.blk V c 4 t
abbrev order1Blk (t : Fin cfg1.N) : Vec Ideal S512x1024 .f32 := Term2.blk V c 5 t

/-- Row r of the abundance block at point t is row 512·(t / 16) + r of the table. -/
theorem abundBlk_apply (t : Fin cfg1.N) (r : Fin 512) (s : Fin 1024) (b : Fin 4096)
    (hb : b.val = 512 * (t.val / 16) + r.val) :
    abundBlk V c t (ix2 r s) = abundArr V c (ix2 b s) := by
  obtain ⟨e0, e1, -⟩ := block_index t
  unfold abundBlk Term2.blk
  rw [View.read_apply]
  show V c main_arg0 _ = V c main_arg0 _
  congr 1
  funext a
  apply Fin.ext
  match a with
  | ⟨0, _⟩ => show win1_0.index t (0 : Fin 2) * 512 + 1 * r.val = b.val; rw [e0, hb]; omega
  | ⟨1, _⟩ => show win1_0.index t (1 : Fin 2) * 1024 + 1 * s.val = s.val; rw [e1]; omega

/-- Entry (r, j) of the rate block at point t is entry (512·(t / 16) + r, 1024·(t % 16) + j) of the rate table. -/
theorem rateBlk_apply (t : Fin cfg1.N) (r : Fin 512) (j : Fin 1024) (b : Fin 4096) (n : Fin 16384)
    (hb : b.val = 512 * (t.val / 16) + r.val) (hn : n.val = 1024 * (t.val % 16) + j.val) :
    rateBlk V c t (ix2 r j) = rateArr V c (ix2 b n) := by
  obtain ⟨-, -, e0, e1, -⟩ := block_index t
  unfold rateBlk Term2.blk
  rw [View.read_apply]
  show V c main_arg2 _ = V c main_arg2 _
  congr 1
  funext a
  apply Fin.ext
  match a with
  | ⟨0, _⟩ => show win1_1.index t (0 : Fin 2) * 512 + 1 * r.val = b.val; rw [e0, hb]; omega
  | ⟨1, _⟩ => show win1_1.index t (1 : Fin 2) * 1024 + 1 * j.val = n.val; rw [e1, hn]; omega

/-- Word j of each index-word block at point t is word 1024·(t % 16) + j of its column. -/
theorem firstBlk_apply (t : Fin cfg1.N) (j : Fin 1024) (n : Fin 16384) (hn : n.val = 1024 * (t.val % 16) + j.val) :
    firstBlk V c t (ix1 j) = firstCol V c (ix1 n) := by
  obtain ⟨-, -, -, -, e0, -⟩ := block_index t
  unfold firstBlk Term2.blk
  rw [View.read_apply]
  show V c main_v1 _ = V c main_v1 _
  congr 1
  funext a
  apply Fin.ext
  match a with
  | ⟨0, _⟩ => show win1_2.index t (0 : Fin 1) * 1024 + 1 * j.val = n.val; rw [e0, hn]; omega

theorem secondBlk_apply (t : Fin cfg1.N) (j : Fin 1024) (n : Fin 16384) (hn : n.val = 1024 * (t.val % 16) + j.val) :
    secondBlk V c t (ix1 j) = secondCol V c (ix1 n) := by
  obtain ⟨-, -, -, -, -, e0, -⟩ := block_index t
  unfold secondBlk Term2.blk
  rw [View.read_apply]
  show V c main_v3 _ = V c main_v3 _
  congr 1
  funext a
  apply Fin.ext
  match a with
  | ⟨0, _⟩ => show win1_3.index t (0 : Fin 1) * 1024 + 1 * j.val = n.val; rw [e0, hn]; omega

theorem prodBlk_apply (t : Fin cfg1.N) (j : Fin 1024) (n : Fin 16384) (hn : n.val = 1024 * (t.val % 16) + j.val) :
    prodBlk V c t (ix1 j) = prodCol V c (ix1 n) := by
  obtain ⟨-, -, -, -, -, -, e0, -⟩ := block_index t
  unfold prodBlk Term2.blk
  rw [View.read_apply]
  show V c main_arg6 _ = V c main_arg6 _
  congr 1
  funext a
  apply Fin.ext
  match a with
  | ⟨0, _⟩ => show win1_4.index t (0 : Fin 1) * 1024 + 1 * j.val = n.val; rw [e0, hn]; omega

/-- Row r of the first-order result's block at point t is row 512·(t / 16) + r of that result. -/
theorem order1Blk_apply (t : Fin cfg1.N) (r : Fin 512) (s : Fin 1024) (b : Fin 4096)
    (hb : b.val = 512 * (t.val / 16) + r.val) :
    order1Blk V c t (ix2 r s) = order1Arr V c (ix2 b s) := by
  obtain ⟨-, -, -, -, -, -, -, e0, e1, -⟩ := block_index t
  unfold order1Blk Term2.blk
  rw [View.read_apply]
  show V c main_v4 _ = V c main_v4 _
  congr 1
  funext a
  apply Fin.ext
  match a with
  | ⟨0, _⟩ => show win1_5.index t (0 : Fin 2) * 512 + 1 * r.val = b.val; rw [e0, hb]; omega
  | ⟨1, _⟩ => show win1_5.index t (1 : Fin 2) * 1024 + 1 * s.val = s.val; rw [e1]; omega

/-! ## The accumulator after each point of a batch tile -/

/-- The accumulator does not depend on how its point is written. -/
theorem acc_congr (n n' : ℕ) (h : n < cfg1.N) (h' : n' < cfg1.N) (e : n = n') :
    Term2.acc V c n h = Term2.acc V c n' h' := by subst e; rfl

/-- What the reaction block handled at point `n` adds to entry (r, s) of its batch tile (zero past the grid). -/
def addend (n : ℕ) (r : Fin 512) (s : Fin 1024) : EReal :=
  if h : n < cfg1.N then
    contrib2 (abundBlk V c ⟨n, h⟩) (rateBlk V c ⟨n, h⟩) (firstBlk V c ⟨n, h⟩) (secondBlk V c ⟨n, h⟩) (prodBlk V c ⟨n, h⟩) r s
  else 0

/-- After reaction block k of batch tile q the accumulator holds, at (r, s), the first-order result's entry plus the
    contributions of the blocks 0 … k: it restarts from that entry at block 0 and each later block adds its own. -/
theorem acc_apply (q : ℕ) : ∀ (k : ℕ) (hk : k < 16) (h : 16 * q + k < cfg1.N) (h0 : 16 * q < cfg1.N) (r : Fin 512) (s : Fin 1024),
    Term2.acc V c (16 * q + k) h (ix2 r s)
      = order1Blk V c ⟨16 * q, h0⟩ (ix2 r s) + ∑ k' ∈ Finset.range (k + 1), addend V c (16 * q + k') r s
  | 0, _, h, h0, r, s => by
    have hm : (⟨16 * q, h0⟩ : Fin cfg1.N).val % 16 = 0 := Nat.mul_mod_right 16 q
    have e := Term2.acc_first V c ⟨16 * q, h0⟩ hm
    rw [acc_congr V c (16 * q + 0) (16 * q) h h0 (Nat.add_zero _)]
    refine (congrFun e (ix2 r s)).trans ?_
    refine (k1_pay2_apply (abundBlk V c ⟨16 * q, h0⟩) (rateBlk V c ⟨16 * q, h0⟩) (firstBlk V c ⟨16 * q, h0⟩)
      (secondBlk V c ⟨16 * q, h0⟩) (prodBlk V c ⟨16 * q, h0⟩) (k1_pay1 (order1Blk V c ⟨16 * q, h0⟩)) r s).trans ?_
    rw [k1_pay1_apply, Finset.sum_range_one]
    unfold addend
    rw [dif_pos (show 16 * q + 0 < cfg1.N from h)]
    rfl
  | k + 1, hk, h, h0, r, s => by
    have hne : ¬ (⟨16 * q + (k + 1), h⟩ : Fin cfg1.N).val % 16 = 0 := by
      show ¬ (16 * q + (k + 1)) % 16 = 0
      omega
    have e := Term2.acc_next V c ⟨16 * q + (k + 1), h⟩ hne
    have hk' : 16 * q + k < cfg1.N := by omega
    refine (congrFun e (ix2 r s)).trans ?_
    refine (k1_pay2_apply (abundBlk V c ⟨16 * q + (k + 1), h⟩) (rateBlk V c ⟨16 * q + (k + 1), h⟩)
      (firstBlk V c ⟨16 * q + (k + 1), h⟩) (secondBlk V c ⟨16 * q + (k + 1), h⟩) (prodBlk V c ⟨16 * q + (k + 1), h⟩)
      (Term2.acc V c ((⟨16 * q + (k + 1), h⟩ : Fin cfg1.N).val - 1) (Nat.lt_of_le_of_lt (Nat.sub_le _ _) h)) r s).trans ?_
    rw [acc_congr V c ((⟨16 * q + (k + 1), h⟩ : Fin cfg1.N).val - 1) (16 * q + k) _ hk' (by show 16 * q + (k + 1) - 1 = 16 * q + k; omega),
      acc_apply q k (by omega) hk' h0 r s, Finset.sum_range_succ _ (k + 1), add_assoc]
    congr 2
    unfold addend
    rw [dif_pos h]

/-! ## From the blocks to the arrays -/

/-- Reaction `n`'s term for sample `b`, collected at species `s` (zero past the table): the summand of the
    second-order contribution. -/
def summand (b : Fin 4096) (s : Fin 1024) (n : ℕ) : EReal :=
  if h : n < 16384 then
    (pick (abundArr V c) b (firstCol V c (ix1 ⟨n, h⟩)) * pick (abundArr V c) b (secondCol V c (ix1 ⟨n, h⟩))
      * rateArr V c (ix2 b ⟨n, h⟩)) * oh s.val (prodCol V c (ix1 ⟨n, h⟩))
  else 0

/-- Reaction block k of batch tile q adds, at row r of the tile, the terms of reactions 1024·k … 1024·k + 1023 of
    sample 512·q + r: each block entry is read where it sits in its array. -/
theorem addend_eq (q k : ℕ) (hq : q < 8) (hk : k < 16) (r : Fin 512) (s : Fin 1024) (b : Fin 4096)
    (hb : b.val = 512 * q + r.val) :
    addend V c (16 * q + k) r s = ∑ j : Fin 1024, summand V c b s (k * 1024 + j.val) := by
  have hN : cfg1.N = 128 := N_1
  have h : 16 * q + k < cfg1.N := by omega
  have hdiv : (16 * q + k) / 16 = q := by omega
  have hmod : (16 * q + k) % 16 = k := by omega
  unfold addend
  rw [dif_pos h]
  unfold contrib2
  refine Finset.sum_congr rfl fun j _ => ?_
  have hn : k * 1024 + j.val < 16384 := by have := j.isLt; omega
  have hb' : b.val = 512 * ((⟨16 * q + k, h⟩ : Fin cfg1.N).val / 16) + r.val := by
    show b.val = 512 * ((16 * q + k) / 16) + r.val
    rw [hdiv]; exact hb
  have hn' : (⟨k * 1024 + j.val, hn⟩ : Fin 16384).val = 1024 * ((⟨16 * q + k, h⟩ : Fin cfg1.N).val % 16) + j.val := by
    show k * 1024 + j.val = 1024 * ((16 * q + k) % 16) + j.val
    rw [hmod]; omega
  have ea := firstBlk_apply V c ⟨16 * q + k, h⟩ j ⟨k * 1024 + j.val, hn⟩ hn'
  have eb := secondBlk_apply V c ⟨16 * q + k, h⟩ j ⟨k * 1024 + j.val, hn⟩ hn'
  have ep := prodBlk_apply V c ⟨16 * q + k, h⟩ j ⟨k * 1024 + j.val, hn⟩ hn'
  have ek := rateBlk_apply V c ⟨16 * q + k, h⟩ r j b ⟨k * 1024 + j.val, hn⟩ hb' hn'
  have ey : ∀ s' : Fin 1024, abundBlk V c ⟨16 * q + k, h⟩ (ix2 r s') = abundArr V c (ix2 b s') :=
    fun s' => abundBlk_apply V c ⟨16 * q + k, h⟩ r s' b hb'
  unfold summand
  rw [dif_pos hn, ea, eb, ep, ek]
  simp only [ey]
  rfl

/-- The sixteen blocks of a batch tile together add the whole second-order contribution of the sample. -/
theorem sum_addend (q : ℕ) (hq : q < 8) (r : Fin 512) (s : Fin 1024) (b : Fin 4096) (hb : b.val = 512 * q + r.val) :
    ∑ k' ∈ Finset.range 16, addend V c (16 * q + k') r s
      = out2c (abundArr V c) (rateArr V c) (firstCol V c) (secondCol V c) (prodCol V c) b s := by
  rw [Finset.sum_range fun k' => addend V c (16 * q + k') r s,
    Finset.sum_congr rfl fun (k' : Fin 16) _ => addend_eq V c q k'.val hq k'.isLt r s b hb,
    ← Cert.LibOneHot.sum_blocks 16 1024 (summand V c b s)]
  unfold out2c
  show ∑ n : Fin 16384, summand V c b s n.val = _
  refine Finset.sum_congr rfl fun n _ => ?_
  unfold summand
  rw [dif_pos n.isLt]

/-- At the last reaction block of a batch tile the accumulator holds the result: entry (r, s) of the tile is the
    first-order result's entry plus the second-order contribution of sample 512·(t / 16) + r. -/
theorem acc_flush (t : Fin cfg1.N) (ht : t.val % 16 = 15) (r : Fin 512) (s : Fin 1024) (b : Fin 4096)
    (hb : b.val = 512 * (t.val / 16) + r.val) :
    Term2.acc V c t.val t.isLt (ix2 r s)
      = plus2 (V c main_v4) (V c main_arg0) (V c main_arg2) (V c main_v1) (V c main_v3) (V c main_arg6) (ix2 b s) := by
  have hN : cfg1.N = 128 := N_1
  have ht' : t.val < cfg1.N := t.isLt
  have h0 : 16 * (t.val / 16) < cfg1.N := by omega
  have h15 : 16 * (t.val / 16) + 15 < cfg1.N := by omega
  have hb0 : b.val = 512 * ((⟨16 * (t.val / 16), h0⟩ : Fin cfg1.N).val / 16) + r.val := by
    show b.val = 512 * (16 * (t.val / 16) / 16) + r.val
    omega
  rw [acc_congr V c t.val (16 * (t.val / 16) + 15) t.isLt h15 (by omega),
    acc_apply V c (t.val / 16) 15 (by omega) h15 h0 r s,
    order1Blk_apply V c ⟨16 * (t.val / 16), h0⟩ r s b hb0,
    sum_addend V c (t.val / 16) (by omega) r s b hb]
  rfl

/-! ## The write-backs and the result array -/

/-- What the last block of a batch tile writes back is that tile's block of the result. -/
theorem flushed_eq (t : Fin cfg1.N) (hf : (cfg1.win 6).flush t = true) :
    (Term2.dat V c).flushed 6 t
      = ((cfg1.win 6).blk t).view.read (Elt Ideal)
          (plus2 (V c main_v4) (V c main_arg0) (V c main_arg2) (V c main_v1) (V c main_v3) (V c main_arg6)) := by
  have ht : t.val % 16 = 15 := (flush1_6 t).mp hf
  obtain ⟨-, -, -, -, -, -, -, -, -, e0, e1⟩ := block_index t
  have hN : cfg1.N = 128 := N_1
  show (cfg1.win 6).cut (grid1.coords t) ((Term2.dat V c).after 6 t) = _
  rw [Term2.dat_after_out]
  funext j
  have hr : (j 0).val < 512 := (j 0).isLt
  have hs : (j 1).val < 1024 := (j 1).isLt
  have hb : 512 * (t.val / 16) + (j 0).val < 4096 := by have := t.isLt; omega
  have ej : (cfg1.win 6).xinj (grid1.coords t) j = ix2 (⟨(j 0).val, hr⟩ : Fin 512) (⟨(j 1).val, hs⟩ : Fin 1024) := by
    funext a
    match a with
    | ⟨0, _⟩ => rfl
    | ⟨1, _⟩ => rfl
  rw [View.read_apply]
  refine (congrArg (Term2.acc V c t.val t.isLt) ej).trans ?_
  refine (acc_flush V c t ht ⟨(j 0).val, hr⟩ ⟨(j 1).val, hs⟩ ⟨512 * (t.val / 16) + (j 0).val, hb⟩ rfl).trans ?_
  show plus2 (V c main_v4) (V c main_arg0) (V c main_arg2) (V c main_v1) (V c main_v3) (V c main_arg6) _
    = plus2 (V c main_v4) (V c main_arg0) (V c main_arg2) (V c main_v1) (V c main_v3) (V c main_arg6) _
  congr 1
  funext a
  apply Fin.ext
  match a with
  | ⟨0, _⟩ => show 512 * (t.val / 16) + (j 0).val = win1_6.index t (0 : Fin 2) * 512 + 1 * (j 0).val; rw [e0]; omega
  | ⟨1, _⟩ => show (j 1).val = win1_6.index t (1 : Fin 2) * 1024 + 1 * (j 1).val; rw [e1]; omega

/-- An entry of the result array lies in the block of point `t` when each coordinate is in the block's range. -/
theorem mem_outBlk (t : Fin cfg1.N) (i : (⟨2, ![4096, 1024]⟩ : Shape).Idx) :
    i ∈ ((cfg1.win 6).blk t).view.set
      ↔ ∀ a : Fin 2, win1_6.index t a * S512x1024.size a ≤ (i a).val ∧ (i a).val < win1_6.index t a * S512x1024.size a + S512x1024.size a := by
  show i ∈ ((View.whole main_v5).slice (win1_6.rect t)).set ↔ _
  rw [View.set_slice_whole, Rect.mem_set_unit]
  exact Iff.rfl

/-- Every entry of the result array is written back by the last block of its row's batch tile. -/
theorem covered (i : (⟨2, ![4096, 1024]⟩ : Shape).Idx) :
    ∃ t : Fin cfg1.N, (cfg1.win 6).flush t = true ∧ i ∈ ((cfg1.win 6).blk t).view.set := by
  have hN : cfg1.N = 128 := N_1
  have hi0 : (i 0).val < 4096 := (i 0).isLt
  have hi1 : (i 1).val < 1024 := (i 1).isLt
  have ht : 16 * ((i 0).val / 512) + 15 < cfg1.N := by omega
  obtain ⟨-, -, -, -, -, -, -, -, -, e0, e1⟩ := block_index ⟨16 * ((i 0).val / 512) + 15, ht⟩
  refine ⟨⟨16 * ((i 0).val / 512) + 15, ht⟩, (flush1_6 _).mpr (by show (16 * ((i 0).val / 512) + 15) % 16 = 15; omega), ?_⟩
  rw [mem_outBlk]
  intro a
  match a with
  | ⟨0, _⟩ =>
    show win1_6.index ⟨16 * ((i 0).val / 512) + 15, ht⟩ (0 : Fin 2) * 512 ≤ (i 0).val
      ∧ (i 0).val < win1_6.index ⟨16 * ((i 0).val / 512) + 15, ht⟩ (0 : Fin 2) * 512 + 512
    rw [e0]
    show (16 * ((i 0).val / 512) + 15) / 16 * 512 ≤ (i 0).val ∧ (i 0).val < (16 * ((i 0).val / 512) + 15) / 16 * 512 + 512
    omega
  | ⟨1, _⟩ =>
    show win1_6.index ⟨16 * ((i 0).val / 512) + 15, ht⟩ (1 : Fin 2) * 1024 ≤ (i 1).val
      ∧ (i 1).val < win1_6.index ⟨16 * ((i 0).val / 512) + 15, ht⟩ (1 : Fin 2) * 1024 + 1024
    rw [e1]
    omega

end Blocks

/-- The second-order region's result array after the region, from the arrays it was entered with (`main_v4` the
    first-order result, `main_v1` / `main_v3` the two reactant columns). -/
theorem result_eq (V : (c : Dev nD) → (b : Ref sig .tc) → Buf (Elt Ideal) ((c : Thread nD τ).loc b)) (c : Dev nD) :
    (Term2.dat V c).arrAt 6 cfg1.N
      = plus2 (V c main_v4) (V c main_arg0) (V c main_arg2) (V c main_v1) (V c main_v3) (V c main_arg6) :=
  (Term2.dat V c).arrAt_eq_of_cover 6
    (plus2 (V c main_v4) (V c main_arg0) (V c main_arg2) (V c main_v1) (V c main_v3) (V c main_arg6))
    (flushed_eq V c) (covered)

end Cert.KernelIdeal.Term2Value

end
-- ==== Proof.KernelValue.lean ====
/-
  The idealized kernel's result array as the reaction term of its launch arguments.

  The second-order region leaves the first-order result it was handed plus its own sum; the first-order result is what
  the first region left, the first-order sum of the launch arguments; no item writes an argument, so each region finds
  the arguments as launched; and the two reactant columns the second region reads are columns 0 and 1 of the two-column
  table. Put together, entry (b, s) of the result is the first-order contribution plus the second-order one.
-/
import proofs.«430890_j60138132078971_1_alg».proof.Proof.Fold
import proofs.«430890_j60138132078971_1_alg».proof.Proof.Term1Value
import proofs.«430890_j60138132078971_1_alg».proof.Proof.Term2Value
import proofs.«430890_j60138132078971_1_alg».proof.Proof.Spec

set_option maxRecDepth 16384
set_option maxHeartbeats 1000000

noncomputable section

namespace Cert.KernelIdeal.KernelValue

open Cert.KernelIdeal Cert.KernelIdeal.Gen Cert.Reaction
open Idealize.ShloMosaic Idealize.ShloMosaic.TcCoe Idealize.ShloMosaic.ValueIdx
open Idealize.SL Idealize.SL.Sem

/-- The first-order sum depends only on its four arrays. -/
theorem out1_congr {y y' : (⟨2, ![4096, 1024]⟩ : Shape).Idx → EReal} {rate rate' : (⟨2, ![4096, 4096]⟩ : Shape).Idx → EReal}
    {r r' p p' : (⟨1, ![4096]⟩ : Shape).Idx → BitVec 32} (hy : y = y') (hrate : rate = rate') (hr : r = r') (hp : p = p') :
    (fun i : (⟨2, ![4096, 1024]⟩ : Shape).Idx => out1 y rate r p (i 0) (i 1))
      = fun i => out1 y' rate' r' p' (i 0) (i 1) := by
  subst hy hrate hr hp; rfl

/-- The sum of a first-order result and the second-order contribution depends only on its arrays. -/
theorem plus2_congr {a4 a4' a0 a0' : (⟨2, ![4096, 1024]⟩ : Shape).Idx → EReal} {a2 a2' : (⟨2, ![4096, 16384]⟩ : Shape).Idx → EReal}
    {av1 av3 a6 a6' : (⟨1, ![16384]⟩ : Shape).Idx → BitVec 32} (h4 : a4 = a4') (h0 : a0 = a0') (h2 : a2 = a2') (h6 : a6 = a6') :
    Term2Value.plus2 a4 a0 a2 av1 av3 a6 = Term2Value.plus2 a4' a0' a2' av1 av3 a6' := by
  subst h4 h0 h2 h6; rfl

/-- The first-order sum plus the second-order sum over the two columns of the reactant table is the whole reaction
    term. -/
theorem plus2_eq_G (y : (⟨2, ![4096, 1024]⟩ : Shape).Idx → EReal) (rate1 : (⟨2, ![4096, 4096]⟩ : Shape).Idx → EReal)
    (rate2 : (⟨2, ![4096, 16384]⟩ : Shape).Idx → EReal) (r1 p1 : (⟨1, ![4096]⟩ : Shape).Idx → BitVec 32)
    (r2 : (⟨2, ![16384, 2]⟩ : Shape).Idx → BitVec 32) (p2 av1 av3 : (⟨1, ![16384]⟩ : Shape).Idx → BitVec 32)
    (hv1 : ∀ n : Fin 16384, av1 (ix1 n) = r2 (ix2 n 0)) (hv3 : ∀ n : Fin 16384, av3 (ix1 n) = r2 (ix2 n 1)) :
    Term2Value.plus2 (fun i => out1 y rate1 r1 p1 (i 0) (i 1)) y rate2 av1 av3 p2 = G y rate1 rate2 r1 p1 r2 p2 :=
  funext fun i => congrArg (fun z : EReal => out1 y rate1 r1 p1 (i 0) (i 1) + z)
    (out2c_cols y rate2 r2 av1 av3 p2 hv1 hv3 (i 0) (i 1))

/-- The first-order result, as the second region finds it, is the first-order sum of the launch arguments. -/
theorem y1_eq (m : (ℓ : Loc nD τ sig) → Buf (Elt Ideal) ℓ) (c : Dev nD) :
    Fold.V2 m c main_v4 = fun i => out1 (m ((c.tc : Thread nD τ).loc main_arg0)) (m ((c.tc : Thread nD τ).loc main_arg1)) (m ((c.tc : Thread nD τ).loc main_arg3)) (m ((c.tc : Thread nD τ).loc main_arg4)) (i 0) (i 1) := by
  refine (Fold.V2_y1 m c).trans ?_
  refine (Term1Value.result_eq (Fold.V1 m) c).trans ?_
  exact out1_congr (Fold.V1_main_arg0 m c) (Fold.V1_main_arg1 m c) (Fold.V1_main_arg3 m c) (Fold.V1_main_arg4 m c)

/-- Entry n of each reactant column, as the second region finds it, is the table's entry (n, 0), resp. (n, 1). -/
theorem col0_eq (m : (ℓ : Loc nD τ sig) → Buf (Elt Ideal) ℓ) (c : Dev nD) (n : Fin 16384) :
    Fold.V2 m c main_v1 (ix1 n) = (m ((c.tc : Thread nD τ).loc main_arg5)) (ix2 n 0) :=
  (congrFun (Fold.V2_main_v1 m c) (ix1 n)).trans (Fold.V1_main_v1_apply m c n)
theorem col1_eq (m : (ℓ : Loc nD τ sig) → Buf (Elt Ideal) ℓ) (c : Dev nD) (n : Fin 16384) :
    Fold.V2 m c main_v3 (ix1 n) = (m ((c.tc : Thread nD τ).loc main_arg5)) (ix2 n 1) :=
  (congrFun (Fold.V2_main_v3 m c) (ix1 n)).trans (Fold.V1_main_v3_apply m c n)

/-- What the second region leaves, over the launch arguments. -/
theorem plus2_args (m : (ℓ : Loc nD τ sig) → Buf (Elt Ideal) ℓ) (c : Dev nD) :
    Term2Value.plus2 (Fold.V2 m c main_v4) (Fold.V2 m c main_arg0) (Fold.V2 m c main_arg2) (Fold.V2 m c main_v1)
        (Fold.V2 m c main_v3) (Fold.V2 m c main_arg6)
      = Term2Value.plus2 (fun i => out1 (m ((c.tc : Thread nD τ).loc main_arg0)) (m ((c.tc : Thread nD τ).loc main_arg1)) (m ((c.tc : Thread nD τ).loc main_arg3)) (m ((c.tc : Thread nD τ).loc main_arg4)) (i 0) (i 1)) (m ((c.tc : Thread nD τ).loc main_arg0)) (m ((c.tc : Thread nD τ).loc main_arg2))
          (Fold.V2 m c main_v1) (Fold.V2 m c main_v3) (m ((c.tc : Thread nD τ).loc main_arg6)) :=
  plus2_congr (y1_eq m c) (Fold.V2_main_arg0 m c) (Fold.V2_main_arg2 m c) (Fold.V2_main_arg6 m c)

/-- The result array after the run is `G` of the launch arguments. -/
theorem result_eq (m : (ℓ : Loc nD τ sig) → Buf (Elt Ideal) ℓ) (c : Dev nD) :
    Fold.V3 m c main_v5
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (Fold.V3_result m c).trans ?_
  refine (Term2Value.result_eq (Fold.V2 m) c).trans ?_
  refine (plus2_args m c).trans ?_
  exact plus2_eq_G _ _ _ _ _ _ _ _ _ (col0_eq m c) (col1_eq m c)

end Cert.KernelIdeal.KernelValue

end
-- ==== Proof.LibGathers.lean ====
/-
  Two gathers read at an index, generic in every extent.

  Columns of a table taken at a column of start indices (jnp's  table[:, idx]  on a matrix, the start indices as an
  [N, 1] array): the result's entry (p, q) is the table's entry at row p and column  idx[q, 0] , that word read as a
  signed integer and clamped into the table's columns.

  Rows of a table taken at a MATRIX of start indices (jnp's  table[idx]  for a two-axis index array, the start indices as
  an [N, M, 1] array): the result's entry (p, q, k) is the table's entry at row  idx[p, q, 0]  (signed, clamped into the
  table's rows) and column k.
-/
import Idealize.ShloMosaic.PureOps
import Idealize.ShloMosaic.Lib.ValueIdx

noncomputable section

open Idealize.ShloMosaic Idealize.ShloMosaic.ValueIdx

namespace Cert.Gathers

variable {α : Type}

/-- The dimension numbers of  table[:, idx]  for an [R, C] table and an [N, 1] column of start indices: axis 1 collapsed
    and indexed, axis 0 an offset axis taken whole; the result is [R, N]. -/
abbrev colsDims (R C N : ℕ)
    (wf : GatherDims.WF ⟨2, ![R, C]⟩ ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT (p, q): the table at row p and column  idx[q, 0]  (signed, clamped into [0, C − 1]). -/
theorem gather_cols_apply {R C N w : ℕ} (hC : 0 < C)
    (wf : GatherDims.WF ⟨2, ![R, C]⟩ ⟨2, ![N, 1]⟩ ⟨2, ![R, N]⟩ [0] [1] [] [1] [] 1 ![R, 1])
    (x : (⟨2, ![R, C]⟩ : Shape).Idx → α) (idx : IVec ⟨2, ![N, 1]⟩ w) (p : Fin R) (q : Fin N) :
    Host.gather (colsDims R C N wf) x idx (ix2 p q)
      = x (ix2 p ⟨min (idx (ix2 q 0)).toInt.toNat (C - 1), by omega⟩) := by
  unfold Host.gather
  congr 1
  funext a
  refine Fin.ext ?_
  match a with
  | ⟨0, _⟩ =>
    have h01 : (0 : Fin 2) ∉ ([1] : List (Fin 2)) := by decide
    show (colsDims R C N wf).start (ix2 p q) idx 0 + (colsDims R C N wf).batchCoord (ix2 p q) 0
      + (colsDims R C N wf).offCoord (ix2 p q) 0 = p.val
    rw [GatherDims.batchCoord_eq_zero _ _ _ List.not_mem_nil]
    unfold GatherDims.start
    rw [dif_neg (show (0 : Fin 2) ∉ (colsDims R C N wf).startIndexMap from h01)]
    unfold GatherDims.offCoord
    rw [dif_pos (show (0 : Fin 2) ∈ (colsDims R C N wf).sKept from
      (GatherDims.mem_sKept _ _).mpr ⟨h01, List.not_mem_nil⟩)]
    simp only [Nat.zero_add, Nat.add_zero]
    rfl
  | ⟨1, _⟩ =>
    show (colsDims R C N wf).start (ix2 p q) idx 1 + (colsDims R C N wf).batchCoord (ix2 p q) 1
      + (colsDims R C N wf).offCoord (ix2 p q) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R C N wf).startIndexMap from List.mem_singleton.mpr rfl)]
    have hsi : (colsDims R C N wf).siIdx (ix2 p q) ⟨List.idxOf (1 : Fin 2) (colsDims R C N wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl

/-- The dimension numbers of  table[idx]  for a [T, C] table and an [N, M, 1] array of start indices: axis 0 collapsed
    and indexed, axis 1 an offset axis taken whole; the result is [N, M, C]. -/
abbrev rows3Dims (T C N M : ℕ)
    (wf : GatherDims.WF ⟨2, ![T, C]⟩ ⟨3, ![N, M, 1]⟩ ⟨3, ![N, M, C]⟩ [2] [0] [] [0] [] 2 ![1, C]) :
    GatherDims ⟨2, ![T, C]⟩ ⟨3, ![N, M, 1]⟩ ⟨3, ![N, M, C]⟩ where
  offsetDims := [2]
  collapsedSliceDims := [0]
  operandBatchingDims := []
  startIndicesBatchingDims := []
  startIndexMap := [0]
  indexVectorDim := 2
  sliceSizes := ![1, C]
  wf := wf

/-- THE ROW GATHER OVER A MATRIX OF START INDICES READ AT (p, q, k): the table at row  idx[p, q, 0]  (signed, clamped
    into [0, T − 1]) and column k. -/
theorem gather_rows3_apply {T C N M w : ℕ} (hT : 0 < T)
    (wf : GatherDims.WF ⟨2, ![T, C]⟩ ⟨3, ![N, M, 1]⟩ ⟨3, ![N, M, C]⟩ [2] [0] [] [0] [] 2 ![1, C])
    (x : (⟨2, ![T, C]⟩ : Shape).Idx → α) (idx : IVec ⟨3, ![N, M, 1]⟩ w) (p : Fin N) (q : Fin M) (k : Fin C) :
    Host.gather (rows3Dims T C N M wf) x idx (ix3 p q k)
      = x (ix2 ⟨min (idx (ix3 p q 0)).toInt.toNat (T - 1), by omega⟩ k) := by
  unfold Host.gather
  congr 1
  funext a
  refine Fin.ext ?_
  match a with
  | ⟨0, _⟩ =>
    show (rows3Dims T C N M wf).start (ix3 p q k) idx 0 + (rows3Dims T C N M wf).batchCoord (ix3 p q k) 0
      + (rows3Dims T C N M wf).offCoord (ix3 p q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims T C N M wf).startIndexMap from List.mem_singleton.mpr rfl)]
    have hsi : (rows3Dims T C N M wf).siIdx (ix3 p q k) ⟨List.idxOf (0 : Fin 2) (rows3Dims T C N M wf).startIndexMap,
        List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl
  | ⟨1, _⟩ =>
    have h10 : (1 : Fin 2) ∉ ([0] : List (Fin 2)) := by decide
    show (rows3Dims T C N M wf).start (ix3 p q k) idx 1 + (rows3Dims T C N M wf).batchCoord (ix3 p q k) 1
      + (rows3Dims T C N M wf).offCoord (ix3 p q k) 1 = k.val
    rw [GatherDims.batchCoord_eq_zero _ _ _ List.not_mem_nil]
    unfold GatherDims.start
    rw [dif_neg (show (1 : Fin 2) ∉ (rows3Dims T C N M wf).startIndexMap from h10)]
    unfold GatherDims.offCoord
    rw [dif_pos (show (1 : Fin 2) ∈ (rows3Dims T C N M wf).sKept from
      (GatherDims.mem_sKept _ _).mpr ⟨h10, List.not_mem_nil⟩)]
    simp only [Nat.zero_add, Nat.add_zero]
    rfl

end Cert.Gathers

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefValue.lean ====
/-
  The reference read as the same function: under the index ranges, a clamped column gather is the one-hot pick, and a
  scatter-add through the wrapped product indices collects exactly the reactions whose product word is the species.
-/
import proofs.«430890_j60138132078971_1_alg».proof.Proof.Gen.ReferenceIdeal.Read
import proofs.«430890_j60138132078971_1_alg».proof.Proof.Spec
import proofs.«430890_j60138132078971_1_alg».proof.Proof.LibOneHot
import proofs.«430890_j60138132078971_1_alg».proof.Proof.LibGathers
import proofs.«430890_j60138132078971_1_alg».proof.Proof.LibIndexWrap
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.Reaction
open Idealize.ShloMosaic Idealize.ShloMosaic.ValueIdx

/-! ## Index words -/

/-- A signed word that is not negative is left alone by the wrap "add the extent when negative". -/
theorem wrap_nonneg (w : BitVec 32) (h : 0 ≤ w.toInt) :
    Scalar.select (IntOp.cmpi .slt w 0#32) (IntOp.addi w 1024#32) w = w := by
  unfold Scalar.select
  refine if_neg fun hs => ?_
  have hlt := IntOp.cmpi_slt.1 hs
  have hz : (0#32 : BitVec 32).toInt = 0 := by decide
  omega

/-- Lane `s` written as a 32-bit word is `w` exactly when `w`, read signed, is `s`. -/
theorem ofNat_eq_iff (s : ℕ) (hs : s < 2 ^ 31) (w : BitVec 32) : BitVec.ofNat 32 s = w ↔ w.toInt = (s : ℤ) := by
  constructor
  · rintro rfl
    exact StableHlo.Predicate.toInt_ofNat_small s hs
  · intro h
    exact BitVec.eq_of_toInt_eq (by rw [StableHlo.Predicate.toInt_ofNat_small s hs, h])

/-- The one-hot entry as a test on the signed reading of the word. -/
theorem oh_eq (s : ℕ) (hs : s < 2 ^ 31) (w : BitVec 32) : oh s w = if w.toInt = (s : ℤ) then 1 else 0 := by
  unfold oh
  by_cases h : w.toInt = (s : ℤ)
  · rw [if_pos h, if_pos ((ofNat_eq_iff s hs w).2 h)]
  · rw [if_neg h, if_neg (fun e => h ((ofNat_eq_iff s hs w).1 e))]

/-- For a word in {0, …, 1023} the one-hot row picks the abundance at that species. -/
theorem pick_of_range (y : (⟨2, ![4096, 1024]⟩ : Shape).Idx → EReal) (b : Fin 4096) (w : BitVec 32)
    (h0 : 0 ≤ w.toInt) (h1 : w.toInt < 1024) (hp : min w.toInt.toNat (1024 - 1) < 1024) :
    y (ix2 b ⟨min w.toInt.toNat (1024 - 1), hp⟩) = pick y b w := by
  have hlt : w.toInt.toNat < 1024 := by omega
  have hmin : (⟨min w.toInt.toNat (1024 - 1), hp⟩ : Fin 1024) = ⟨w.toInt.toNat, hlt⟩ :=
    Fin.ext (Nat.min_eq_left (by omega))
  rw [hmin]
  unfold pick
  rw [Finset.sum_eq_single (⟨w.toInt.toNat, hlt⟩ : Fin 1024)]
  · rw [oh_eq _ (by show w.toInt.toNat < 2 ^ 31; omega), if_pos (by show w.toInt = ((w.toInt.toNat : ℕ) : ℤ); omega), mul_one]
  · intro s _ hne
    rw [oh_eq _ (by have := s.isLt; omega), if_neg, mul_zero]
    intro e
    exact hne (Fin.ext (by show s.val = w.toInt.toNat; omega))
  · intro hn
    exact absurd (Finset.mem_univ _) hn

/-! ## The five index columns, read at a row -/

/-- The wrapped first-order reactant column at row `n` is the reactant word. -/
theorem col_r1 (x3 : (⟨S4096, .i32⟩ : BufTy).Contents (Elt Ideal)) (h : ∀ n : Fin 4096, 0 ≤ (x3 (ix1 n)).toInt)
    (n : Fin 4096) : Read.val_main_v5 (F := Ideal) x3 (ix2 n 0) = x3 (ix1 n) := by
  have e : Read.idx_main_v5 (ix2 n (0 : Fin 1)) = ix1 n := by
    funext a; match a with | ⟨0, _⟩ => rfl
  rw [Read.val_main_v5_apply, e, Read.val_main_v4_apply, Read.val_main_v1_apply, Read.val_main_v3_apply,
    Read.val_main_v0_apply, Read.val_main_c_apply, Read.val_main_v2_apply, Read.val_main_c_0_apply]
  exact wrap_nonneg _ (h n)

/-- The wrapped first-order product column at row `n` is the product word. -/
theorem col_p1 (x4 : (⟨S4096, .i32⟩ : BufTy).Contents (Elt Ideal)) (h : ∀ n : Fin 4096, 0 ≤ (x4 (ix1 n)).toInt)
    (n : Fin 4096) : Read.val_main_v34 (F := Ideal) x4 (ix2 n 0) = x4 (ix1 n) := by
  have e : Read.idx_main_v34 (ix2 n (0 : Fin 1)) = ix1 n := by
    funext a; match a with | ⟨0, _⟩ => rfl
  rw [Read.val_main_v34_apply, e, Read.val_main_v33_apply, Read.val_main_v30_apply, Read.val_main_v32_apply,
    Read.val_main_v29_apply, Read.val_main_c_5_apply, Read.val_main_v31_apply, Read.val_main_c_6_apply]
  exact wrap_nonneg _ (h n)

/-- The wrapped second-order product column at row `n` is the product word. -/
theorem col_p2 (x6 : (⟨S16384, .i32⟩ : BufTy).Contents (Elt Ideal)) (h : ∀ n : Fin 16384, 0 ≤ (x6 (ix1 n)).toInt)
    (n : Fin 16384) : Read.val_main_v41 (F := Ideal) x6 (ix2 n 0) = x6 (ix1 n) := by
  have e : Read.idx_main_v41 (ix2 n (0 : Fin 1)) = ix1 n := by
    funext a; match a with | ⟨0, _⟩ => rfl
  rw [Read.val_main_v41_apply, e, Read.val_main_v40_apply, Read.val_main_v37_apply, Read.val_main_v39_apply,
    Read.val_main_v36_apply, Read.val_main_c_7_apply, Read.val_main_v38_apply, Read.val_main_c_8_apply]
  exact wrap_nonneg _ (h n)

/-- Column 0 of the reactant table, as a vector, at row `n`. -/
theorem tab_col0 (x5 : (⟨S16384x2, .i32⟩ : BufTy).Contents (Elt Ideal)) (n : Fin 16384) :
    Read.val_main_v9 (F := Ideal) x5 (ix1 n) = x5 (ix2 n 0) := by
  rw [Read.val_main_v9_apply, Read.val_main_v8_apply]
  congr 1
  funext a
  refine Fin.ext ?_
  match a with
  | ⟨0, _⟩ => exact Nat.div_one _
  | ⟨1, _⟩ => rfl

/-- Column 1 of the reactant table, as a vector, at row `n`. -/
theorem tab_col1 (x5 : (⟨S16384x2, .i32⟩ : BufTy).Contents (Elt Ideal)) (n : Fin 16384) :
    Read.val_main_v18 (F := Ideal) x5 (ix1 n) = x5 (ix2 n 1) := by
  rw [Read.val_main_v18_apply, Read.val_main_v17_apply]
  congr 1
  funext a
  refine Fin.ext ?_
  match a with
  | ⟨0, _⟩ => exact Nat.div_one _
  | ⟨1, _⟩ => rfl

/-- The wrapped first reactant column of the second-order reactions at row `n`. -/
theorem col_r2a (x5 : (⟨S16384x2, .i32⟩ : BufTy).Contents (Elt Ideal))
    (h : ∀ n : Fin 16384, 0 ≤ (x5 (ix2 n 0)).toInt) (n : Fin 16384) :
    Read.val_main_v15 (F := Ideal) x5 (ix2 n 0) = x5 (ix2 n 0) := by
  have e : Read.idx_main_v15 (ix2 n (0 : Fin 1)) = ix1 n := by
    funext a; match a with | ⟨0, _⟩ => rfl
  rw [Read.val_main_v15_apply, e, Read.val_main_v14_apply, Read.val_main_v11_apply, Read.val_main_v13_apply,
    Read.val_main_v10_apply, Read.val_main_c_1_apply, Read.val_main_v12_apply, Read.val_main_c_2_apply, tab_col0]
  exact wrap_nonneg _ (h n)

/-- The wrapped second reactant column of the second-order reactions at row `n`. -/
theorem col_r2b (x5 : (⟨S16384x2, .i32⟩ : BufTy).Contents (Elt Ideal))
    (h : ∀ n : Fin 16384, 0 ≤ (x5 (ix2 n 1)).toInt) (n : Fin 16384) :
    Read.val_main_v24 (F := Ideal) x5 (ix2 n 0) = x5 (ix2 n 1) := by
  have e : Read.idx_main_v24 (ix2 n (0 : Fin 1)) = ix1 n := by
    funext a; match a with | ⟨0, _⟩ => rfl
  rw [Read.val_main_v24_apply, e, Read.val_main_v23_apply, Read.val_main_v20_apply, Read.val_main_v22_apply,
    Read.val_main_v19_apply, Read.val_main_c_3_apply, Read.val_main_v21_apply, Read.val_main_c_4_apply, tab_col1]
  exact wrap_nonneg _ (h n)

/-! ## The three column gathers -/

/-- A column gather of the abundances through a column of index words in {0, …, 1023} is the one-hot pick. -/
theorem gather_pick {N : ℕ} (wf : GatherDims.WF ⟨2, ![4096, 1024]⟩ ⟨2, ![N, 1]⟩ ⟨2, ![4096, N]⟩ [0] [1] [] [1] [] 1 ![4096, 1])
    (y : (⟨2, ![4096, 1024]⟩ : Shape).Idx → EReal) (idx : IVec ⟨2, ![N, 1]⟩ 32) (b : Fin 4096) (n : Fin N) (w : BitVec 32)
    (hw : idx (ix2 n 0) = w) (h0 : 0 ≤ w.toInt) (h1 : w.toInt < 1024) :
    Host.gather (Cert.Gathers.colsDims 4096 1024 N wf) y idx (ix2 b n) = pick y b w := by
  subst hw
  exact (Cert.Gathers.gather_cols_apply (by decide) wf y idx b n).trans (pick_of_range y b _ h0 h1 _)

theorem gather1_dims : gather_S4096x1024_S4096x1_S4096x4096_0_1_n_n_1_1_40961
    = Cert.Gathers.colsDims 4096 1024 4096 Gen.gather_S4096x1024_S4096x1_S4096x4096_0_1_n_n_1_1_40961_wf := rfl

theorem gather2_dims : gather_S4096x1024_S16384x1_S4096x16384_0_1_n_n_1_1_40961
    = Cert.Gathers.colsDims 4096 1024 16384 Gen.gather_S4096x1024_S16384x1_S4096x16384_0_1_n_n_1_1_40961_wf := rfl

/-- The gathered reactant of first-order reaction `n` in sample `b`. -/
theorem gathered1 (x0 : (⟨S4096x1024, .f32⟩ : BufTy).Contents (Elt Ideal)) (x3 : (⟨S4096, .i32⟩ : BufTy).Contents (Elt Ideal))
    (hr1 : ∀ n : Fin 4096, 0 ≤ (x3 (ix1 n)).toInt ∧ (x3 (ix1 n)).toInt < 1024) (b n : Fin 4096) :
    Read.val_main_v6 (F := Ideal) x0 x3 (ix2 b n) = pick x0 b (x3 (ix1 n)) := by
  unfold Read.val_main_v6
  rw [gather1_dims]
  exact gather_pick _ x0 _ b n _ (col_r1 x3 (fun n => (hr1 n).1) n) (hr1 n).1 (hr1 n).2

/-- The first gathered reactant of second-order reaction `n` in sample `b`. -/
theorem gathered2a (x0 : (⟨S4096x1024, .f32⟩ : BufTy).Contents (Elt Ideal)) (x5 : (⟨S16384x2, .i32⟩ : BufTy).Contents (Elt Ideal))
    (hr2 : ∀ (n : Fin 16384) (k : Fin 2), 0 ≤ (x5 (ix2 n k)).toInt ∧ (x5 (ix2 n k)).toInt < 1024) (b : Fin 4096) (n : Fin 16384) :
    Read.val_main_v16 (F := Ideal) x0 x5 (ix2 b n) = pick x0 b (x5 (ix2 n 0)) := by
  unfold Read.val_main_v16
  rw [gather2_dims]
  exact gather_pick _ x0 _ b n _ (col_r2a x5 (fun n => (hr2 n 0).1) n) (hr2 n 0).1 (hr2 n 0).2

/-- The second gathered reactant of second-order reaction `n` in sample `b`. -/
theorem gathered2b (x0 : (⟨S4096x1024, .f32⟩ : BufTy).Contents (Elt Ideal)) (x5 : (⟨S16384x2, .i32⟩ : BufTy).Contents (Elt Ideal))
    (hr2 : ∀ (n : Fin 16384) (k : Fin 2), 0 ≤ (x5 (ix2 n k)).toInt ∧ (x5 (ix2 n k)).toInt < 1024) (b : Fin 4096) (n : Fin 16384) :
    Read.val_main_v25 (F := Ideal) x0 x5 (ix2 b n) = pick x0 b (x5 (ix2 n 1)) := by
  unfold Read.val_main_v25
  rw [gather2_dims]
  exact gather_pick _ x0 _ b n _ (col_r2b x5 (fun n => (hr2 n 1).1) n) (hr2 n 1).1 (hr2 n 1).2

/-! ## A scatter-add along the columns -/

/-- Where an update lands, in any scatter: at the operand index whose every coordinate is the window start plus the
    window coordinate. A start outside the operand lands nowhere, and that is no index. -/
theorem lands_at_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro e a
    by_cases h : ∀ a, 0 ≤ d.start j idx a + (d.window j a : ℤ) ∧ d.start j idx a + (d.window j a : ℤ) < (s.size a : ℤ)
    · rw [dif_pos h] at e
      have ev : (d.start j idx a + (d.window j a : ℤ)).toNat = (i a).val :=
        congrArg Fin.val (congrFun (Option.some.inj e) a)
      have := (h a).1
      omega
    · rw [dif_neg h] at e
      cases e
  · intro h
    have hall : ∀ a, 0 ≤ d.start j idx a + (d.window j a : ℤ) ∧ d.start j idx a + (d.window j a : ℤ) < (s.size a : ℤ) := by
      intro a
      have := (i a).isLt
      rw [h a]
      omega
    rw [dif_pos hall]
    congr 1
    funext a
    refine Fin.ext ?_
    show (d.start j idx a + (d.window j a : ℤ)).toNat = (i a).val
    rw [h a]
    exact Int.toNat_natCast _

/-- The dimension numbers of  operand.at[:, idx].add(updates)  for a [B, S] operand, an [N, 1] column of index words and
    [B, N] updates: update axis 0 is a window axis and goes to operand axis 0, operand axis 1 is the indexed one. -/
abbrev colsAddDims (B S N : ℕ) (wf : ScatterDims.WF ⟨2, ![B, S]⟩ ⟨2, ![N, 1]⟩ ⟨2, ![B, N]⟩ [0] [1] [1] 1) :
    ScatterDims ⟨2, ![B, S]⟩ ⟨2, ![N, 1]⟩ ⟨2, ![B, N]⟩ where
  updateWindowDims := [0]
  insertedWindowDims := [1]
  scatterDimsToOperandDims := [1]
  indexVectorDim := 1
  wf := wf

section ColsAdd

variable {B S N w : ℕ} (wf : ScatterDims.WF ⟨2, ![B, S]⟩ ⟨2, ![N, 1]⟩ ⟨2, ![B, N]⟩ [0] [1] [1] 1)
  (idx : IVec ⟨2, ![N, 1]⟩ w) (b : Fin B) (n : Fin N)

/-- On the row axis the window starts at 0. -/
theorem start_row : (colsAddDims B S N wf).start (ix2 b n) idx 0 = 0 := by
  have h01 : (0 : Fin 2) ∉ ([1] : List (Fin 2)) := by decide
  unfold ScatterDims.start
  exact dif_neg (show (0 : Fin 2) ∉ (colsAddDims B S N wf).scatterDimsToOperandDims from h01)

/-- On the column axis the window starts at the index word of the update's column, read signed. -/
theorem start_col : (colsAddDims B S N wf).start (ix2 b n) idx 1 = (idx (ix2 n 0)).toInt := by
  unfold ScatterDims.start
  rw [dif_pos (show (1 : Fin 2) ∈ (colsAddDims B S N wf).scatterDimsToOperandDims from List.mem_singleton.mpr rfl)]
  have hsi : (colsAddDims B S N wf).siIdx (ix2 b n) ⟨List.idxOf (1 : Fin 2) (colsAddDims B S N wf).scatterDimsToOperandDims,
      List.idxOf_lt_length_iff.2 (List.mem_singleton.mpr rfl)⟩ = ix2 n 0 := by
    funext a; refine Fin.ext ?_
    match a with
    | ⟨0, _⟩ => rfl
    | ⟨1, _⟩ => rfl
  rw [hsi]

/-- On the row axis the window coordinate is the update's row. -/
theorem window_row : (colsAddDims B S N wf).window (ix2 b n) 0 = b.val := by
  have h0 : (0 : Fin 2) ∈ (List.finRange 2).filter (· ∉ ([1] : List (Fin 2))) := by decide
  unfold ScatterDims.window
  rw [dif_pos (show (0 : Fin 2) ∈ (colsAddDims B S N wf).sKept from h0)]
  rfl

/-- On the column axis, which the window does not span, the window coordinate is 0. -/
theorem window_col : (colsAddDims B S N wf).window (ix2 b n) 1 = 0 := by
  have h1 : (1 : Fin 2) ∉ (List.finRange 2).filter (· ∉ ([1] : List (Fin 2))) := by decide
  unfold ScatterDims.window
  exact dif_neg (show (1 : Fin 2) ∉ (colsAddDims B S N wf).sKept from h1)

/-- Update (b, n) lands at (b', s) exactly when the rows agree and the index word of column n, read signed, is s. -/
theorem lands_iff (b' : Fin B) (s : Fin S) :
    (colsAddDims B S N wf).resultIdx? (ix2 b n) idx = some (ix2 b' s)
      ↔ b = b' ∧ (idx (ix2 n 0)).toInt = (s.val : ℤ) := by
  refine (lands_at_iff _ _ _ _).trans ?_
  constructor
  · intro h
    have h0 := h (0 : Fin 2)
    have h1 := h (1 : Fin 2)
    rw [start_row, window_row] at h0
    rw [start_col, window_col] at h1
    have h0' : (0 : ℤ) + (b.val : ℤ) = (b'.val : ℤ) := h0
    have h1' : (idx (ix2 n 0)).toInt + ((0 : ℕ) : ℤ) = (s.val : ℤ) := h1
    exact ⟨Fin.ext (by omega), by omega⟩
  · rintro ⟨rfl, h2⟩ a
    match a with
    | ⟨0, _⟩ =>
      show (colsAddDims B S N wf).start (ix2 b n) idx 0 + ((colsAddDims B S N wf).window (ix2 b n) 0 : ℤ) = (b.val : ℤ)
      rw [start_row, window_row]
      omega
    | ⟨1, _⟩ =>
      show (colsAddDims B S N wf).start (ix2 b n) idx 1 + ((colsAddDims B S N wf).window (ix2 b n) 1 : ℤ) = (s.val : ℤ)
      rw [start_col, window_col]
      omega

end ColsAdd

section ColsAddSum

/-- THE COLUMN SCATTER-ADD READ AT (b, s), over the extended reals: the operand's entry plus the sum, over the update
    columns, of row b's update times the one-hot entry of that column's index word at lane s. -/
theorem scatterAdd_cols_apply {B S N : ℕ} (wf : ScatterDims.WF ⟨2, ![B, S]⟩ ⟨2, ![N, 1]⟩ ⟨2, ![B, N]⟩ [0] [1] [1] 1)
    (hS : S ≤ 2 ^ 31) (x : FVec Ideal ⟨2, ![B, S]⟩ .f32) (idx : IVec ⟨2, ![N, 1]⟩ 32) (upd : FVec Ideal ⟨2, ![B, N]⟩ .f32)
    (b : Fin B) (s : Fin S) :
    Host.scatterAdd (F := Ideal) (φ := .f32) (colsAddDims B S N wf) x idx upd (ix2 b s)
      = x (ix2 b s) + ∑ n : Fin N, upd (ix2 b n) * oh s.val (idx (ix2 n 0)) := by
  show Ideal.hostScatterAdd (colsAddDims B S N wf) x idx upd (ix2 b s) = _
  unfold Ideal.hostScatterAdd
  congr 1
  rw [Finset.sum_filter, sum_idx2, Finset.sum_eq_single b]
  · refine Finset.sum_congr rfl fun n _ => ?_
    rw [oh_eq s.val (by have := s.isLt; omega)]
    by_cases h : (idx (ix2 n 0)).toInt = (s.val : ℤ)
    · rw [if_pos ((lands_iff wf idx b n b s).2 ⟨rfl, h⟩), if_pos h, mul_one]
    · rw [if_neg (fun e => h ((lands_iff wf idx b n b s).1 e).2), if_neg h, mul_zero]
  · intro b' _ hne
    refine Finset.sum_eq_zero fun n _ => ?_
    exact if_neg (fun e => hne ((lands_iff wf idx b' n b s).1 e).1)
  · intro hn
    exact absurd (Finset.mem_univ _) hn

end ColsAddSum

/-! ## The two scatter-adds of the reference -/

theorem scatter1_dims : scatter_S4096x1024_S4096x1_S4096x4096_0_1_1_1
    = colsAddDims 4096 1024 4096 Gen.scatter_S4096x1024_S4096x1_S4096x4096_0_1_1_1_wf := rfl

theorem scatter2_dims : scatter_S4096x1024_S16384x1_S4096x16384_0_1_1_1
    = colsAddDims 4096 1024 16384 Gen.scatter_S4096x1024_S16384x1_S4096x16384_0_1_1_1_wf := rfl

/-- The zero word is the real number 0. -/
theorem zero_word : FloatOps.ofBits (F := Ideal) .f32 0x00000000#32 = (0 : EReal) := Ideal.ofBits_zero_f32

/-- The first scatter-add, into zeros, is what the first-order reactions add. -/
theorem first_order (x0 : (⟨S4096x1024, .f32⟩ : BufTy).Contents (Elt Ideal)) (x1 : (⟨S4096x4096, .f32⟩ : BufTy).Contents (Elt Ideal))
    (x3 x4 : (⟨S4096, .i32⟩ : BufTy).Contents (Elt Ideal))
    (hr1 : ∀ n : Fin 4096, 0 ≤ (x3 (ix1 n)).toInt ∧ (x3 (ix1 n)).toInt < 1024)
    (hp1 : ∀ n : Fin 4096, 0 ≤ (x4 (ix1 n)).toInt) (b : Fin 4096) (s : Fin 1024) :
    Read.val_main_v35 (F := Ideal) x0 x1 x3 x4 (ix2 b s) = out1 x0 x1 x3 x4 b s := by
  unfold Read.val_main_v35
  rw [scatter1_dims]
  refine (scatterAdd_cols_apply _ (by decide) _ _ _ b s).trans ?_
  rw [Read.val_main_v28_apply, Read.val_main_cst_apply, zero_word, zero_add]
  unfold out1 term1
  refine Finset.sum_congr rfl fun n _ => ?_
  rw [Read.val_main_v7_apply, gathered1 x0 x3 hr1 b n, col_p1 x4 hp1 n]
  rfl

/-- THE REFERENCE IS `G`, where every reactant index is in [0, 1024) and every product index is non-negative. -/
theorem ref_value (x0 : (⟨S4096x1024, .f32⟩ : BufTy).Contents (Elt Ideal)) (x1 : (⟨S4096x4096, .f32⟩ : BufTy).Contents (Elt Ideal))
    (x2 : (⟨S4096x16384, .f32⟩ : BufTy).Contents (Elt Ideal)) (x3 x4 : (⟨S4096, .i32⟩ : BufTy).Contents (Elt Ideal))
    (x5 : (⟨S16384x2, .i32⟩ : BufTy).Contents (Elt Ideal)) (x6 : (⟨S16384, .i32⟩ : BufTy).Contents (Elt Ideal))
    (hr1 : ∀ n : Fin 4096, 0 ≤ (x3 (ix1 n)).toInt ∧ (x3 (ix1 n)).toInt < 1024)
    (hr2 : ∀ (n : Fin 16384) (k : Fin 2), 0 ≤ (x5 (ix2 n k)).toInt ∧ (x5 (ix2 n k)).toInt < 1024)
    (hp1 : ∀ n : Fin 4096, 0 ≤ (x4 (ix1 n)).toInt)
    (hp2 : ∀ n : Fin 16384, 0 ≤ (x6 (ix1 n)).toInt) :
    Cert.ReferenceIdeal.Read.val_main_v42 (F := Ideal) x0 x1 x2 x3 x4 x5 x6 = G x0 x1 x2 x3 x4 x5 x6 := by
  funext i
  obtain ⟨b, s, rfl⟩ : ∃ (b : Fin 4096) (s : Fin 1024), i = ix2 b s := ⟨i 0, i 1, eq_ix2 i⟩
  rw [G_apply]
  unfold Read.val_main_v42
  rw [scatter2_dims]
  refine (scatterAdd_cols_apply _ (by decide) _ _ _ b s).trans ?_
  rw [first_order x0 x1 x3 x4 hr1 hp1 b s]
  refine congrArg (fun z : EReal => out1 x0 x1 x3 x4 b s + z) ?_
  unfold out2 term2
  refine Finset.sum_congr rfl fun n _ => ?_
  rw [Read.val_main_v27_apply, Read.val_main_v26_apply, gathered2a x0 x5 hr2 b n, gathered2b x0 x5 hr2 b n,
    col_p2 x6 hp2 n]
  rfl

end Cert.ReferenceIdeal.RefValue

end
-- ==== Proof.PreDecode.lean ====
/-
  The index ranges read out of the precondition: each reactant index lies in [0, 1024), each product index is
  non-negative. The precondition is the "and" of seven all-entries tests; its value 1 forces every test to 1, an
  all-entries "and" that is 1 is 1 at each entry, and a signed compare word that is 1 states the order of the signed
  values it compares.
-/
import proofs.«430890_j60138132078971_1_alg».proof.Pre_finite_inputs
import proofs.«430890_j60138132078971_1_alg».proof.Proof.LibIndexWrap
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The rank-0 shape has exactly one index. -/
instance scalarIdxSubsingleton : Subsingleton S_.Idx := ⟨fun a b => funext fun d => d.elim0⟩

/-- From "the precondition evaluates to all ones" to the four index-range facts (at any float instance). -/
theorem ranges {F : FTy → Type} [FloatOps F] (a0 : FVec F S4096x1024 .f32) (a1 : FVec F S4096x4096 .f32) (a2 : FVec F S4096x16384 .f32)
    (a3 a4 : IVec S4096 32) (a5 : IVec S16384x2 32) (a6 : IVec S16384 32)
    (h : Cert.Pre_finite_inputs.fn (F := F) a0 a1 a2 a3 a4 a5 a6 = fun _ => 1#1) :
    (∀ n : Fin 4096, 0 ≤ (a3 (ix1 n)).toInt ∧ (a3 (ix1 n)).toInt < 1024)
    ∧ (∀ (n : Fin 16384) (k : Fin 2), 0 ≤ (a5 (ix2 n k)).toInt ∧ (a5 (ix2 n k)).toInt < 1024)
    ∧ (∀ n : Fin 4096, 0 ≤ (a4 (ix1 n)).toInt)
    ∧ (∀ n : Fin 16384, 0 ≤ (a6 (ix1 n)).toInt) := by
  -- the one entry of the rank-0 result, with the printed chain of definitions opened
  have e := congrFun h ix0
  dsimp only [Cert.Pre_finite_inputs.fn, fn_part1, fn_part2] at e
  -- the result is the "and" of seven bits; a bit-"and" is 1 exactly when both operands are
  change IntOp.andi (IntOp.andi (IntOp.andi (IntOp.andi (IntOp.andi (IntOp.andi _ _) _) _) _) _) _ = 1#1 at e
  simp only [IntOp.andi_eq_one] at e
  obtain ⟨⟨⟨⟨⟨⟨-, -⟩, -⟩, h3⟩, h5⟩, h4⟩, h6⟩ := e
  -- a signed read of the two literal bounds
  have z0 : (0#32 : BitVec 32).toInt = 0 := by decide
  have z1 : (1024#32 : BitVec 32).toInt = 1024 := by decide
  refine ⟨fun n => ?_, fun n k => ?_, fun n => ?_, fun n => ?_⟩
  · -- an "and" over all entries that is 1 is 1 at entry n: both compares of a3[n] hold
    have t := Host.reduce_andi_all _ _ _ _ _ h3 (ix1 n)
    change IntOp.andi (IntOp.cmpi .sge (a3 (ix1 n)) (0#32)) (IntOp.cmpi .slt (a3 (ix1 n)) (1024#32)) = 1#1 at t
    rw [IntOp.andi_eq_one, IntOp.cmpi_sge, IntOp.cmpi_slt, z0, z1] at t
    exact t
  · have t := Host.reduce_andi_all _ _ _ _ _ h5 (ix2 n k)
    change IntOp.andi (IntOp.cmpi .sge (a5 (ix2 n k)) (0#32)) (IntOp.cmpi .slt (a5 (ix2 n k)) (1024#32)) = 1#1 at t
    rw [IntOp.andi_eq_one, IntOp.cmpi_sge, IntOp.cmpi_slt, z0, z1] at t
    exact t
  · have t := Host.reduce_andi_all _ _ _ _ _ h4 (ix1 n)
    change IntOp.cmpi .sge (a4 (ix1 n)) (0#32) = 1#1 at t
    rw [IntOp.cmpi_sge, z0] at t
    exact t
  · have t := Host.reduce_andi_all _ _ _ _ _ h6 (ix1 n)
    change IntOp.cmpi .sge (a6 (ix1 n)) (0#32) = 1#1 at t
    rw [IntOp.cmpi_sge, z0] at t
    exact t

end Cert.PreDecode

end
-- ==== Proof.lean ====
/-
  The certificate of the reaction-term kernel against its jnp reference.

  Both programs compute, for every sample b and species s, the sum over the first-order reactions of
  (abundance of the reactant) · rate · [product = s] plus the same over the second-order reactions with the product of
  two reactant abundances. The kernel picks a reactant by a one-hot row multiplied into the row of abundances and
  collects by product species through a second one-hot matrix, reaction block by reaction block, into an accumulator
  that the second call seeds with the first call's result; the reference gathers the reactant's column (wrapping a
  negative index the NumPy way, clamping into the table) and scatter-adds into the product's column (dropping an index
  outside the table). With every reactant index in [0, 1024) and every product index non-negative — the precondition —
  the gathered entry IS the one-hot pick and the scatter collects exactly the reactions whose product word is s; sums of
  extended reals may be regrouped freely, so the block-by-block accumulation is the whole sum.

  The three frames: each kernel program runs as host lines, then the two regions, the accumulator carried in each
  region's invariant; the reference is host operations only. The idealization rewrote nothing, so `preserves` is
  trivial.
-/
import proofs.«430890_j60138132078971_1_alg».proof.Defs
import proofs.«430890_j60138132078971_1_alg».proof.Proof.Gen.Kernel
import proofs.«430890_j60138132078971_1_alg».proof.Proof.Gen.KernelIdeal
import proofs.«430890_j60138132078971_1_alg».proof.Proof.Gen.ReferenceIdeal
import proofs.«430890_j60138132078971_1_alg».proof.Proof.Gen.ReferenceIdeal.Run
import proofs.«430890_j60138132078971_1_alg».proof.Proof.Gen.ReferenceIdeal.Read
import proofs.«430890_j60138132078971_1_alg».proof.Proof.Gen.Pre_finite_inputs
import proofs.«430890_j60138132078971_1_alg».proof.Proof.Run
import proofs.«430890_j60138132078971_1_alg».proof.Proof.BitsRun
import proofs.«430890_j60138132078971_1_alg».proof.Proof.KernelValue
import proofs.«430890_j60138132078971_1_alg».proof.Proof.RefValue
import proofs.«430890_j60138132078971_1_alg».proof.Proof.PreDecode
import Idealize.ShloMosaic.Adequacy
import Idealize.ShloMosaic.Init

set_option maxRecDepth 16384
set_option maxHeartbeats 1000000

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs and leaves its arguments as launched. -/
theorem frame_kernel : Cert.frame_Kernel := fun m ρ _ =>
  (θ_run Cert.Kernel.defs _ _).mono (fun _ h c => (h c).2) (Cert.Kernel.Run.run_named (F := Bits) m ρ)

/-- So does the idealized kernel. -/
theorem frame_kernelIdeal : Cert.frame_KernelIdeal := fun m ρ _ =>
  (θ_run Cert.KernelIdeal.defs _ _).mono (fun _ h c => (h c).2) (Cert.KernelIdeal.Run.run_named (F := Ideal) m ρ)

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's last stage depends only on its seven argument arrays. -/
theorem stage_congr {x0 x0' : (⟨2, ![4096, 1024]⟩ : Shape).Idx → EReal} {x1 x1' : (⟨2, ![4096, 4096]⟩ : Shape).Idx → EReal}
    {x2 x2' : (⟨2, ![4096, 16384]⟩ : Shape).Idx → EReal} {x3 x3' x4 x4' : (⟨1, ![4096]⟩ : Shape).Idx → BitVec 32}
    {x5 x5' : (⟨2, ![16384, 2]⟩ : Shape).Idx → BitVec 32} {x6 x6' : (⟨1, ![16384]⟩ : Shape).Idx → BitVec 32}
    (h0 : x0' = x0) (h1 : x1' = x1) (h2 : x2' = x2) (h3 : x3' = x3) (h4 : x4' = x4) (h5 : x5' = x5) (h6 : x6' = x6) :
    Cert.ReferenceIdeal.Read.val_main_v42 (F := Ideal) x0' x1' x2' x3' x4' x5' x6'
      = Cert.ReferenceIdeal.Read.val_main_v42 (F := Ideal) x0 x1 x2 x3 x4 x5 x6 := by
  subst h0 h1 h2 h3 h4 h5 h6; rfl

/-- Both idealized programs end with the reaction term `G` of the (agreeing) arguments in their result arrays. -/
theorem algebraic : Cert.algebraic_KernelIdeal_ReferenceIdeal := by
  intro m ρ m' ρ' hpre hagree
  refine ⟨fun c => Cert.Reaction.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.result_eq m c), (h c).2⟩)
      (Cert.KernelIdeal.Run.run_named (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6⟩ := hagree c
    obtain ⟨hr1, hr2, hp1, hp2⟩ := Cert.PreDecode.ranges (F := Ideal) _ _ _ _ _ _ _ (hpre c)
    refine (h c).1.trans ?_
    refine (Cert.ReferenceIdeal.Read.val_main_v42_eq (F := Ideal) _ _ _ _ _ _ _).trans ?_
    refine (stage_congr h0 h1 h2 h3 h4 h5 h6).trans ?_
    exact Cert.ReferenceIdeal.RefValue.ref_value _ _ _ _ _ _ _ hr1 hr2 hp1 hp2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
